-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x512x512 : Shape := ⟨4, ![4, 1, 512, 512]⟩
abbrev S4x4096 : Shape := ⟨2, ![4, 4096]⟩
abbrev S_ : Shape := ⟨0, ![]⟩

class Facts : Prop where
  bcast_S_S4x1x512x512 : S_.BroadcastsInDim S4x1x512x512 (![] : Fin 0 → Fin S4x1x512x512.rank)
  reducesTo_S4x1x512x512_S_d0_1_2_3 : S4x1x512x512.ReducesTo [0, 1, 2, 3] S_
  h_S_ : 0 < S_.numel

variable [Facts]

def fn {F : FTy → Type} [FloatOps F] (main_arg0 : FVec F S4x1x512x512 .f32) (main_arg1 : IVec S4x1x512x512 32) (main_arg2 : IVec S4x4096 32) : IVec S_ 1 :=
  let main_v0 : FVec F S4x1x512x512 .f32 := Host.absf main_arg0
  let main_cst : FVec F S_ .f32 := constant S_ .f32 0x7F800000#32
  let main_v1 : FVec F S4x1x512x512 .f32 := broadcastInDim S4x1x512x512 ![] bcast_S_S4x1x512x512 main_cst
  let main_v2 : IVec S4x1x512x512 1 := cmpf .olt main_v0 main_v1
  let main_c : IVec S_ 1 := constantI S_ 1 1#1
  let main_v3 : IVec S_ 1 := (fun x v => Host.reduce IntOp.andi x v reducesTo_S4x1x512x512_S_d0_1_2_3 h_S_) main_v2 main_c
  main_v3
-- ==== Kernel.lean ====
abbrev S4x1x512x512 : Shape := ⟨4, ![4, 1, 512, 512]⟩
abbrev S4x4096 : Shape := ⟨2, ![4, 4096]⟩
abbrev S10 : Shape := ⟨1, ![10]⟩
abbrev S4x262144 : Shape := ⟨2, ![4, 262144]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x1x4096 : Shape := ⟨3, ![4, 1, 4096]⟩
abbrev S4x1x128 : Shape := ⟨3, ![4, 1, 128]⟩
abbrev S1x1x1024 : Shape := ⟨3, ![1, 1, 1024]⟩
abbrev S1x1x128 : Shape := ⟨3, ![1, 1, 128]⟩
abbrev S1x1 : Shape := ⟨2, ![1, 1]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1x1024x1 : Shape := ⟨3, ![1, 1024, 1]⟩
abbrev S4x1x1 : Shape := ⟨3, ![4, 1, 1]⟩
abbrev S4 : Shape := ⟨1, ![4]⟩

abbrev nBuf : Space → Nat
  | .hbm => 58
  | .vmem => 11
  | .smem => 2
  | _ => 0

abbrev bufTy : (tb : Table) → Fin (tcTables nBuf tb) → BufTy
  | .hbm, ⟨0, _⟩ => ⟨S4x1x512x512, .f32⟩
  | .hbm, ⟨1, _⟩ => ⟨S4x1x512x512, .i32⟩
  | .hbm, ⟨2, _⟩ => ⟨S4x4096, .i32⟩
  | .hbm, ⟨3, _⟩ => ⟨S4x262144, .f32⟩
  | .hbm, ⟨4, _⟩ => ⟨S4x262144, .i32⟩
  | .hbm, ⟨5, _⟩ => ⟨S_, .i32⟩
  | .hbm, ⟨6, _⟩ => ⟨S4x4096, .i32⟩
  | .hbm, ⟨7, _⟩ => ⟨S4x4096, .i1⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x4096x1, .i32⟩
  | .hbm, ⟨13, _⟩ => ⟨S1, .i32⟩
  | .hbm, ⟨14, _⟩ => ⟨S_, .i32⟩
  | .hbm, ⟨15, _⟩ => ⟨S4x4096x1, .i32⟩
  | .hbm, ⟨16, _⟩ => ⟨S4x4096x1, .i1⟩
  | .hbm, ⟨17, _⟩ => ⟨S1x1x1, .i32⟩
  | .hbm, ⟨18, _⟩ => ⟨S4x4096x1, .i32⟩
  | .hbm, ⟨19, _⟩ => ⟨S4x4096x1, .i1⟩
  | .hbm, ⟨20, _⟩ => ⟨S4x4096x1, .i1⟩
  | .hbm, ⟨21, _⟩ => ⟨S_, .i1⟩
  | .hbm, ⟨22, _⟩ => ⟨S4x4096, .i1⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S_, .i32⟩
  | .hbm, ⟨28, _⟩ => ⟨S4x4096, .i32⟩
  | .hbm, ⟨29, _⟩ => ⟨S4x4096, .i1⟩
  | .hbm, ⟨30, _⟩ => ⟨S_, .i32⟩
  | .hbm, ⟨31, _⟩ => ⟨S4x4096, .i32⟩
  | .hbm, ⟨32, _⟩ => ⟨S4x4096, .i32⟩
  | .hbm, ⟨33, _⟩ => ⟨S4x4096, .i32⟩
  | .hbm, ⟨34, _⟩ => ⟨S4x4096x1, .i32⟩
  | .hbm, ⟨35, _⟩ => ⟨S1, .i32⟩
  | .hbm, ⟨36, _⟩ => ⟨S_, .i32⟩
  | .hbm, ⟨37, _⟩ => ⟨S4x4096x1, .i32⟩
  | .hbm, ⟨38, _⟩ => ⟨S4x4096x1, .i1⟩
  | .hbm, ⟨39, _⟩ => ⟨S1x1x1, .i32⟩
  | .hbm, ⟨40, _⟩ => ⟨S4x4096x1, .i32⟩
  | .hbm, ⟨41, _⟩ => ⟨S4x4096x1, .i1⟩
  | .hbm, ⟨42, _⟩ => ⟨S4x4096x1, .i1⟩
  | .hbm, ⟨43, _⟩ => ⟨S_, .i1⟩
  | .hbm, ⟨44, _⟩ => ⟨S4x4096, .i1⟩
  | .hbm, ⟨45, _⟩ => ⟨S4x4096, .i32⟩
  | .hbm, ⟨46, _⟩ => ⟨S_, .i32⟩
  | .hbm, ⟨47, _⟩ => ⟨S4x4096, .i32⟩
  | .hbm, ⟨48, _⟩ => ⟨S4x4096, .i32⟩
  | .hbm, ⟨49, _⟩ => ⟨S4x1x4096, .f32⟩
  | .hbm, ⟨50, _⟩ => ⟨S4x1x4096, .i32⟩
  | .hbm, ⟨51, _⟩ => ⟨S4x1x128, .f32⟩
  | .hbm, ⟨52, _⟩ => ⟨S4x1x1, .f32⟩
  | .hbm, ⟨53, _⟩ => ⟨S4, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .i32⟩
  | .local _ .vmem, ⟨3, _⟩ => ⟨S1x1x1024, .i32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .i32⟩
  | .local _ .vmem, ⟨7, _⟩ => ⟨S1x1x1024, .i32⟩
  | .local _ .vmem, ⟨8, _⟩ => ⟨S1x1x128, .f32⟩
  | .local _ .vmem, ⟨9, _⟩ => ⟨S1x1x128, .f32⟩
  | .local _ .vmem, ⟨10, _⟩ => ⟨S1x1, .f32⟩
  | .local _ .smem, ⟨0, _⟩ => ⟨S10, .i32⟩
  | .local _ .smem, ⟨1, _⟩ => ⟨S10, .i32⟩
  | _, _ => ⟨S4x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v2 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_c_4 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_cst : Ref sig .tc := ⟨.hbm, 54, rfl⟩
abbrev main_v9 : Ref sig .tc := ⟨.hbm, 55, rfl⟩
abbrev main_cst_1 : Ref sig .tc := ⟨.hbm, 56, rfl⟩
abbrev main_v10 : Ref sig .tc := ⟨.hbm, 57, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (i : grid0.Coords) : BitVec 1 :=
  let arg1 : BitVec 32 := BitVec.ofNat 32 (i 1).val
  let c9_i32 : BitVec 32 := 9#32
  let v77 : BitVec 1 := Scalar.cmpi .eq arg1 c9_i32
  let v78 : BitVec 32 := Scalar.extui v77
  let c0_i32_32 : BitVec 32 := 0#32
  let v79 : BitVec 1 := Scalar.cmpi .ne v78 c0_i32_32
  v79

def cc0_transform_0 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_2 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_3 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x1x512x512_S4x262144 : S4x1x512x512.ShapeCasts S4x262144
  bcast_S_S4x4096 : S_.BroadcastsInDim S4x4096 (![] : Fin 0 → Fin S4x4096.rank)
  shapeCasts_S4x4096_S4x4096x1 : S4x4096.ShapeCasts S4x4096x1
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x1x4096_0_2 : S4x4096.BroadcastsInDim S4x1x4096 (![0, 2] : Fin 2 → Fin S4x1x4096.rank)
  numel1_S1 : S1.numel = 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S4x1x128_S4x1x1_0_0_0 : S4x1x128.Slices ![0, 0, 0] S4x1x1
  shapeCasts_S4x1x1_S4 : S4x1x1.ShapeCasts S4
  reducesTo_S4_S_d0 : S4.ReducesTo [0] S_
  gather_S4x262144_S4x4096x1_S4x4096_n_1_0_0_1_2_11_wf : GatherDims.WF S4x262144 S4x4096x1 S4x4096 [] [1] [0] [1] [0] 2 ![1, 1]
  dot_S1024x1024_S1024x1_S1024x1_1_0_0_1_n_n_wf : DotDims.WF S1024x1024 S1024x1 S1024x1 [1] [0] [0] [1] [] []
  hrank0 : 0 < grid0.rank
  k0_off1_inb : ∀ i : grid0.Coords, ∀ a, (k0_off1 i) a + S1.size a ≤ S10.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S4x1x128.size a
  hwx0_4 : ∀ i : grid0.Coords, EltTy.bits .f32 = 32 ∨ (Rect.block (s := S4x1x128) S1x1x128.size (cc0_transform_4 i) (hinb0_4 i)).WholeWords (EltTy.packing .f32)

variable [Facts₀]

def gather_S4x262144_S4x4096x1_S4x4096_n_1_0_0_1_2_11 : GatherDims S4x262144 S4x4096x1 S4x4096 where
  offsetDims := []
  collapsedSliceDims := [1]
  operandBatchingDims := [0]
  startIndicesBatchingDims := [0]
  startIndexMap := [1]
  indexVectorDim := 2
  sliceSizes := ![1, 1]
  wf := gather_S4x262144_S4x4096x1_S4x4096_n_1_0_0_1_2_11_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev spec0_0 : Pipeline.WinSpec sig grid0.rank :=
  Pipeline.WinSpec.ofSpec (Memref.whole main_v4) S1x1x1024.size reads0_0 false false 2 stage0_0 sem0_0 nbuf0_0 hstage0_0

abbrev spec0_1 : Pipeline.WinSpec sig grid0.rank :=
  Pipeline.WinSpec.ofSpec (Memref.whole main_v5) S1x1x1024.size reads0_1 false false 2 stage0_1 sem0_1 nbuf0_1 hstage0_1

abbrev spec0_2 : Pipeline.WinSpec sig grid0.rank :=
  Pipeline.WinSpec.ofSpec (Memref.whole main_v4) S1x1x1024.size reads0_2 false false 2 stage0_2 sem0_2 nbuf0_2 hstage0_2

abbrev spec0_3 : Pipeline.WinSpec sig grid0.rank :=
  Pipeline.WinSpec.ofSpec (Memref.whole main_v5) S1x1x1024.size reads0_3 false false 2 stage0_3 sem0_3 nbuf0_3 hstage0_3

abbrev spec0_4 : Pipeline.WinSpec sig grid0.rank :=
  Pipeline.WinSpec.ofSpec (Memref.whole main_v6) S1x1x128.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x1024.size a ≤ S4x1x4096.size a), EltTy.bits .f32 = 32 ∨ (Rect.block (s := S4x1x4096) S1x1x1024.size (cc0_transform_0 k0_off1_inb numel1_S1 pf i) h).WholeWords (EltTy.packing .f32)) ∧
  (∀ i : grid0.Coords, ∃ h : (∀ a, (cc0_transform_1 k0_off1_inb numel1_S1 pf i a + 1) * S1x1x1024.size a ≤ S4x1x4096.size a), EltTy.bits .i32 = 32 ∨ (Rect.block (s := S4x1x4096) S1x1x1024.size (cc0_transform_1 k0_off1_inb numel1_S1 pf i) h).WholeWords (EltTy.packing .i32)) ∧
  (∀ i : grid0.Coords, ∃ h : (∀ a, (cc0_transform_2 k0_off1_inb numel1_S1 pf i a + 1) * S1x1x1024.size a ≤ S4x1x4096.size a), EltTy.bits .f32 = 32 ∨ (Rect.block (s := S4x1x4096) S1x1x1024.size (cc0_transform_2 k0_off1_inb numel1_S1 pf i) h).WholeWords (EltTy.packing .f32)) ∧
  (∀ i : grid0.Coords, ∃ h : (∀ a, (cc0_transform_3 k0_off1_inb numel1_S1 pf i a + 1) * S1x1x1024.size a ≤ S4x1x4096.size a), EltTy.bits .i32 = 32 ∨ (Rect.block (s := S4x1x4096) S1x1x1024.size (cc0_transform_3 k0_off1_inb numel1_S1 pf i) h).WholeWords (EltTy.packing .i32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx0_4 | ⟨_ + 5, h⟩ => absurd h (Nat.not_lt.2 (Nat.le_add_left _ _))
abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S4x1x512x512 : Shape := ⟨4, ![4, 1, 512, 512]⟩
abbrev S4x4096 : Shape := ⟨2, ![4, 4096]⟩
abbrev S4x262144 : Shape := ⟨2, ![4, 262144]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x1x4096 : Shape := ⟨3, ![4, 1, 4096]⟩
abbrev S4x4096x4096 : Shape := ⟨3, ![4, 4096, 4096]⟩
abbrev S4096x4096 : Shape := ⟨2, ![4096, 4096]⟩
abbrev S4 : Shape := ⟨1, ![4]⟩

abbrev nBuf : Space → Nat
  | .hbm => 132
  | .vmem => 0
  | .smem => 0
  | _ => 0

abbrev hbmTy0_0 (i : Nat) : BufTy := match i % 128 with
  | 0 => ⟨S4x1x512x512, .f32⟩
  | 1 => ⟨S4x1x512x512, .i32⟩
  | 2 => ⟨S4x4096, .i32⟩
  | 3 => ⟨S4x262144, .f32⟩
  | 4 => ⟨S_, .i32⟩
  | 5 => ⟨S4x4096, .i32⟩
  | 6 => ⟨S4x4096, .i1⟩
  | 7 => ⟨S_, .i32⟩
  | 8 => ⟨S4x4096, .i32⟩
  | 9 => ⟨S4x4096, .i32⟩
  | 10 => ⟨S4x4096, .i32⟩
  | 11 => ⟨S4x4096x1, .i32⟩
  | 12 => ⟨S1, .i32⟩
  | 13 => ⟨S_, .i32⟩
  | 14 => ⟨S4x4096x1, .i32⟩
  | 15 => ⟨S4x4096x1, .i1⟩
  | 16 => ⟨S1x1x1, .i32⟩
  | 17 => ⟨S4x4096x1, .i32⟩
  | 18 => ⟨S4x4096x1, .i1⟩
  | 19 => ⟨S4x4096x1, .i1⟩
  | 20 => ⟨S_, .i1⟩
  | 21 => ⟨S4x4096, .i1⟩
  | 22 => ⟨S4x4096, .f32⟩
  | 23 => ⟨S_, .f32⟩
  | 24 => ⟨S4x4096, .f32⟩
  | 25 => ⟨S4x4096, .f32⟩
  | 26 => ⟨S4x262144, .i32⟩
  | 27 => ⟨S_, .i32⟩
  | 28 => ⟨S4x4096, .i32⟩
  | 29 => ⟨S4x4096, .i1⟩
  | 30 => ⟨S_, .i32⟩
  | 31 => ⟨S4x4096, .i32⟩
  | 32 => ⟨S4x4096, .i32⟩
  | 33 => ⟨S4x4096, .i32⟩
  | 34 => ⟨S4x4096x1, .i32⟩
  | 35 => ⟨S1, .i32⟩
  | 36 => ⟨S_, .i32⟩
  | 37 => ⟨S4x4096x1, .i32⟩
  | 38 => ⟨S4x4096x1, .i1⟩
  | 39 => ⟨S1x1x1, .i32⟩
  | 40 => ⟨S4x4096x1, .i32⟩
  | 41 => ⟨S4x4096x1, .i1⟩
  | 42 => ⟨S4x4096x1, .i1⟩
  | 43 => ⟨S_, .i1⟩
  | 44 => ⟨S4x4096, .i1⟩
  | 45 => ⟨S4x4096, .i32⟩
  | 46 => ⟨S_, .i32⟩
  | 47 => ⟨S4x4096, .i32⟩
  | 48 => ⟨S4x4096, .i32⟩
  | 49 => ⟨S4x4096x1, .f32⟩
  | 50 => ⟨S_, .f32⟩
  | 51 => ⟨S4x4096, .f32⟩
  | 52 => ⟨S4x4096, .f32⟩
  | 53 => ⟨S4x1x4096, .f32⟩
  | 54 => ⟨S4x4096x4096, .f32⟩
  | 55 => ⟨S4x4096x4096, .f32⟩
  | 56 => ⟨S4x4096x4096, .f32⟩
  | 57 => ⟨S_, .f32⟩
  | 58 => ⟨S4x4096x4096, .f32⟩
  | 59 => ⟨S4x4096x4096, .f32⟩
  | 60 => ⟨S4x4096x4096, .f32⟩
  | 61 => ⟨S4x4096x1, .i32⟩
  | 62 => ⟨S4x1x4096, .i32⟩
  | 63 => ⟨S4x4096x4096, .i32⟩
  | 64 => ⟨S4x4096x4096, .i32⟩
  | 65 => ⟨S4x4096x4096, .i1⟩
  | 66 => ⟨S4x4096x4096, .f32⟩
  | 67 => ⟨S_, .f32⟩
  | 68 => ⟨S4x4096x4096, .f32⟩
  | 69 => ⟨S4x4096x4096, .f32⟩
  | 70 => ⟨S_, .f32⟩
  | 71 => ⟨S4x4096x4096, .f32⟩
  | 72 => ⟨S4x4096x4096, .i1⟩
  | 73 => ⟨S4x4096x4096, .f32⟩
  | 74 => ⟨S_, .f32⟩
  | 75 => ⟨S4x4096x4096, .f32⟩
  | 76 => ⟨S4x4096x4096, .f32⟩
  | 77 => ⟨S_, .f32⟩
  | 78 => ⟨S4x4096x4096, .f32⟩
  | 79 => ⟨S4x4096x4096, .f32⟩
  | 80 => ⟨S_, .f32⟩
  | 81 => ⟨S4x4096x4096, .f32⟩
  | 82 => ⟨S4x4096x4096, .f32⟩
  | 83 => ⟨S4x4096x4096, .f32⟩
  | 84 => ⟨S4x4096x4096, .f32⟩
  | 85 => ⟨S_, .f32⟩
  | 86 => ⟨S4x4096x4096, .f32⟩
  | 87 => ⟨S4x4096x4096, .f32⟩
  | 88 => ⟨S_, .f32⟩
  | 89 => ⟨S4x4096x4096, .f32⟩
  | 90 => ⟨S4x4096x4096, .f32⟩
  | 91 => ⟨S_, .f32⟩
  | 92 => ⟨S4x4096x4096, .f32⟩
  | 93 => ⟨S4x4096x4096, .i1⟩
  | 94 => ⟨S4x4096x4096, .f32⟩
  | 95 => ⟨S_, .f32⟩
  | 96 => ⟨S4x4096x4096, .f32⟩
  | 97 => ⟨S4x4096x4096, .f32⟩
  | 98 => ⟨S_, .f32⟩
  | 99 => ⟨S4x4096x4096, .f32⟩
  | 100 => ⟨S4x4096x4096, .f32⟩
  | 101 => ⟨S_, .f32⟩
  | 102 => ⟨S4x4096x4096, .f32⟩
  | 103 => ⟨S4x4096x4096, .f32⟩
  | 104 => ⟨S4x4096x4096, .f32⟩
  | 105 => ⟨S4x4096x4096, .f32⟩
  | 106 => ⟨S4x4096x4096, .f32⟩
  | 107 => ⟨S_, .i1⟩
  | 108 => ⟨S4096x4096, .i1⟩
  | 109 => ⟨S4096x4096, .i32⟩
  | 110 => ⟨S_, .i32⟩
  | 111 => ⟨S4096x4096, .i32⟩
  | 112 => ⟨S4096x4096, .i32⟩
  | 113 => ⟨S4096x4096, .i32⟩
  | 114 => ⟨S4096x4096, .i1⟩
  | 115 => ⟨S_, .i1⟩
  | 116 => ⟨S4096x4096, .i1⟩
  | 117 => ⟨S4096x4096, .i1⟩
  | 118 => ⟨S_, .f32⟩
  | 119 => ⟨S_, .f32⟩
  | 120 => ⟨S4x4096x4096, .i1⟩
  | 121 => ⟨S4x4096x4096, .f32⟩
  | 122 => ⟨S4x4096x4096, .f32⟩
  | 123 => ⟨S_, .f32⟩
  | 124 => ⟨S4, .f32⟩
  | 125 => ⟨S_, .f32⟩
  | 126 => ⟨S4, .f32⟩
  | 127 => ⟨S4, .f32⟩
  | _ => ⟨S4x1x512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S4x1x512x512, .f32⟩

abbrev hbmTy (i : Nat) : BufTy := match i / 128 with
  | 0 => hbmTy0_0 i
  | 1 => hbmTy0_1 i
  | _ => ⟨S4x1x512x512, .f32⟩

abbrev bufTy : (tb : Table) → Fin (tcTables nBuf tb) → BufTy
  | .hbm, ⟨i, _⟩ => hbmTy i
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_c_4 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_call2_cst : Ref sig .tc := ⟨.hbm, 50, rfl⟩
abbrev main_call2_v0 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_call3_cst : Ref sig .tc := ⟨.hbm, 57, rfl⟩
abbrev main_call3_v0 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_cst : Ref sig .tc := ⟨.hbm, 67, rfl⟩
abbrev main_v18 : Ref sig .tc := ⟨.hbm, 68, rfl⟩
abbrev main_v19 : Ref sig .tc := ⟨.hbm, 69, rfl⟩
abbrev main_cst_0 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_cst_1 : Ref sig .tc := ⟨.hbm, 74, rfl⟩
abbrev main_v23 : Ref sig .tc := ⟨.hbm, 75, rfl⟩
abbrev main_v24 : Ref sig .tc := ⟨.hbm, 76, rfl⟩
abbrev main_cst_2 : Ref sig .tc := ⟨.hbm, 77, rfl⟩
abbrev main_v25 : Ref sig .tc := ⟨.hbm, 78, rfl⟩
abbrev main_v26 : Ref sig .tc := ⟨.hbm, 79, rfl⟩
abbrev main_cst_3 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_cst_4 : Ref sig .tc := ⟨.hbm, 85, rfl⟩
abbrev main_v31 : Ref sig .tc := ⟨.hbm, 86, rfl⟩
abbrev main_v32 : Ref sig .tc := ⟨.hbm, 87, rfl⟩
abbrev main_cst_5 : Ref sig .tc := ⟨.hbm, 88, rfl⟩
abbrev main_v33 : Ref sig .tc := ⟨.hbm, 89, rfl⟩
abbrev main_v34 : Ref sig .tc := ⟨.hbm, 90, rfl⟩
abbrev main_cst_6 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_cst_7 : Ref sig .tc := ⟨.hbm, 95, rfl⟩
abbrev main_v38 : Ref sig .tc := ⟨.hbm, 96, rfl⟩
abbrev main_v39 : Ref sig .tc := ⟨.hbm, 97, rfl⟩
abbrev main_cst_8 : Ref sig .tc := ⟨.hbm, 98, rfl⟩
abbrev main_v40 : Ref sig .tc := ⟨.hbm, 99, rfl⟩
abbrev main_v41 : Ref sig .tc := ⟨.hbm, 100, rfl⟩
abbrev main_cst_9 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_c : Ref sig .tc := ⟨.hbm, 107, rfl⟩
abbrev main_v47 : Ref sig .tc := ⟨.hbm, 108, rfl⟩
abbrev main_call6_v0 : Ref sig .tc := ⟨.hbm, 109, rfl⟩
abbrev main_call6_c : Ref sig .tc := ⟨.hbm, 110, rfl⟩
abbrev main_call6_v1 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_call6_c_0 : Ref sig .tc := ⟨.hbm, 115, rfl⟩
abbrev main_call6_v5 : Ref sig .tc := ⟨.hbm, 116, rfl⟩
abbrev main_v48 : Ref sig .tc := ⟨.hbm, 117, rfl⟩
abbrev main_cst_10 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_v49 : Ref sig .tc := ⟨.hbm, 122, rfl⟩
abbrev main_cst_11 : Ref sig .tc := ⟨.hbm, 123, rfl⟩
abbrev main_v50 : Ref sig .tc := ⟨.hbm, 124, rfl⟩
abbrev main_cst_12 : Ref sig .tc := ⟨.hbm, 125, rfl⟩
abbrev main_v51 : Ref sig .tc := ⟨.hbm, 126, rfl⟩
abbrev main_v52 : Ref sig .tc := ⟨.hbm, 127, rfl⟩
abbrev main_cst_13 : Ref sig .tc := ⟨.hbm, 128, rfl⟩
abbrev main_v53 : Ref sig .tc := ⟨.hbm, 129, rfl⟩
abbrev main_cst_14 : Ref sig .tc := ⟨.hbm, 130, rfl⟩
abbrev main_v54 : Ref sig .tc := ⟨.hbm, 131, rfl⟩

abbrev nD : Nat := 1
abbrev τ : Topo := Topo.v7x

variable {F : FTy → Type} [FloatOps F]

class Facts₀ : Prop where
  shapeCasts_S4x1x512x512_S4x262144 : S4x1x512x512.ShapeCasts S4x262144
  bcast_S_S4x4096 : S_.BroadcastsInDim S4x4096 (![] : Fin 0 → Fin S4x4096.rank)
  shapeCasts_S4x4096_S4x4096x1 : S4x4096.ShapeCasts S4x4096x1
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4_d1_2 : S4x4096x4096.ReducesTo [1, 2] S4
  bcast_S_S4 : S_.BroadcastsInDim S4 (![] : Fin 0 → Fin S4.rank)
  reducesTo_S4_S_d0 : S4.ReducesTo [0] S_
  gather_S4x262144_S4x4096x1_S4x4096_n_1_0_0_1_2_11_wf : GatherDims.WF S4x262144 S4x4096x1 S4x4096 [] [1] [0] [1] [0] 2 ![1, 1]

variable [Facts₀]

def gather_S4x262144_S4x4096x1_S4x4096_n_1_0_0_1_2_11 : GatherDims S4x262144 S4x4096x1 S4x4096 where
  offsetDims := []
  collapsedSliceDims := [1]
  operandBatchingDims := [0]
  startIndicesBatchingDims := [0]
  startIndexMap := [1]
  indexVectorDim := 2
  sliceSizes := ![1, 1]
  wf := gather_S4x262144_S4x4096x1_S4x4096_n_1_0_0_1_2_11_wf

class Facts : Prop extends Facts₀ where

variable [Facts]
-- ==== Proof.K.Setup.lean ====
/-
  The pairwise-loss kernel's pipeline, set up for a frame proof by hand: the buffer contents at the region's entry
  (after the host gathers), the two prefetched tile tables read off them and admitted (every block they name lies
  inside its array), the blocks each window stages at a grid point, the body's two branch conditions in closed form
  over the 4 × 10 grid (the accumulator is reset at tile step 0 and drained at tile step 9), where the output
  window is idle and when it is written back, and the body as the pipeline calls it.
-/
import proofs.«400616_j27212912788010_3_alg».proof.Proof.Gen.Kernel.Launch
import proofs.«400616_j27212912788010_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the four stretches of host operations before it
    (the table constants and reshapes, the two gathers, the two broadcasts). -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

/-! ## The prefetched tables -/

/-- The tables' contents at the region's entry (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- They are the two literal tables @main writes first: the row tiles and the column tiles of the ten steps. -/
theorem tbl_zero : tbl m 0 = fun i => lit0 (S10.rowMajor i) := by
  unfold tbl; dsimp only [V, V0]
  simp only [hostOps0, hostOps0_1, hostOps0_2, hostOps0_3, List.flatten_cons, List.flatten_nil, List.append_nil, List.cons_append, List.nil_append]
  after_results; rfl
theorem tbl_one : tbl m 1 = fun i => lit1 (S10.rowMajor i) := by
  unfold tbl; dsimp only [V, V0]
  simp only [hostOps0, hostOps0_1, hostOps0_2, hostOps0_3, List.flatten_cons, List.flatten_nil, List.append_nil, List.cons_append, List.nil_append]
  after_results; rfl

/-- Every block the tables name lies inside its array (each entry is below 4, a block is 1024 of 4096 wide). -/
theorem ok_tbl : ok0 (F := F) (tbl m) := by
  -- every entry of either literal table is below 4, and so is a grid row as a word
  have lit0_lt : ∀ k : Fin 10, (lit0 k).toNat < 4 := by decide
  have lit1_lt : ∀ k : Fin 10, (lit1 k).toNat < 4 := by decide
  have row_lt : ∀ i : grid0.Coords, (BitVec.ofNat 32 (i 0).val).toNat < 4 := fun i => by
    have h : (i 0).val < 4 := (i 0).isLt
    rw [BitVec.toNat_ofNat]; omega
  -- the block [r, 0, w] of size [1, 1, 1024] lies inside [4, 1, 4096] once r < 4 and w < 4
  have inb_of : ∀ r w : Nat, r < 4 → w < 4 →
      ∀ a, ((![r, (0#32 : BitVec 32).toNat, w] : Fin 3 → Nat) a + 1) * S1x1x1024.size a ≤ S4x1x4096.size a := by
    intro r w hr hw a
    fin_cases a
    · show (r + 1) * 1 ≤ 4; omega
    · show ((0#32 : BitVec 32).toNat + 1) * 1 ≤ 1; decide
    · show (w + 1) * 1024 ≤ 4096; omega
  -- the side condition at ANY contents whose words are below 4; the literal tables come in last
  have ok_of : ∀ pf : pre0.Contents (Elt F), (∀ x, (pf 0 x : BitVec 32).toNat < 4) → (∀ x, (pf 1 x : BitVec 32).toNat < 4) →
      ok0 (F := F) pf := fun pf h0 h1 =>
    ⟨fun i => ⟨inb_of _ _ (row_lt i) (h0 _), Or.inl rfl⟩, fun i => ⟨inb_of _ _ (row_lt i) (h0 _), Or.inl rfl⟩,
     fun i => ⟨inb_of _ _ (row_lt i) (h1 _), Or.inl rfl⟩, fun i => ⟨inb_of _ _ (row_lt i) (h1 _), Or.inl rfl⟩⟩
  refine ok_of (tbl m) (fun x => ?_) (fun x => ?_)
  · rw [tbl_zero]; exact lit0_lt _
  · rw [tbl_one]; exact lit1_lt _

/-- The tables as admissible contents, and the pipeline at them. -/
abbrev adm : (pcfg0 (F := F)).Adm := ⟨tbl m, ok_tbl m⟩
abbrev cfgM : Pipeline.Cfg sig Λ₀ := cfg0 (adm m)

theorem N_M : (cfgM m).N = 40 := N_0

/-- Each table as the body is handed it. -/
abbrev tbM0 : Memref sig .tc .smem S10 .i32 := Memref.whole main_c
abbrev htbM0 : tbM0.IsWhole := Memref.isWhole_whole _
abbrev tbM1 : Memref sig .tc .smem S10 .i32 := Memref.whole main_c_0
abbrev htbM1 : tbM1.IsWhole := Memref.isWhole_whole _

abbrev TbBuf (c : Dev nD) {S : Shape} {e : EltTy} (M : Memref sig .tc .smem S e) : Type := Buf (Elt F) (M.view.loc (c : Thread nD τ))
/-- A table's buffer held at half the full share (read-only: the pipeline keeps the other half). -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array at the region's entry. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-! ## The body's branch conditions -/

/-- The accumulator is reset: the tile step is 0. -/
abbrev condR (i : grid0.Coords) : Prop := (Scalar.cmpi .ne (Scalar.extui (Scalar.cmpi .eq (BitVec.ofNat 32 (i 1).val) 0#32)) 0#32) = 1#1
theorem hcondR : ∀ t : Fin grid0.N, condR (grid0.coords t) ↔ t.val % 10 = 0 := by decide +kernel
/-- The accumulator is drained into the output block: the tile step is 9. -/
abbrev condD (i : grid0.Coords) : Prop := k0_cond2 i = 1#1
theorem hcondD : ∀ t : Fin grid0.N, condD (grid0.coords t) ↔ t.val % 10 = 9 := by decide +kernel

/-! ## The staging memrefs and the scratch -/

abbrev ms0 (t : Fin (cfgM m).N) : Memref sig .tc .vmem S1x1x1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1x1024 .i32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1x1024 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1x1024 .i32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x1x128 .f32 := spec0_4.stage ((cfgM m).slots t 4)
abbrev hs4 (t : Fin (cfgM m).N) : (ms4 m t).IsWhole := hstage0_4 (((cfgM m).slots t 4).cast nbuf0_4)
/-- The accumulator: a whole scoped buffer of the kernel's own. -/
abbrev scM : Memref sig .tc .vmem S1x1 .f32 := Memref.whole cc0_scratch0
abbrev hscM : scM.IsWhole := Memref.isWhole_whole _
abbrev VS : View sig .tc .vmem S1x1 .f32 := scM.view
/-- One staging buffer of the output window, through which its contents are stated. -/
abbrev VO : View sig .tc .vmem S1x1x128 .f32 := (Memref.whole cc0_stg4_0 : Memref sig .tc .vmem S1x1x128 .f32).view

/-- The kernel body at point `t`, on what the pipeline calls it with. -/
abbrev bodyAt (t : Fin (cfgM m).N) : Prog (TpuEff nD τ sig (Elt F) Λ₀ .tc) PUnit :=
  cc0__lambda_ (grid0.coords t) tbM0 htbM0 tbM1 htbM1 (ms0 m t) (hs0 m t) (ms1 m t) (hs1 m t) (ms2 m t) (hs2 m t) (ms3 m t) (hs3 m t) (ms4 m t) (hs4 m t) scM hscM

/-- The invariant of the plain class with the accumulator as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.K.RunA.lean ====
/-
  The kernel body run at a grid point of tile step 0: the accumulator is reset to zero, the tile's masked pair
  losses are summed and added to it, and nothing is stored into the output block.
-/
import proofs.«400616_j27212912788010_3_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the accumulator, as pieces (last first), at a point where the reset branch is
    taken and the drain branch is not, with the proof that from the four input blocks, the output block at any
    contents (handed back untouched), the accumulator at any contents and the two tables, the body runs to its
    return holding the inputs and tables as they were and the accumulator with the pieces written. -/
noncomputable def runA (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : condR i) (hcD : ¬condD i)
    (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) :
    { LS : List (View.Piece (Elt F) S1x1 .f32) //
      ∀ (xi4 : Vec F S1x1x128 .f32) (E : Set ℕ) (K : PUnit → sProp 𝕄),
        iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare xi4 ∗ (∃ d, owns (c : Thread nD τ) a9 fullShare d) ∗ tbPt c tbM0 xt0 ∗ tbPt c tbM1 xt1
            ∗ (iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare xi4 ∗ (∃ f, a9.view.loc (c : Thread nD τ) ↦[a9.view.set]{fullShare} a9.view.writes (Elt F) f LS) ∗ tbPt c tbM0 xt0 ∗ tbPt c tbM1 xt1) -∗ K ⟨⟩))
          ⊢ wp frame (wpE (defs₀ (F := F)) Variants.none c none) E (cc0__lambda_ i tbM0 htbM0 tbM1 htbM1 a4 h4 a5 h5 a6 h6 a7 h7 a8 h8 a9 h9) K } := by
  refine ⟨?_, fun xi4 E K => ?run⟩
  case run =>
    simp only [cc0__lambda__eq_skeleton]; unfold cc0__lambda__skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, HT0, HT1, Hk⟩
    obtain rfl := h4.eq_unread hf0; obtain rfl := h5.eq_unread hf1; obtain rfl := h6.eq_unread hf2; obtain rfl := h7.eq_unread hf3; obtain rfl := h8.eq_unread hf4
    sl_exec (disch := first | exact hcR | exact hcD)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H4]
    · iexists _; isplitr; · ipureintro; exact h8.read_unread _
      iexact H4
    isplitl [HS]; · iexists _; iexact HS
    isplitl [HT0]; · iexact HT0
    iexact HT1

end Cert.Kernel.Hand

end
-- ==== Proof.K.RunB.lean ====
/-
  The kernel body run at a grid point of a tile step strictly between 0 and 9: the tile's masked pair losses are
  summed and added to the accumulator the step before left, and nothing is stored into the output block.
-/
import proofs.«400616_j27212912788010_3_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The accumulator's pieces at a point where neither branch is taken: from the four input blocks, the output block
    at any contents (handed back untouched), the accumulator at `xs` and the two tables. -/
noncomputable def runB (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : ¬condD i)
    (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) :
    { LS : List (View.Piece (Elt F) S1x1 .f32) //
      ∀ (xi4 : Vec F S1x1x128 .f32) (E : Set ℕ) (K : PUnit → sProp 𝕄),
        iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare xi4 ∗ owns (c : Thread nD τ) a9 fullShare xs ∗ tbPt c tbM0 xt0 ∗ tbPt c tbM1 xt1
            ∗ (iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare xi4 ∗ (∃ f, a9.view.loc (c : Thread nD τ) ↦[a9.view.set]{fullShare} a9.view.writes (Elt F) f LS) ∗ tbPt c tbM0 xt0 ∗ tbPt c tbM1 xt1) -∗ K ⟨⟩))
          ⊢ wp frame (wpE (defs₀ (F := F)) Variants.none c none) E (cc0__lambda_ i tbM0 htbM0 tbM1 htbM1 a4 h4 a5 h5 a6 h6 a7 h7 a8 h8 a9 h9) K } := by
  refine ⟨?_, fun xi4 E K => ?run⟩
  case run =>
    simp only [cc0__lambda__eq_skeleton]; unfold cc0__lambda__skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, HT0, HT1, Hk⟩
    obtain rfl := h4.eq_unread hf0; obtain rfl := h5.eq_unread hf1; obtain rfl := h6.eq_unread hf2; obtain rfl := h7.eq_unread hf3; obtain rfl := h8.eq_unread hf4; obtain rfl := h9.eq_unread hfs
    sl_exec (disch := first | exact hcR | exact hcD)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H4]
    · iexists _; isplitr; · ipureintro; exact h8.read_unread _
      iexact H4
    isplitl [HS]; · iexists _; iexact HS
    isplitl [HT0]; · iexact HT0
    iexact HT1

end Cert.Kernel.Hand

end
-- ==== Proof.K.RunC.lean ====
/-
  The kernel body run at a grid point of tile step 9: the tile's masked pair losses are summed and added to the
  accumulator the step before left, and the total divided by the number of pairs is stored across the output block.
-/
import proofs.«400616_j27212912788010_3_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The output block's and the accumulator's pieces at a point where the drain branch is taken and the reset branch
    is not: from the four input blocks, the output block at any contents, the accumulator at `xs` and the tables. -/
noncomputable def runC (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : condD i)
    (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) :
    Σ' (L4 : List (View.Piece (Elt F) S1x1x128 .f32)), { LS : List (View.Piece (Elt F) S1x1 .f32) //
      ∀ (E : Set ℕ) (K : PUnit → sProp 𝕄),
        iprop(owns (c : Thread nD τ) a4 fullShare x0 ∗ owns (c : Thread nD τ) a5 fullShare x1 ∗ owns (c : Thread nD τ) a6 fullShare x2 ∗ owns (c : Thread nD τ) a7 fullShare x3 ∗ (∃ d, owns (c : Thread nD τ) a8 fullShare d) ∗ owns (c : Thread nD τ) a9 fullShare xs ∗ tbPt c tbM0 xt0 ∗ tbPt c tbM1 xt1
            ∗ (iprop(owns (c : Thread nD τ) a4 fullShare x0 ∗ owns (c : Thread nD τ) a5 fullShare x1 ∗ owns (c : Thread nD τ) a6 fullShare x2 ∗ owns (c : Thread nD τ) a7 fullShare x3 ∗ (∃ f, a8.view.loc (c : Thread nD τ) ↦[a8.view.set]{fullShare} a8.view.writes (Elt F) f L4) ∗ (∃ f, a9.view.loc (c : Thread nD τ) ↦[a9.view.set]{fullShare} a9.view.writes (Elt F) f LS) ∗ tbPt c tbM0 xt0 ∗ tbPt c tbM1 xt1) -∗ K ⟨⟩))
          ⊢ wp frame (wpE (defs₀ (F := F)) Variants.none c none) E (cc0__lambda_ i tbM0 htbM0 tbM1 htbM1 a4 h4 a5 h5 a6 h6 a7 h7 a8 h8 a9 h9) K } := by
  refine ⟨?_, ?_, fun E K => ?run⟩
  case run =>
    simp only [cc0__lambda__eq_skeleton]; unfold cc0__lambda__skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, HT0, HT1, Hk⟩
    obtain rfl := h4.eq_unread hf0; obtain rfl := h5.eq_unread hf1; obtain rfl := h6.eq_unread hf2; obtain rfl := h7.eq_unread hf3; obtain rfl := h9.eq_unread hfs
    sl_exec (disch := first | exact hcR | exact hcD)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H4]; · iexists _; iexact H4
    isplitl [HS]; · iexists _; iexact HS
    isplitl [HT0]; · iexact HT0
    iexact HT1

end Cert.Kernel.Hand

end
-- ==== Proof.K.Frame.lean ====
/-
  What the pairwise-loss kernel leaves, point by point, and the body obligation of its pipeline.

  At tile step 0 of a batch row the accumulator is reset and the first tile's sum added; at steps 1 to 8 the
  tile's sum is added to what the step before left; at step 9 the last tile's sum is added and the total over the
  number of pairs is stored across the output block, which is written back there and nowhere else.  The
  accumulator's contents after each point are defined by recursion on the point, the invariant carries the
  accumulator at those contents between points, and the proof data hold the two shared input arrays at half shares.
-/
import proofs.«400616_j27212912788010_3_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The reset case's pieces cover the accumulator. -/
theorem scoverA (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : condR i) (hcD : ¬condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (y : S1x1.Idx) :
    ∃ pc ∈ (runA c i a4 h4 a5 h5 a6 h6 a7 h7 a8 h8 a9 h9 hcR hcD x0 x1 x2 x3 xt0 xt1).1, y ∈ pc.1.set :=
  View.cover_of_tiledL (runA c i a4 h4 a5 h5 a6 h6 a7 h7 a8 h8 a9 h9 hcR hcD x0 x1 x2 x3 xt0 xt1).1 S1x1.size (by sl_kernel_rfl) y
/-- What the reset case leaves in the accumulator. -/
def soutA (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : condR i) (hcD : ¬condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) : Vec F S1x1 .f32 :=
  VS.read (Elt F) (VS.writes (Elt F) VS.junk (runA c i a4 h4 a5 h5 a6 h6 a7 h7 a8 h8 a9 h9 hcR hcD x0 x1 x2 x3 xt0 xt1).1)

theorem scoverB (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : ¬condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) (y : S1x1.Idx) :
    ∃ pc ∈ (runB c i a4 h4 a5 h5 a6 h6 a7 h7 a8 h8 a9 h9 hcR hcD x0 x1 x2 x3 xt0 xt1 xs).1, y ∈ pc.1.set :=
  View.cover_of_tiledL (runB c i a4 h4 a5 h5 a6 h6 a7 h7 a8 h8 a9 h9 hcR hcD x0 x1 x2 x3 xt0 xt1 xs).1 S1x1.size (by sl_kernel_rfl) y
/-- What a middle step leaves in the accumulator, over what the step before left. -/
def soutB (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : ¬condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) : Vec F S1x1 .f32 :=
  VS.read (Elt F) (VS.writes (Elt F) VS.junk (runB c i a4 h4 a5 h5 a6 h6 a7 h7 a8 h8 a9 h9 hcR hcD x0 x1 x2 x3 xt0 xt1 xs).1)

theorem coverC (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) (y : S1x1x128.Idx) :
    ∃ pc ∈ (runC c i a4 h4 a5 h5 a6 h6 a7 h7 a8 h8 a9 h9 hcR hcD x0 x1 x2 x3 xt0 xt1 xs).1, y ∈ pc.1.set :=
  View.cover_of_tiledL (runC c i a4 h4 a5 h5 a6 h6 a7 h7 a8 h8 a9 h9 hcR hcD x0 x1 x2 x3 xt0 xt1 xs).1 S1x1x128.size (by sl_kernel_rfl) y
/-- What the last step leaves in the output block. -/
def outC (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) : Vec F S1x1x128 .f32 :=
  VO.read (Elt F) (VO.writes (Elt F) VO.junk (runC c i a4 h4 a5 h5 a6 h6 a7 h7 a8 h8 a9 h9 hcR hcD x0 x1 x2 x3 xt0 xt1 xs).1)
theorem scoverC (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) (y : S1x1.Idx) :
    ∃ pc ∈ (runC c i a4 h4 a5 h5 a6 h6 a7 h7 a8 h8 a9 h9 hcR hcD x0 x1 x2 x3 xt0 xt1 xs).2.1, y ∈ pc.1.set :=
  View.cover_of_tiledL (runC c i a4 h4 a5 h5 a6 h6 a7 h7 a8 h8 a9 h9 hcR hcD x0 x1 x2 x3 xt0 xt1 xs).2.1 S1x1.size (by sl_kernel_rfl) y
/-- What the last step leaves in the accumulator. -/
def soutC (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) : Vec F S1x1 .f32 :=
  VS.read (Elt F) (VS.writes (Elt F) VS.junk (runC c i a4 h4 a5 h5 a6 h6 a7 h7 a8 h8 a9 h9 hcR hcD x0 x1 x2 x3 xt0 xt1 xs).2.1)

/-- A placeholder for the output block at the points that store nothing into it (never consulted: the window is
    idle there and not written back). -/
def outIdle : Vec F S1x1x128 .f32 := VO.read (Elt F) VO.junk

/-! ## The conditions at a point of the pipeline -/

theorem hR (t : Fin (cfgM m).N) : condR (grid0.coords t) ↔ t.val % 10 = 0 := hcondR t
theorem hD (t : Fin (cfgM m).N) : condD (grid0.coords t) ↔ t.val % 10 = 9 := hcondD t

/-! ## What the output block and the accumulator hold after each point -/

/-- THE ACCUMULATION: the output block and the accumulator after the body at position `n`. -/
def outsAt (c : Dev nD) : (n : ℕ) → n < (cfgM m).N → Vec F S1x1x128 .f32 × Vec F S1x1 .f32
  | 0, hn => (outIdle, soutA c (grid0.coords ⟨0, hn⟩) (ms0 m ⟨0, hn⟩) (hs0 m ⟨0, hn⟩) (ms1 m ⟨0, hn⟩) (hs1 m ⟨0, hn⟩) (ms2 m ⟨0, hn⟩) (hs2 m ⟨0, hn⟩) (ms3 m ⟨0, hn⟩) (hs3 m ⟨0, hn⟩) (ms4 m ⟨0, hn⟩) (hs4 m ⟨0, hn⟩) scM hscM ((hR m ⟨0, hn⟩).mpr (Nat.zero_mod _)) (fun h => (fun h => by (try dsimp only at h); omega) ((hD m ⟨0, hn⟩).mp h)) (iblk m c 0 ⟨0, hn⟩) (iblk m c 1 ⟨0, hn⟩) (iblk m c 2 ⟨0, hn⟩) (iblk m c 3 ⟨0, hn⟩) (tbl m 0) (tbl m 1))
  | n + 1, hn =>
    if h0 : (n + 1) % 10 = 0 then
      (outIdle, soutA c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) scM hscM ((hR m ⟨n + 1, hn⟩).mpr h0) (fun h => (fun h => by (try dsimp only at h); omega) ((hD m ⟨n + 1, hn⟩).mp h)) (iblk m c 0 ⟨n + 1, hn⟩) (iblk m c 1 ⟨n + 1, hn⟩) (iblk m c 2 ⟨n + 1, hn⟩) (iblk m c 3 ⟨n + 1, hn⟩) (tbl m 0) (tbl m 1))
    else
      if h9 : (n + 1) % 10 = 9 then
        (outC c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) scM hscM (fun h => h0 ((hR m ⟨n + 1, hn⟩).mp h)) ((hD m ⟨n + 1, hn⟩).mpr h9) (iblk m c 0 ⟨n + 1, hn⟩) (iblk m c 1 ⟨n + 1, hn⟩) (iblk m c 2 ⟨n + 1, hn⟩) (iblk m c 3 ⟨n + 1, hn⟩) (tbl m 0) (tbl m 1) (outsAt c n (Nat.lt_of_succ_lt hn)).2,
         soutC c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) scM hscM (fun h => h0 ((hR m ⟨n + 1, hn⟩).mp h)) ((hD m ⟨n + 1, hn⟩).mpr h9) (iblk m c 0 ⟨n + 1, hn⟩) (iblk m c 1 ⟨n + 1, hn⟩) (iblk m c 2 ⟨n + 1, hn⟩) (iblk m c 3 ⟨n + 1, hn⟩) (tbl m 0) (tbl m 1) (outsAt c n (Nat.lt_of_succ_lt hn)).2)
      else
        (outIdle, soutB c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) scM hscM (fun h => h0 ((hR m ⟨n + 1, hn⟩).mp h)) (fun h => h9 ((hD m ⟨n + 1, hn⟩).mp h)) (iblk m c 0 ⟨n + 1, hn⟩) (iblk m c 1 ⟨n + 1, hn⟩) (iblk m c 2 ⟨n + 1, hn⟩) (iblk m c 3 ⟨n + 1, hn⟩) (tbl m 0) (tbl m 1) (outsAt c n (Nat.lt_of_succ_lt hn)).2)

/-- At a reset point. -/
theorem outsAt_A (c : Dev nD) (t : Fin (cfgM m).N) (h0 : t.val % 10 = 0) (h9 : ¬t.val % 10 = 9) :
    outsAt m c t.val t.isLt = (outIdle, soutA c (grid0.coords t) (ms0 m t) (hs0 m t) (ms1 m t) (hs1 m t) (ms2 m t) (hs2 m t) (ms3 m t) (hs3 m t) (ms4 m t) (hs4 m t) scM hscM ((hR m t).mpr h0) (fun h => h9 ((hD m t).mp h)) (iblk m c 0 t) (iblk m c 1 t) (iblk m c 2 t) (iblk m c 3 t) (tbl m 0) (tbl m 1)) := by
  obtain ⟨n, hn⟩ := t
  cases n with
  | zero => exact rfl
  | succ n => exact (dif_pos h0).trans rfl

/-- At a middle point: over what the point before left. -/
theorem outsAt_B (c : Dev nD) (t : Fin (cfgM m).N) (h0 : ¬t.val % 10 = 0) (h9 : ¬t.val % 10 = 9) :
    outsAt m c t.val t.isLt = (outIdle, soutB c (grid0.coords t) (ms0 m t) (hs0 m t) (ms1 m t) (hs1 m t) (ms2 m t) (hs2 m t) (ms3 m t) (hs3 m t) (ms4 m t) (hs4 m t) scM hscM (fun h => h0 ((hR m t).mp h)) (fun h => h9 ((hD m t).mp h)) (iblk m c 0 t) (iblk m c 1 t) (iblk m c 2 t) (iblk m c 3 t) (tbl m 0) (tbl m 1) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h9).trans rfl)

/-- At a drain point: over what the point before left. -/
theorem outsAt_C (c : Dev nD) (t : Fin (cfgM m).N) (h0 : ¬t.val % 10 = 0) (h9 : t.val % 10 = 9) :
    outsAt m c t.val t.isLt = (outC c (grid0.coords t) (ms0 m t) (hs0 m t) (ms1 m t) (hs1 m t) (ms2 m t) (hs2 m t) (ms3 m t) (hs3 m t) (ms4 m t) (hs4 m t) scM hscM (fun h => h0 ((hR m t).mp h)) ((hD m t).mpr h9) (iblk m c 0 t) (iblk m c 1 t) (iblk m c 2 t) (iblk m c 3 t) (tbl m 0) (tbl m 1) (outsAt m c (t.val - 1) (Nat.lt_of_le_of_lt (Nat.sub_le _ _) t.isLt)).2,
      soutC c (grid0.coords t) (ms0 m t) (hs0 m t) (ms1 m t) (hs1 m t) (ms2 m t) (hs2 m t) (ms3 m t) (hs3 m t) (ms4 m t) (hs4 m t) scM hscM (fun h => h0 ((hR m t).mp h)) ((hD m t).mpr h9) (iblk m c 0 t) (iblk m c 1 t) (iblk m c 2 t) (iblk m c 3 t) (tbl m 0) (tbl m 1) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h9).trans rfl)

/-- The region invariant before position `n`: before the first point the plain class's with the tables' halves;
    afterwards the accumulator at what the point before left, the generator register at some state, the tables' halves. -/
def PhiS (c : Dev nD) : (n : ℕ) → n ≤ (cfgM m).N → sProp 𝕄
  | 0, _ => iprop(Pipeline.ΦA spec0 c ∗ Pipeline.ΦT pre0 (tbl m) c)
  | n + 1, hn => iprop(iprop(iprop(owns (c : Thread nD τ) scM fullShare ((outsAt m c n hn).2)) ∗ (∃ r, prngReg c r)) ∗ Pipeline.ΦT pre0 (tbl m) c)

theorem PhiS_zero (c : Dev nD) (n : ℕ) (h : n ≤ (cfgM m).N) (hz : n = 0) : PhiS m c n h = iprop(Pipeline.ΦA spec0 c ∗ Pipeline.ΦT pre0 (tbl m) c) := by
  subst hz; rfl
theorem PhiS_succ (c : Dev nD) (n : ℕ) (hn : n < (cfgM m).N) :
    PhiS m c (n + 1) hn = iprop(iprop(iprop(owns (c : Thread nD τ) scM fullShare ((outsAt m c n hn).2)) ∗ (∃ r, prngReg c r)) ∗ Pipeline.ΦT pre0 (tbl m) c) := rfl
theorem PhiS_pos (c : Dev nD) (n : ℕ) (h : n ≤ (cfgM m).N) (hz : n ≠ 0) :
    PhiS m c n h = iprop(iprop(iprop(owns (c : Thread nD τ) scM fullShare ((outsAt m c (n - 1) (by omega)).2)) ∗ (∃ r, prngReg c r)) ∗ Pipeline.ΦT pre0 (tbl m) c) := by
  cases n with
  | zero => exact absurd rfl hz
  | succ n => rfl

/-! ## The pipeline's proof data -/

/-- The proof data on core `c`: the arrays at the region's entry; after the body each input's buffer at its block
    and the output's at `outsAt`; the tracking invariant; the predictions' array split between windows 0 and 2 and the
    labels' between windows 1 and 3, at half shares; nothing owed. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin (cfgM m).W) : (dats m 0 c).A w = V m c (Pipeline.arrRef spec0 w) := by
  dsimp only [dats]

theorem PhiS_castSucc (c : Dev nD) (t : Fin (cfgM m).N) :
    (dats m 0 c).Φ t.castSucc = PhiS m c t.val (Nat.le_of_lt t.isLt) := by
  dsimp only [dats]; simp only [Fin.coe_castSucc]

theorem after0 (c : Dev nD) (t : Fin (cfgM m).N) : (dats m 0 c).after 0 t = iblk m c 0 t := by dsimp only [dats]; rfl
theorem after1 (c : Dev nD) (t : Fin (cfgM m).N) : (dats m 0 c).after 1 t = iblk m c 1 t := by dsimp only [dats]; rfl
theorem after2 (c : Dev nD) (t : Fin (cfgM m).N) : (dats m 0 c).after 2 t = iblk m c 2 t := by dsimp only [dats]; rfl
theorem after3 (c : Dev nD) (t : Fin (cfgM m).N) : (dats m 0 c).after 3 t = iblk m c 3 t := by dsimp only [dats]; rfl
theorem after4 (c : Dev nD) (t : Fin (cfgM m).N) : (dats m 0 c).after 4 t = (outsAt m c t.val t.isLt).1 := by dsimp only [dats]; rfl

/-- Each input's current staging buffer holds its block at every point, fetched there or not. -/
theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## Where the output window is idle, and when it is written back -/

theorem live0 (t : Fin (cfgM m).N) : (cfgM m).idle 0 (grid0.coords t) = false := rfl
theorem live1 (t : Fin (cfgM m).N) : (cfgM m).idle 1 (grid0.coords t) = false := rfl
theorem live2 (t : Fin (cfgM m).N) : (cfgM m).idle 2 (grid0.coords t) = false := rfl
theorem live3 (t : Fin (cfgM m).N) : (cfgM m).idle 3 (grid0.coords t) = false := rfl
/-- The output window is idle exactly where the drain branch is not taken. -/
theorem idle4 (t : Fin (cfgM m).N) (h : ¬condD (grid0.coords t)) : (cfgM m).idle 4 (grid0.coords t) = true := by
  show (!(k0_cond2 (grid0.coords t) == 1#1)) = true
  simp only [Bool.not_eq_true', beq_eq_false_iff_ne, ne_eq]; exact h
theorem live4 (t : Fin (cfgM m).N) (h : condD (grid0.coords t)) : (cfgM m).idle 4 (grid0.coords t) = false := by
  show (!(k0_cond2 (grid0.coords t) == 1#1)) = false
  simp only [Bool.not_eq_false', beq_iff_eq]; exact h
/-- The output block is written back at the points of tile step 9 (its index map reads only the batch row). -/
theorem flush4 (a : (pcfg0 (F := F)).Adm) : ∀ t : Fin (cfg0 a).N, ((cfg0 a).win 4).flush t = true ↔ t.val % 10 = 9 :=
  (by decide +kernel : ∀ t : Fin grid0.N, Pipeline.Window.flushOf grid0 true cc0_transform_4 t = true ↔ t.val % 10 = 9)
theorem noFlush4 (t : Fin (cfgM m).N) (h : ¬condD (grid0.coords t)) : ((cfgM m).win 4).flush t = false := by
  have := (flush4 (adm m) t).not.mpr (fun h9 => h ((hD m t).mpr h9))
  simpa using this

end Cert.Kernel.Hand

end
-- ==== Proof.K.Body.lean ====
/-
  The body obligation of the pairwise-loss kernel's pipeline: at every grid point, from the invariant, the four
  input blocks and the output block's buffer, the body runs to the invariant at the next point with the accumulator
  at that point's contents, the inputs as they were, and the output block either untouched (tile steps 0 to 8, where
  the window is idle and not written back) or at the drained total (tile step 9).
-/
import proofs.«400616_j27212912788010_3_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))

/-- and what it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the closed forms say which case the point is in; the invariant hands the body the
    accumulator at what the point before left (at anything before the first point) and takes it back at this
    point's contents; the tables' halves and the generator register pass through. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (N_M m)
  rw [show (dats m 0 c).leavesExact 0 t = owns (c : Thread nD τ) (ms0 m t) fullShare ((dats m 0 c).after 0 t) from by
    unfold Dat.leavesExact; rw [live0 m t]; rfl, after0]
  rw [show (dats m 0 c).leavesExact 1 t = owns (c : Thread nD τ) (ms1 m t) fullShare ((dats m 0 c).after 1 t) from by
    unfold Dat.leavesExact; rw [live1 m t]; rfl, after1]
  rw [show (dats m 0 c).leavesExact 2 t = owns (c : Thread nD τ) (ms2 m t) fullShare ((dats m 0 c).after 2 t) from by
    unfold Dat.leavesExact; rw [live2 m t]; rfl, after2]
  rw [show (dats m 0 c).leavesExact 3 t = owns (c : Thread nD τ) (ms3 m t) fullShare ((dats m 0 c).after 3 t) from by
    unfold Dat.leavesExact; rw [live3 m t]; rfl, after3]
  by_cases h0 : t.val % 10 = 0
  · have h9 : ¬t.val % 10 = 9 := by omega
    rw [Dat.leavesExact_idle (dats m 0 c) 4 t (idle4 m t (fun h => h9 ((hD m t).mp h))) (noFlush4 m t (fun h => h9 ((hD m t).mp h)))]
    rw [outsAt_A m c t h0 h9]
    unfold soutA; (try dsimp only)
    by_cases hz : t.val = 0
    · rw [PhiS_castSucc m c t, PhiS_zero m c _ _ hz, PhiA_eq, PhiT_eq]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply ((runA c (grid0.coords t) _ _ _ _ _ _ _ _ _ _ _ _ ((hR m t).mpr h0) (fun h => h9 ((hD m t).mp h)) (iblk m c 0 t) (iblk m c 1 t) (iblk m c 2 t) (iblk m c 3 t) (tbl m 0) (tbl m 1)).2 _ Set.univ _)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      iintro ⟨H0, H1, H2, H3, H4, ⟨%es, HS⟩, HT0, HT1⟩
      isplitl [HS Hg HT0 HT1]
      · isplitl [HS Hg]
        · isplitl [HS]
          · unfold owns; iexists _; isplitr
            swap; · iexact HS
            ipureintro; exact View.read_writes_of_cover _ _ _ _ _ (scoverA c _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz, PhiT_eq]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply ((runA c (grid0.coords t) _ _ _ _ _ _ _ _ _ _ _ _ ((hR m t).mpr h0) (fun h => h9 ((hD m t).mp h)) (iblk m c 0 t) (iblk m c 1 t) (iblk m c 2 t) (iblk m c 3 t) (tbl m 0) (tbl m 1)).2 _ Set.univ _)
      isplitl [H0]; · iexact H0
      isplitl [H1]; · iexact H1
      isplitl [H2]; · iexact H2
      isplitl [H3]; · iexact H3
      isplitl [H4]; · iexact H4
      isplitl [HS]; · iexists _; iexact HS
      isplitl [HT0]; · iexact HT0
      isplitl [HT1]; · iexact HT1
      iintro ⟨H0, H1, H2, H3, H4, ⟨%es, HS⟩, HT0, HT1⟩
      isplitl [HS Hg HT0 HT1]
      · isplitl [HS Hg]
        · isplitl [HS]
          · unfold owns; iexists _; isplitr
            swap; · iexact HS
            ipureintro; exact View.read_writes_of_cover _ _ _ _ _ (scoverA c _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h9 : t.val % 10 = 9
    · rw [show (dats m 0 c).leavesExact 4 t = owns (c : Thread nD τ) (ms4 m t) fullShare ((dats m 0 c).after 4 t) from by
        unfold Dat.leavesExact; rw [live4 m t ((hD m t).mpr h9)]; rfl, after4]
      rw [outsAt_C m c t h0 h9]
      unfold outC soutC; (try dsimp only)
      rw [PhiS_castSucc m c t, PhiS_pos m c _ _ hz, PhiT_eq]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply ((runC c (grid0.coords t) _ _ _ _ _ _ _ _ _ _ _ _ (fun h => h0 ((hR m t).mp h)) ((hD m t).mpr h9) (iblk m c 0 t) (iblk m c 1 t) (iblk m c 2 t) (iblk m c 3 t) (tbl m 0) (tbl m 1) _).2.2 Set.univ _)
      isplitl [H0]; · iexact H0
      isplitl [H1]; · iexact H1
      isplitl [H2]; · iexact H2
      isplitl [H3]; · iexact H3
      isplitl [H4]; · iexists _; iexact H4
      isplitl [HS]; · iexact HS
      isplitl [HT0]; · iexact HT0
      isplitl [HT1]; · iexact HT1
      iintro ⟨H0, H1, H2, H3, ⟨%e4, H4⟩, ⟨%es, HS⟩, HT0, HT1⟩
      isplitl [HS Hg HT0 HT1]
      · isplitl [HS Hg]
        · isplitl [HS]
          · unfold owns; iexists _; isplitr
            swap; · iexact HS
            ipureintro; exact View.read_writes_of_cover _ _ _ _ _ (scoverC c _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _ _ _)
    · rw [Dat.leavesExact_idle (dats m 0 c) 4 t (idle4 m t (fun h => h9 ((hD m t).mp h))) (noFlush4 m t (fun h => h9 ((hD m t).mp h)))]
      rw [outsAt_B m c t h0 h9]
      unfold soutB; (try dsimp only)
      rw [PhiS_castSucc m c t, PhiS_pos m c _ _ hz, PhiT_eq]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply ((runB c (grid0.coords t) _ _ _ _ _ _ _ _ _ _ _ _ (fun h => h0 ((hR m t).mp h)) (fun h => h9 ((hD m t).mp h)) (iblk m c 0 t) (iblk m c 1 t) (iblk m c 2 t) (iblk m c 3 t) (tbl m 0) (tbl m 1) _).2 _ Set.univ _)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      iintro ⟨H0, H1, H2, H3, H4, ⟨%es, HS⟩, HT0, HT1⟩
      isplitl [HS Hg HT0 HT1]
      · isplitl [HS Hg]
        · isplitl [HS]
          · unfold owns; iexists _; isplitr
            swap; · iexact HS
            ipureintro; exact View.read_writes_of_cover _ _ _ _ _ (scoverB c _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl, PhiS_zero m c 0 _ rfl]

/-- After the last point the invariant gives the plain class's back: the accumulator's contents are forgotten, the
    tables' halves let go. -/
theorem hout (c : Dev nD) : (dats m 0 c).Φ (Fin.last (cfgM m).N) ⊢ Pipeline.ΦA spec0 c := by
  rw [show (dats m 0 c).Φ (Fin.last (cfgM m).N) = PhiS m c (Fin.last (cfgM m).N).val (Nat.le_of_lt_succ (Fin.last (cfgM m).N).isLt) from rfl,
    PhiS_pos m c _ _ (by rw [Fin.val_last]; have : (cfgM m).N = 40 := N_M m; omega), PhiA_eq]
  iintro ⟨⟨HS, Hg⟩, -⟩
  isplitl [HS]
  · iexists _; iexact HS
  iexact Hg

end Cert.Kernel.Hand

end
-- ==== Proof.K.LaunchShare.lean ====
/-
  The pairwise-loss kernel's pipeline reads each input array through two windows. Here: the pipeline's arrays, with
  each input array dealt to its two windows at the two halves of the full share, are three whole buffers at the full
  share (the two input arrays and the output array), in both directions; and the unscoped buffers that bypass the
  one-window family of the output window are those that bypass the pipeline together with the two input arrays.
-/
import proofs.«400616_j27212912788010_3_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held at the full share is its two halves. -/
theorem pt_halves {ℓ : Loc nD τ sig} (f : Buf (Elt F) ℓ) :
    (ℓ ↦{fullShare} f : sProp 𝕄) = iprop((ℓ ↦{fullShare.left} f) ∗ ℓ ↦{fullShare.right} f) :=
  BI.Entails.antisymm (pointsTo_share (PosShare.mem_left_op_right fullShare)).1 (pointsTo_share (PosShare.mem_left_op_right fullShare)).2

/-- Five factors, the first and third the halves of one buffer, the second and fourth of another. -/
theorem five_split (Φ : Fin 5 → sProp 𝕄) (P4 P4L P4R P5 P5L P5R P6 : sProp 𝕄)
    (e0 : Φ 0 = P4L) (e1 : Φ 1 = P5L) (e2 : Φ 2 = P4R) (e3 : Φ 3 = P5R) (e4 : Φ 4 = P6)
    (h4 : P4 = iprop(P4L ∗ P4R)) (h5 : P5 = iprop(P5L ∗ P5R)) :
    bigSep Finset.univ Φ = iprop(P4 ∗ P5 ∗ P6) := by
  rw [bigSep_W0, e0, e1, e2, e3, e4, h4, h5]
  have h₁ : (iprop(P4L ∗ P5L ∗ P4R ∗ P5R ∗ P6) : sProp 𝕄) ⊢ iprop((P4L ∗ P4R) ∗ (P5L ∗ P5R) ∗ P6) := by
    iintro ⟨H0, H1, H2, H3, H4⟩
    isplitl [H0 H2]
    · isplitl [H0] <;> iassumption
    isplitl [H1 H3]
    · isplitl [H1] <;> iassumption
    iexact H4
  have h₂ : (iprop((P4L ∗ P4R) ∗ (P5L ∗ P5R) ∗ P6) : sProp 𝕄) ⊢ iprop(P4L ∗ P5L ∗ P4R ∗ P5R ∗ P6) := by
    iintro ⟨⟨H0, H2⟩, ⟨H1, H3⟩, H4⟩
    isplitl [H0]; · iexact H0
    isplitl [H1]; · iexact H1
    isplitl [H2]; · iexact H2
    isplitl [H3]; · iexact H3
    iexact H4
  exact BI.Entails.antisymm h₁ h₂

section OneWindow
variable {c : Dev nD} (dat : Dat τ (Elt F) Unit ℕ (UR sig nD τ) ℕ (Pipeline.pin pcfgs (fun _ => adm m) 0) c)
  (Fa : (w : Fin 5) → Buf (Elt F) (((spec0 w).arr.view.loc (c.tc : Thread nD τ))))

/-- Window `w`'s factor of the pipeline's arrays. -/
abbrev arrFac (w : Fin 5) : sProp 𝕄 :=
  ((Pipeline.pin pcfgs (fun _ => adm m) 0).win w).arr.view.loc (c.tc : Thread nD τ) ↦[((Pipeline.pin pcfgs (fun _ => adm m) 0).win w).arr.view.set]{dat.share w} Fa w

theorem arrFac0 (hq : dat.q 0 = fullShare.left) (W : Buf (Elt F) ((c.tc : Thread nD τ).loc main_v4)) (h : Fa 0 = W) :
    arrFac m dat Fa 0 = (((c.tc : Thread nD τ).loc main_v4) ↦{fullShare.left} W) := by
  subst h
  show (_ ↦[_]{dat.share 0} _) = _
  rw [show dat.share 0 = fullShare.left from hq, (arr_whole0 0).set_eq_univ]

theorem arrFac1 (hq : dat.q 1 = fullShare.left) (W : Buf (Elt F) ((c.tc : Thread nD τ).loc main_v5)) (h : Fa 1 = W) :
    arrFac m dat Fa 1 = (((c.tc : Thread nD τ).loc main_v5) ↦{fullShare.left} W) := by
  subst h
  show (_ ↦[_]{dat.share 1} _) = _
  rw [show dat.share 1 = fullShare.left from hq, (arr_whole0 1).set_eq_univ]

theorem arrFac2 (hq : dat.q 2 = fullShare.right) (W : Buf (Elt F) ((c.tc : Thread nD τ).loc main_v4)) (h : Fa 2 = W) :
    arrFac m dat Fa 2 = (((c.tc : Thread nD τ).loc main_v4) ↦{fullShare.right} W) := by
  subst h
  show (_ ↦[_]{dat.share 2} _) = _
  rw [show dat.share 2 = fullShare.right from hq, (arr_whole0 2).set_eq_univ]

theorem arrFac3 (hq : dat.q 3 = fullShare.right) (W : Buf (Elt F) ((c.tc : Thread nD τ).loc main_v5)) (h : Fa 3 = W) :
    arrFac m dat Fa 3 = (((c.tc : Thread nD τ).loc main_v5) ↦{fullShare.right} W) := by
  subst h
  show (_ ↦[_]{dat.share 3} _) = _
  rw [show dat.share 3 = fullShare.right from hq, (arr_whole0 3).set_eq_univ]

theorem arrFac4 (W : Buf (Elt F) ((c.tc : Thread nD τ).loc main_v6)) (h : Fa 4 = W) :
    arrFac m dat Fa 4 = (((c.tc : Thread nD τ).loc main_v6) ↦{fullShare} W) := by
  subst h
  show (_ ↦[_]{dat.share 4} _) = _
  rw [show dat.share 4 = fullShare from rfl, (arr_whole0 4).set_eq_univ]

/-- The pipeline's arrays are three whole buffers: the two input arrays, each split between its two windows at half
    shares, and the output array. -/
theorem arrays_shared
    (hq0 : dat.q 0 = fullShare.left) (hq2 : dat.q 2 = fullShare.right) (hq1 : dat.q 1 = fullShare.left) (hq3 : dat.q 3 = fullShare.right)
    (W4 : Buf (Elt F) ((c.tc : Thread nD τ).loc main_v4)) (W5 : Buf (Elt F) ((c.tc : Thread nD τ).loc main_v5))
    (W6 : Buf (Elt F) ((c.tc : Thread nD τ).loc main_v6))
    (h0 : Fa 0 = W4) (h2 : Fa 2 = W4) (h1 : Fa 1 = W5) (h3 : Fa 3 = W5) (h4 : Fa 4 = W6) :
    dat.arrays Fa = iprop((((c.tc : Thread nD τ).loc main_v4) ↦{fullShare} W4) ∗ (((c.tc : Thread nD τ).loc main_v5) ↦{fullShare} W5)
       ∗ (((c.tc : Thread nD τ).loc main_v6) ↦{fullShare} W6)) :=
  five_split (arrFac m dat Fa) _ _ _ _ _ _ _ (arrFac0 m dat Fa hq0 W4 h0) (arrFac1 m dat Fa hq1 W5 h1) (arrFac2 m dat Fa hq2 W4 h2)
    (arrFac3 m dat Fa hq3 W5 h3) (arrFac4 m dat Fa W6 h4) (pt_halves W4) (pt_halves W5)
end OneWindow

/-! ## The buffers that bypass the output window alone -/

/-- A member of `U` outside `I` and `P` is a member of `(U \ I) \ P`, and the others are those of the difference with it
    removed as well. -/
theorem sdiff_insert_split {α : Type} [DecidableEq α] (U I P : Finset α) (a : α) (haU : a ∈ U) (haI : a ∉ I) (haP : a ∉ P) :
    (U \ I) \ P = insert a ((U \ insert a I) \ P) := by
  ext b
  simp only [Finset.mem_sdiff, Finset.mem_insert, not_or]
  constructor
  · rintro ⟨⟨hU, hI⟩, hP⟩
    by_cases h : b = a
    · exact Or.inl h
    · exact Or.inr ⟨⟨hU, h, hI⟩, hP⟩
  · rintro (rfl | ⟨⟨hU, -, hI⟩, hP⟩)
    · exact ⟨⟨haU, haI⟩, haP⟩
    · exact ⟨⟨hU, hI⟩, hP⟩

/-- The same of a separating conjunction over the difference. -/
theorem bigSep_sdiff_insert {α : Type} [DecidableEq α] (U I P : Finset α) (a : α) (haU : a ∈ U) (haI : a ∉ I) (haP : a ∉ P)
    (Φ : α → sProp 𝕄) : bigSep ((U \ I) \ P) Φ = iprop(Φ a ∗ bigSep ((U \ insert a I) \ P) Φ) := by
  have hn : a ∉ (U \ insert a I) \ P := fun h => (Finset.mem_sdiff.mp (Finset.mem_sdiff.mp h).1).2 (Finset.mem_insert_self a I)
  rw [sdiff_insert_split U I P a haU haI haP, bigSep_insert hn]
  rfl

/-- The one-window family of the output window. -/
abbrev win1 : Fin 1 → Pipeline.WinSpec sig grid0.rank := fun _ => spec0 4

/-- The output window's array is `main_v6`; the five windows' arrays are `main_v4`, `main_v5` and `main_v6`. -/
theorem img1 : (Finset.univ : Finset (Fin 1)).image (Pipeline.arrRef win1) = {main_v6} := by decide
theorem img5 : (Finset.univ : Finset (Fin 5)).image (Pipeline.arrRef spec0) = insert main_v5 (insert main_v4 {main_v6}) := by decide

/-- What bypasses the output window alone: the two input arrays, whole, and what bypasses the pipeline. -/
theorem restP_split (c : Dev nD) (Wv : (b : Ref sig .tc) → Buf (Elt F) ((c.tc : Thread nD τ).loc b)) :
    (Pipeline.unscopedRestP pre0 win1 c Wv : sProp 𝕄)
      = iprop((((c.tc : Thread nD τ).loc main_v4) ↦{fullShare} Wv main_v4) ∗ (((c.tc : Thread nD τ).loc main_v5) ↦{fullShare} Wv main_v5)
          ∗ Pipeline.unscopedRestP pre0 spec0 c Wv) := by
  unfold Pipeline.unscopedRestP
  rw [img1, img5,
    bigSep_sdiff_insert _ {main_v6} _ main_v4 (Finset.mem_filter.mpr ⟨Finset.mem_univ _, by decide⟩) (by decide) (by decide),
    bigSep_sdiff_insert _ (insert main_v4 {main_v6}) _ main_v5 (Finset.mem_filter.mpr ⟨Finset.mem_univ _, by decide⟩) (by decide) (by decide)]

end Cert.Kernel.Hand

end
-- ==== Proof.K.LaunchTail.lean ====
/-
  The launch of the pairwise-loss kernel's region, its pieces: the three whole buffers behind the five windows' arrays
  are the pipeline's arrays at the region's entry (each input array dealt to its two windows at half shares); the six
  lines after the region run from the region's exit — the halves of each input array joined, the lines running within
  the output array and the buffers that bypass it, the halves dealt again —; a buffer they do not write is as the
  region found it; and no line before the region writes an argument of @main.
-/
import proofs.«400616_j27212912788010_3_alg».proof.Proof.K.LaunchShare

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five windows' arrays, listed the other way round. -/
theorem img5' : (Finset.univ : Finset (Fin 5)).image (Pipeline.arrRef spec0) = insert main_v4 (insert main_v5 {main_v6}) := by decide

/-- The distinct buffers behind the windows' arrays are the two input arrays and the output array. -/
theorem arrBufs_eq (c : Dev nD) (Wv : (b : Ref sig .tc) → Buf (Elt F) ((c.tc : Thread nD τ).loc b)) :
    (Pipeline.arrBufs spec0 c Wv : sProp 𝕄)
      = iprop((((c.tc : Thread nD τ).loc main_v4) ↦{fullShare} Wv main_v4) ∗ (((c.tc : Thread nD τ).loc main_v5) ↦{fullShare} Wv main_v5)
          ∗ (((c.tc : Thread nD τ).loc main_v6) ↦{fullShare} Wv main_v6)) := by
  unfold Pipeline.arrBufs
  rw [img5', bigSep_insert (by decide), bigSep_insert (by decide), bigSep_singleton]
  rfl

/-- The one window's array held whole. -/
theorem arrPts_one (c : Dev nD) (A : (w : Fin 1) → Buf (Elt F) ((win1 w).arr.view.loc (c.tc : Thread nD τ))) :
    (Pipeline.arrPts win1 c A : sProp 𝕄) = (((c.tc : Thread nD τ).loc main_v6) ↦{fullShare} A 0) := by
  unfold Pipeline.arrPts
  rw [show (Finset.univ : Finset (Fin 1)) = {0} from by decide, bigSep_singleton]

/-- Four factors regrouped. -/
theorem rearr (P4 P5 P6 R : sProp 𝕄) : (iprop((P4 ∗ P5 ∗ P6) ∗ R) : sProp 𝕄) = iprop(P6 ∗ P4 ∗ P5 ∗ R) := by
  have h₁ : (iprop((P4 ∗ P5 ∗ P6) ∗ R) : sProp 𝕄) ⊢ iprop(P6 ∗ P4 ∗ P5 ∗ R) := by
    iintro ⟨⟨H4, H5, H6⟩, HR⟩
    isplitl [H6]; · iexact H6
    isplitl [H4]; · iexact H4
    isplitl [H5]; · iexact H5
    iexact HR
  have h₂ : (iprop(P6 ∗ P4 ∗ P5 ∗ R) : sProp 𝕄) ⊢ iprop((P4 ∗ P5 ∗ P6) ∗ R) := by
    iintro ⟨H6, H4, H5, HR⟩
    isplitr [HR]
    · isplitl [H4]; · iexact H4
      isplitl [H5]; · iexact H5
      iexact H6
    iexact HR
  exact BI.Entails.antisymm h₁ h₂

/-- The pipeline's arrays and what bypasses the pipeline are the output array and what bypasses the output window alone. -/
theorem join_shared {c : Dev nD} (dat : Dat τ (Elt F) Unit ℕ (UR sig nD τ) ℕ (Pipeline.pin pcfgs (fun _ => adm m) 0) c)
    (Fa : (w : Fin 5) → Buf (Elt F) (((spec0 w).arr.view.loc (c.tc : Thread nD τ))))
    (hq0 : dat.q 0 = fullShare.left) (hq2 : dat.q 2 = fullShare.right) (hq1 : dat.q 1 = fullShare.left) (hq3 : dat.q 3 = fullShare.right)
    (Wv : (b : Ref sig .tc) → Buf (Elt F) ((c.tc : Thread nD τ).loc b))
    (h0 : Fa 0 = Wv main_v4) (h2 : Fa 2 = Wv main_v4) (h1 : Fa 1 = Wv main_v5) (h3 : Fa 3 = Wv main_v5) :
    (iprop(dat.arrays Fa ∗ Pipeline.unscopedRestP pre0 spec0 c Wv) : sProp 𝕄)
      = iprop(Pipeline.arrPts win1 c (fun _ => Fa 4) ∗ Pipeline.unscopedRestP pre0 win1 c Wv) := by
  rw [arrays_shared m dat Fa hq0 hq2 hq1 hq3 (Wv main_v4) (Wv main_v5) (Fa 4) h0 h2 h1 h3 rfl, restP_split, arrPts_one, rearr]

/-- The launch's split: the three whole buffers behind the windows' arrays are the pipeline's arrays at the region's entry. -/
theorem hsplit_shared (dats : (p : Fin 1) → (c : Dev nD) → Dat τ (Elt F) Unit ℕ (UR sig nD τ) ℕ (Pipeline.pin pcfgs (fun _ => adm m) p) c)
    (hq0 : ∀ c, (dats 0 c).q 0 = fullShare.left) (hq2 : ∀ c, (dats 0 c).q 2 = fullShare.right)
    (hq1 : ∀ c, (dats 0 c).q 1 = fullShare.left) (hq3 : ∀ c, (dats 0 c).q 3 = fullShare.right)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  rw [arrays_shared m (dats 0 c) (fun w => (dats 0 c).arrAt w 0) (hq0 c) (hq2 c) (hq1 c) (hq3 c) (V m c main_v4) (V m c main_v5) (V m c main_v6)
    (hA c 0) (hA c 2) (hA c 1) (hA c 3) (hA c 4)]
  exact Entails.of_eq (arrBufs_eq c (V m c))

/-! ## The lines after the region -/

theorem hostOps1_fresh : (hostOps1 : List (HloOp τ sig (Elt F))).Forall fun op => op.fresh = ∅ := by
  simp only [List.Forall]; repeat' constructor

/-- The six buffers the lines after the region write. -/
abbrev tailOuts : List (Ref sig .tc) := [main_v7, main_v8, main_cst, main_v9, main_cst_1, main_v10]

/-- A reference that is none of them is written by no line after the region. -/
theorem tail_keeps (b : Ref sig .tc) (hb : ∀ y ∈ tailOuts, b ≠ y) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl
  all_goals
    simp only [StableHlo.nullary_writes, StableHlo.unary_writes, StableHlo.binary_writes, StableHlo.reshape_writes, Finset.mem_singleton]
    exact StableHlo.devRef_ne_of_ne (hb _ (by simp [tailOuts]))

theorem hinj1 : Function.Injective (Pipeline.arrRef win1) := fun a b _ => Subsingleton.elim a b

/-- The lines touch the output array and the buffers that bypass it only: no prefetched table. -/
theorem sfx_sub : ∀ ops ∈ ([hostOps1] : List (List (HloOp τ sig (Elt F)))), ∀ op ∈ ops, op.bufs ⊆ Pipeline.tailRefs sig pre0 win1 := by
  intro ops hops op hop
  simp only [List.mem_cons, List.mem_nil_iff, or_false] at hops
  subst hops
  refine Pipeline.sub_tailRefs pre0 win1 op ((List.forall_iff_forall_mem.mp hostOps1_sub) op hop) ?_
  simp only [hostOps1, List.mem_cons, List.mem_nil_iff, or_false] at hop
  rcases hop with rfl | rfl | rfl | rfl | rfl | rfl
  all_goals
    intro k
    fin_cases k <;>
      simp only [StableHlo.nullary_bufs, StableHlo.unary_bufs, StableHlo.binary_bufs, StableHlo.reshape_bufs, Finset.mem_insert, Finset.mem_singleton, not_or] <;>
      (repeat' constructor) <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef win1 w) ∉ op.writes := by
  intro ops hops op hop w
  simp only [List.mem_cons, List.mem_nil_iff, or_false] at hops
  subst hops
  exact tail_keeps main_v6 (by decide) op hop

/-- Core `c`'s buffer contents after the lines that follow the region, from the region's exit with the output array at `o`. -/
abbrev Wa (c : Dev nD) (o : Buf (Elt F) ((c.tc : Thread nD τ).loc main_v6)) (b : Ref sig .tc) : Buf (Elt F) ((c.tc : Thread nD τ).loc b) :=
  StableHlo.after (List.flatten [hostOps1]) (Pipeline.withArrays win1 c (V0 m c) fun _ => o) (Proc.devRef .tc b)

/-- A buffer the lines do not write, other than the output array, is as the region found it. -/
theorem Wa_keeps (c : Dev nD) (o : Buf (Elt F) ((c.tc : Thread nD τ).loc main_v6)) (b : Ref sig .tc)
    (hb : ∀ y ∈ tailOuts, b ≠ y) (hb6 : b ≠ main_v6) : Wa m c o b = V m c b := by
  show StableHlo.after (List.flatten [hostOps1]) _ _ = _
  rw [StableHlo.after_of_forall_not_mem _ _ fun op hop => ?_, Pipeline.withArrays_of_ne win1 c _ _ b fun _ => hb6.symm]
  have : op ∈ (hostOps1 : List (HloOp τ sig (Elt F))) := by simpa using hop
  exact tail_keeps b hb op this

/-- THE LINES AFTER THE REGION, run from the region's exit: the halves of the two input arrays are joined, the lines run
    within the output array and the buffers that bypass it, and the halves are dealt again. -/
theorem htail_shared (dats : (p : Fin 1) → (c : Dev nD) → Dat τ (Elt F) Unit ℕ (UR sig nD τ) ℕ (Pipeline.pin pcfgs (fun _ => adm m) p) c)
    (hq0 : ∀ c, (dats 0 c).q 0 = fullShare.left) (hq2 : ∀ c, (dats 0 c).q 2 = fullShare.right)
    (hq1 : ∀ c, (dats 0 c).q 1 = fullShare.left) (hq3 : ∀ c, (dats 0 c).q 3 = fullShare.right)
    (hA : ∀ c w, (dats 0 c).A w = V m c (Pipeline.arrRef spec0 w)) (c : Dev nD) (Q' : PUnit → sProp 𝕄) :
    iprop((iprop((dats 0 c).arrays ((dats 0 c).arrAt · (Pipeline.pin pcfgs (fun _ => adm m) 0).N)
              ∗ Pipeline.unscopedRestP pre0 spec0 c (Wa m c ((dats 0 c).arrAt 4 (Pipeline.pin pcfgs (fun _ => adm m) 0).N))) -∗ Q' ⟨⟩)
        ∗ boundary (c.tc : Thread nD τ) ∗ (dats 0 c).arrays ((dats 0 c).arrAt · (Pipeline.pin pcfgs (fun _ => adm m) 0).N)
        ∗ Pipeline.unscopedRestP pre0 spec0 c (V m c))
      ⊢ wp frame (wpE (Pipeline.defs pcfgs defs₀) (Variants.lift Variants.none) (c.tc : Thread nD τ) none) Set.univ
          (Pipeline.chain [StableHlo.seq hostOps1]) Q' := by
  have hi : ∀ w (hw : ((Pipeline.pin pcfgs (fun _ => adm m) 0).win w).isOut = false),
      (dats 0 c).arrAt w (Pipeline.pin pcfgs (fun _ => adm m) 0).N = V m c (Pipeline.arrRef spec0 w) := fun w hw => ((dats 0 c).arrAt_in w hw _).trans (hA c w)
  have k4 := Wa_keeps m c ((dats 0 c).arrAt 4 (Pipeline.pin pcfgs (fun _ => adm m) 0).N) main_v4 (by decide) (by decide)
  have k5 := Wa_keeps m c ((dats 0 c).arrAt 4 (Pipeline.pin pcfgs (fun _ => adm m) 0).N) main_v5 (by decide) (by decide)
  rw [join_shared m (dats 0 c) (fun w => (dats 0 c).arrAt w (Pipeline.pin pcfgs (fun _ => adm m) 0).N) (hq0 c) (hq2 c) (hq1 c) (hq3 c) (Wa m c ((dats 0 c).arrAt 4 (Pipeline.pin pcfgs (fun _ => adm m) 0).N))
      ((hi 0 rfl).trans k4.symm) ((hi 2 rfl).trans k4.symm) ((hi 1 rfl).trans k5.symm) ((hi 3 rfl).trans k5.symm),
    join_shared m (dats 0 c) (fun w => (dats 0 c).arrAt w (Pipeline.pin pcfgs (fun _ => adm m) 0).N) (hq0 c) (hq2 c) (hq1 c) (hq3 c) (V m c)
      (hi 0 rfl) (hi 2 rfl) (hi 1 rfl) (hi 3 rfl)]
  exact Pipeline.tail_seqs pcfgs defs₀ Variants.none pre0 win1 hinj1 c (V0 m c) (fun _ => (dats 0 c).arrAt 4 (Pipeline.pin pcfgs (fun _ => adm m) 0).N)
    [hostOps1] sfx_sub sfx_fresh sfx_keeps Q'

/-! ## What the buffers hold at the end -/

/-- No line before the region writes an argument of @main. -/
theorem V_arg0 (c : Dev nD) : V m c main_arg0 = m ((c.tc : Thread nD τ).loc main_arg0) := by
  dsimp only [V, V0]
  simp only [hostOps0, hostOps0_1, hostOps0_2, hostOps0_3, List.flatten_cons, List.flatten_nil, List.append_nil, List.cons_append, List.nil_append]
  after_results_simp
theorem V_arg1 (c : Dev nD) : V m c main_arg1 = m ((c.tc : Thread nD τ).loc main_arg1) := by
  dsimp only [V, V0]
  simp only [hostOps0, hostOps0_1, hostOps0_2, hostOps0_3, List.flatten_cons, List.flatten_nil, List.append_nil, List.cons_append, List.nil_append]
  after_results_simp
theorem V_arg2 (c : Dev nD) : V m c main_arg2 = m ((c.tc : Thread nD τ).loc main_arg2) := by
  dsimp only [V, V0]
  simp only [hostOps0, hostOps0_1, hostOps0_2, hostOps0_3, List.flatten_cons, List.flatten_nil, List.append_nil, List.cons_append, List.nil_append]
  after_results_simp

/-- An unscoped buffer that is no window's array and no prefetched table bypasses the pipeline. -/
theorem mem_restP (b : Ref sig .tc) (hs : b.isScoped = false) (ha : ∀ w, (spec0 w).arr.view.ref ≠ b)
    (hp : b ∉ Finset.univ.image pre0.ref) : b ∈ Pipeline.restRefsP sig pre0 spec0 :=
  Finset.mem_sdiff.mpr ⟨Pipeline.mem_restRefs_of b hs ha, hp⟩

end Cert.Kernel.Hand

end
-- ==== Proof.K.Launch.lean ====
/-
  The launch of the pairwise-loss kernel's region inside @main, for a pipeline whose windows share arrays: the row
  window and the column window read the SAME array of sampled predictions (and likewise the labels), so each input
  array is split between its two windows at half shares when the region is entered and joined again when it is left.
  From any proof data with those shares, a body obligation and an invariant entered from and returned to the plain
  class's, every weakly fair execution of @main terminates; the result buffer ends at what the lines after the
  region compute from the kernel's output array, and the three argument arrays end unchanged.
-/
import proofs.«400616_j27212912788010_3_alg».proof.Proof.K.LaunchTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the lines after the region compute from the kernel's output array: entry [b, 0, 0] of each of the four
    blocks, summed from zero, divided by four. -/
def tailRes (o : (⟨S4x1x128, .f32⟩ : BufTy).Contents (Elt F)) : (⟨S_, .f32⟩ : BufTy).Contents (Elt F) :=
  Host.divf (Host.reduceAdd (shapeCast S4 (extractStridedSlice S4x1x1 ![0, 0, 0] o slices_S4x1x128_S4x1x1_0_0_0) shapeCasts_S4x1x1_S4)
    (constant S_ .f32 0x00000000#32) reducesTo_S4_S_d0 h_S_) (constant S_ .f32 0x40800000#32)

/-- The result buffer after the lines: the slice, the reshape, the sum from zero and the division by four, of the output array. -/
theorem Wa_v10 (c : Dev nD) (o : Buf (Elt F) ((c.tc : Thread nD τ).loc main_v6)) : Wa m c o main_v10 = tailRes o := by
  show StableHlo.after (List.flatten [hostOps1]) _ (Proc.devRef .tc main_v10) = _
  simp only [List.flatten_cons, List.flatten_nil, List.append_nil]
  after_results
  rw [Pipeline.withArrays_arr win1 hinj1 c _ _ 0]
  rfl

/-- The lines before the region allocate nothing. -/
theorem pre_fresh : ([hostOps0, hostOps0_1, hostOps0_2, hostOps0_3] : List (List (HloOp τ sig (Elt F)))).Forall fun ops => ops.Forall fun op => op.fresh = ∅ := by
  simp only [List.Forall]; repeat' constructor

/-- @main is the lines before the region, the region, and the six lines after it: it reduces to the region continued by
    those six lines, at the contents after the earlier ones. -/
theorem hmain : Pipeline.HMainPK (Ix := Unit) (Name := ℕ) (U := UR sig nD τ) (Lvl := ℕ) pcfgs 0 defs₀ Variants.none m (main (F := F)) (V m)
      (fun _ => Pipeline.chain [StableHlo.seq hostOps1]) :=
  Pipeline.hmainP_around pcfgs 0 defs₀ Variants.none m main [hostOps0, hostOps0_1, hostOps0_2, hostOps0_3] [hostOps1]
    ⟨hostOps0_sub, hostOps0_1_sub, hostOps0_2_sub, hostOps0_3_sub⟩ pre_fresh main_chain

set_option backward.isDefEq.respectTransparency.types false in
/-- THE RUN, for a pipeline whose input windows share arrays (windows 0 and 2 the predictions, 1 and 3 the labels). -/
theorem run_shared
    (dats : (p : Fin 1) → (c : Dev nD) → Dat τ (Elt F) Unit ℕ (UR sig nD τ) ℕ (Pipeline.pin pcfgs (fun _ => adm m) p) c)
    (hbody : ∀ c, Pipeline.BodyObligationLoose (dats 0 c) defs₀ Variants.none () Set.univ)
    (hq0 : ∀ c, (dats 0 c).q 0 = fullShare.left) (hq2 : ∀ c, (dats 0 c).q 2 = fullShare.right)
    (hq1 : ∀ c, (dats 0 c).q 1 = fullShare.left) (hq3 : ∀ c, (dats 0 c).q 3 = fullShare.right)
    (howed : ∀ c t, (dats 0 c).owed t = 0)
    (hA : ∀ c w, (dats 0 c).A w = V m c (Pipeline.arrRef spec0 w))
    (hin : ∀ c, iprop(Pipeline.ΦA spec0 c ∗ Pipeline.ΦT pre0 (tbl m) c) ⊢ (dats 0 c).Φ 0)
    (hout : ∀ c, (dats 0 c).Φ (Fin.last (cfgM m).N) ⊢ Pipeline.ΦA spec0 c) :
    θ_run defs (onTc (τ := τ) (main (F := F))) ⟨m, fun _ => 0, ρ⟩ (fun r => ∀ c : Dev nD,
      r.2.mem ((c.tc : Thread nD τ).loc main_v10) = tailRes ((dats 0 c).arrAt 4 (cfgM m).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail pcfgs (fun _ => adm m) dats () (cellOf_inj (fun _ => adm m)) 0 winFacts₀0 (Pipeline.OwnSemFacts.none spec0) preFacts0 emb₁ defs₀ Variants.none m ρ main
    (fun _ => Pipeline.chain [StableHlo.seq hostOps1]) hbody
    block_pos0 arr_whole0 stage_whole0 howed
    (G := fun _ => iprop(emp)) (u₀ := initOf (Pipeline.cells (Pipeline.pin pcfgs (fun _ => adm m)) (cellOf_inj (fun _ => adm m))) (Pipeline.launchToks (Pipeline.pin pcfgs (fun _ => adm m)) (cellOf_inj (fun _ => adm m))))
    (hu₀ := by
      iintro Hu; imodintro
      isplitl [Hu]; · iapply (show (ownU _ : sProp 𝕄) ⊢ BI.own (emb₁ (initOf (Pipeline.cells (Pipeline.pin pcfgs (fun _ => adm m)) (cellOf_inj (fun _ => adm m))) (Pipeline.launchToks (Pipeline.pin pcfgs (fun _ => adm m)) (cellOf_inj (fun _ => adm m))))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit_shared m dats hq0 hq2 hq1 hq3 hA)
    (hpf := fun c k => V_pre m c k)
    (X := fun c => iprop(∃ r, prngReg c r)) (Y := fun c => iprop(∃ r, prngReg c r))
    (Z := fun c => Pipeline.unscopedRestP (Ix := Unit) (Name := ℕ) (U := UR sig nD τ) (Lvl := ℕ) pre0 spec0 c (V m c))
    (Z' := fun c => Pipeline.unscopedRestP (Ix := Unit) (Name := ℕ) (U := UR sig nD τ) (Lvl := ℕ) pre0 spec0 c (Wa m c ((dats 0 c).arrAt 4 (cfgM m).N)))
    (hX := fun c => by
      iintro ⟨HU, -, -, -, Hp, -⟩; imodintro
      isplitl [Hp]; · iexists _; iexact Hp
      iexact HU)
    (hin := fun c => (show _ ⊢ iprop(Pipeline.ΦA spec0 c ∗ Pipeline.ΦT pre0 (tbl m) c) by
      unfold Pipeline.ΦA Pipeline.ΦT; iintro ⟨Hp, Ht, Hr⟩
      isplitr [Ht]
      · isplitl [Hr] <;> iassumption
      · iexact Ht).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_shared m dats hq0 hq2 hq1 hq3 hA c Q')
    (QY := fun c s => ∀ b ∈ Pipeline.restRefsP sig pre0 spec0, s.mem ((c.tc : Thread nD τ).loc b) = Wa m c ((dats 0 c).arrAt 4 (cfgM m).N) b)
    (hY := fun c s' => by
      iintro ⟨-, HU, HSI⟩
      unfold Pipeline.unscopedRestP
      imodintro
      iapply (pointsTo_read_all (Pipeline.restRefsP sig pre0 spec0) (fun b => (c.tc : Thread nD τ).loc b) (Wa m c ((dats 0 c).arrAt 4 (cfgM m).N)) s')
      isplitl [HU] <;> iassumption)
    (hQ := fun s h c =>
      ⟨((h c).2.2 main_v10 (mem_restP main_v10 rfl (by decide) (by decide))).trans (Wa_v10 m c _),
       ((h c).2.2 main_arg0 (mem_restP main_arg0 rfl (by decide) (by decide))).trans ((Wa_keeps m c _ main_arg0 (by decide) (by decide)).trans (V_arg0 m c)),
       ((h c).2.2 main_arg1 (mem_restP main_arg1 rfl (by decide) (by decide))).trans ((Wa_keeps m c _ main_arg1 (by decide) (by decide)).trans (V_arg1 m c)),
       ((h c).2.2 main_arg2 (mem_restP main_arg2 rfl (by decide) (by decide))).trans ((Wa_keeps m c _ main_arg2 (by decide) (by decide)).trans (V_arg2 m c))⟩)

end Cert.Kernel.Hand

end
-- ==== Proof.KI.Setup.lean ====
/-
  The pairwise-loss kernel's pipeline, set up for a frame proof by hand: the buffer contents at the region's entry
  (after the host gathers), the two prefetched tile tables read off them and admitted (every block they name lies
  inside its array), the blocks each window stages at a grid point, the body's two branch conditions in closed form
  over the 4 × 10 grid (the accumulator is reset at tile step 0 and drained at tile step 9), where the output
  window is idle and when it is written back, and the body as the pipeline calls it.
-/
import proofs.«400616_j27212912788010_3_alg».proof.Proof.Gen.KernelIdeal.Launch
import proofs.«400616_j27212912788010_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the four stretches of host operations before it
    (the table constants and reshapes, the two gathers, the two broadcasts). -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

/-! ## The prefetched tables -/

/-- The tables' contents at the region's entry (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- They are the two literal tables @main writes first: the row tiles and the column tiles of the ten steps. -/
theorem tbl_zero : tbl m 0 = fun i => lit0 (S10.rowMajor i) := by
  unfold tbl; dsimp only [V, V0]
  simp only [hostOps0, hostOps0_1, hostOps0_2, hostOps0_3, List.flatten_cons, List.flatten_nil, List.append_nil, List.cons_append, List.nil_append]
  after_results; rfl
theorem tbl_one : tbl m 1 = fun i => lit1 (S10.rowMajor i) := by
  unfold tbl; dsimp only [V, V0]
  simp only [hostOps0, hostOps0_1, hostOps0_2, hostOps0_3, List.flatten_cons, List.flatten_nil, List.append_nil, List.cons_append, List.nil_append]
  after_results; rfl

/-- Every block the tables name lies inside its array (each entry is below 4, a block is 1024 of 4096 wide). -/
theorem ok_tbl : ok0 (F := F) (tbl m) := by
  -- every entry of either literal table is below 4, and so is a grid row as a word
  have lit0_lt : ∀ k : Fin 10, (lit0 k).toNat < 4 := by decide
  have lit1_lt : ∀ k : Fin 10, (lit1 k).toNat < 4 := by decide
  have row_lt : ∀ i : grid0.Coords, (BitVec.ofNat 32 (i 0).val).toNat < 4 := fun i => by
    have h : (i 0).val < 4 := (i 0).isLt
    rw [BitVec.toNat_ofNat]; omega
  -- the block [r, 0, w] of size [1, 1, 1024] lies inside [4, 1, 4096] once r < 4 and w < 4
  have inb_of : ∀ r w : Nat, r < 4 → w < 4 →
      ∀ a, ((![r, (0#32 : BitVec 32).toNat, w] : Fin 3 → Nat) a + 1) * S1x1x1024.size a ≤ S4x1x4096.size a := by
    intro r w hr hw a
    fin_cases a
    · show (r + 1) * 1 ≤ 4; omega
    · show ((0#32 : BitVec 32).toNat + 1) * 1 ≤ 1; decide
    · show (w + 1) * 1024 ≤ 4096; omega
  -- the side condition at ANY contents whose words are below 4; the literal tables come in last
  have ok_of : ∀ pf : pre0.Contents (Elt F), (∀ x, (pf 0 x : BitVec 32).toNat < 4) → (∀ x, (pf 1 x : BitVec 32).toNat < 4) →
      ok0 (F := F) pf := fun pf h0 h1 =>
    ⟨fun i => ⟨inb_of _ _ (row_lt i) (h0 _), Or.inl rfl⟩, fun i => ⟨inb_of _ _ (row_lt i) (h0 _), Or.inl rfl⟩,
     fun i => ⟨inb_of _ _ (row_lt i) (h1 _), Or.inl rfl⟩, fun i => ⟨inb_of _ _ (row_lt i) (h1 _), Or.inl rfl⟩⟩
  refine ok_of (tbl m) (fun x => ?_) (fun x => ?_)
  · rw [tbl_zero]; exact lit0_lt _
  · rw [tbl_one]; exact lit1_lt _

/-- The tables as admissible contents, and the pipeline at them. -/
abbrev adm : (pcfg0 (F := F)).Adm := ⟨tbl m, ok_tbl m⟩
abbrev cfgM : Pipeline.Cfg sig Λ₀ := cfg0 (adm m)

theorem N_M : (cfgM m).N = 40 := N_0

/-- Each table as the body is handed it. -/
abbrev tbM0 : Memref sig .tc .smem S10 .i32 := Memref.whole main_c
abbrev htbM0 : tbM0.IsWhole := Memref.isWhole_whole _
abbrev tbM1 : Memref sig .tc .smem S10 .i32 := Memref.whole main_c_0
abbrev htbM1 : tbM1.IsWhole := Memref.isWhole_whole _

abbrev TbBuf (c : Dev nD) {S : Shape} {e : EltTy} (M : Memref sig .tc .smem S e) : Type := Buf (Elt F) (M.view.loc (c : Thread nD τ))
/-- A table's buffer held at half the full share (read-only: the pipeline keeps the other half). -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array at the region's entry. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-! ## The body's branch conditions -/

/-- The accumulator is reset: the tile step is 0. -/
abbrev condR (i : grid0.Coords) : Prop := (Scalar.cmpi .ne (Scalar.extui (Scalar.cmpi .eq (BitVec.ofNat 32 (i 1).val) 0#32)) 0#32) = 1#1
theorem hcondR : ∀ t : Fin grid0.N, condR (grid0.coords t) ↔ t.val % 10 = 0 := by decide +kernel
/-- The accumulator is drained into the output block: the tile step is 9. -/
abbrev condD (i : grid0.Coords) : Prop := k0_cond2 i = 1#1
theorem hcondD : ∀ t : Fin grid0.N, condD (grid0.coords t) ↔ t.val % 10 = 9 := by decide +kernel

/-! ## The staging memrefs and the scratch -/

abbrev ms0 (t : Fin (cfgM m).N) : Memref sig .tc .vmem S1x1x1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1x1024 .i32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1x1024 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1x1024 .i32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x1x128 .f32 := spec0_4.stage ((cfgM m).slots t 4)
abbrev hs4 (t : Fin (cfgM m).N) : (ms4 m t).IsWhole := hstage0_4 (((cfgM m).slots t 4).cast nbuf0_4)
/-- The accumulator: a whole scoped buffer of the kernel's own. -/
abbrev scM : Memref sig .tc .vmem S1x1 .f32 := Memref.whole cc0_scratch0
abbrev hscM : scM.IsWhole := Memref.isWhole_whole _
abbrev VS : View sig .tc .vmem S1x1 .f32 := scM.view
/-- One staging buffer of the output window, through which its contents are stated. -/
abbrev VO : View sig .tc .vmem S1x1x128 .f32 := (Memref.whole cc0_stg4_0 : Memref sig .tc .vmem S1x1x128 .f32).view

/-- The kernel body at point `t`, on what the pipeline calls it with. -/
abbrev bodyAt (t : Fin (cfgM m).N) : Prog (TpuEff nD τ sig (Elt F) Λ₀ .tc) PUnit :=
  cc0__lambda_ (grid0.coords t) tbM0 htbM0 tbM1 htbM1 (ms0 m t) (hs0 m t) (ms1 m t) (hs1 m t) (ms2 m t) (hs2 m t) (ms3 m t) (hs3 m t) (ms4 m t) (hs4 m t) scM hscM

/-- The invariant of the plain class with the accumulator as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.RunA.lean ====
/-
  The kernel body run at a grid point of tile step 0: the accumulator is reset to zero, the tile's masked pair
  losses are summed and added to it, and nothing is stored into the output block.
-/
import proofs.«400616_j27212912788010_3_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the accumulator, as pieces (last first), at a point where the reset branch is
    taken and the drain branch is not, with the proof that from the four input blocks, the output block at any
    contents (handed back untouched), the accumulator at any contents and the two tables, the body runs to its
    return holding the inputs and tables as they were and the accumulator with the pieces written. -/
noncomputable def runA (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : condR i) (hcD : ¬condD i)
    (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) :
    { LS : List (View.Piece (Elt F) S1x1 .f32) //
      ∀ (xi4 : Vec F S1x1x128 .f32) (E : Set ℕ) (K : PUnit → sProp 𝕄),
        iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare xi4 ∗ (∃ d, owns (c : Thread nD τ) a9 fullShare d) ∗ tbPt c tbM0 xt0 ∗ tbPt c tbM1 xt1
            ∗ (iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare xi4 ∗ (∃ f, a9.view.loc (c : Thread nD τ) ↦[a9.view.set]{fullShare} a9.view.writes (Elt F) f LS) ∗ tbPt c tbM0 xt0 ∗ tbPt c tbM1 xt1) -∗ K ⟨⟩))
          ⊢ wp frame (wpE (defs₀ (F := F)) Variants.none c none) E (cc0__lambda_ i tbM0 htbM0 tbM1 htbM1 a4 h4 a5 h5 a6 h6 a7 h7 a8 h8 a9 h9) K } := by
  refine ⟨?_, fun xi4 E K => ?run⟩
  case run =>
    simp only [cc0__lambda__eq_skeleton]; unfold cc0__lambda__skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, HT0, HT1, Hk⟩
    obtain rfl := h4.eq_unread hf0; obtain rfl := h5.eq_unread hf1; obtain rfl := h6.eq_unread hf2; obtain rfl := h7.eq_unread hf3; obtain rfl := h8.eq_unread hf4
    sl_exec (disch := first | exact hcR | exact hcD)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H4]
    · iexists _; isplitr; · ipureintro; exact h8.read_unread _
      iexact H4
    isplitl [HS]; · iexists _; iexact HS
    isplitl [HT0]; · iexact HT0
    iexact HT1

end Cert.KernelIdeal.Hand

end
-- ==== Proof.KI.RunB.lean ====
/-
  The kernel body run at a grid point of a tile step strictly between 0 and 9: the tile's masked pair losses are
  summed and added to the accumulator the step before left, and nothing is stored into the output block.
-/
import proofs.«400616_j27212912788010_3_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The accumulator's pieces at a point where neither branch is taken: from the four input blocks, the output block
    at any contents (handed back untouched), the accumulator at `xs` and the two tables. -/
noncomputable def runB (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : ¬condD i)
    (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) :
    { LS : List (View.Piece (Elt F) S1x1 .f32) //
      ∀ (xi4 : Vec F S1x1x128 .f32) (E : Set ℕ) (K : PUnit → sProp 𝕄),
        iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare xi4 ∗ owns (c : Thread nD τ) a9 fullShare xs ∗ tbPt c tbM0 xt0 ∗ tbPt c tbM1 xt1
            ∗ (iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare xi4 ∗ (∃ f, a9.view.loc (c : Thread nD τ) ↦[a9.view.set]{fullShare} a9.view.writes (Elt F) f LS) ∗ tbPt c tbM0 xt0 ∗ tbPt c tbM1 xt1) -∗ K ⟨⟩))
          ⊢ wp frame (wpE (defs₀ (F := F)) Variants.none c none) E (cc0__lambda_ i tbM0 htbM0 tbM1 htbM1 a4 h4 a5 h5 a6 h6 a7 h7 a8 h8 a9 h9) K } := by
  refine ⟨?_, fun xi4 E K => ?run⟩
  case run =>
    simp only [cc0__lambda__eq_skeleton]; unfold cc0__lambda__skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, HT0, HT1, Hk⟩
    obtain rfl := h4.eq_unread hf0; obtain rfl := h5.eq_unread hf1; obtain rfl := h6.eq_unread hf2; obtain rfl := h7.eq_unread hf3; obtain rfl := h8.eq_unread hf4; obtain rfl := h9.eq_unread hfs
    sl_exec (disch := first | exact hcR | exact hcD)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H4]
    · iexists _; isplitr; · ipureintro; exact h8.read_unread _
      iexact H4
    isplitl [HS]; · iexists _; iexact HS
    isplitl [HT0]; · iexact HT0
    iexact HT1

end Cert.KernelIdeal.Hand

end
-- ==== Proof.KI.RunC.lean ====
/-
  The kernel body run at a grid point of tile step 9: the tile's masked pair losses are summed and added to the
  accumulator the step before left, and the total divided by the number of pairs is stored across the output block.
-/
import proofs.«400616_j27212912788010_3_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The output block's and the accumulator's pieces at a point where the drain branch is taken and the reset branch
    is not: from the four input blocks, the output block at any contents, the accumulator at `xs` and the tables. -/
noncomputable def runC (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : condD i)
    (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) :
    Σ' (L4 : List (View.Piece (Elt F) S1x1x128 .f32)), { LS : List (View.Piece (Elt F) S1x1 .f32) //
      ∀ (E : Set ℕ) (K : PUnit → sProp 𝕄),
        iprop(owns (c : Thread nD τ) a4 fullShare x0 ∗ owns (c : Thread nD τ) a5 fullShare x1 ∗ owns (c : Thread nD τ) a6 fullShare x2 ∗ owns (c : Thread nD τ) a7 fullShare x3 ∗ (∃ d, owns (c : Thread nD τ) a8 fullShare d) ∗ owns (c : Thread nD τ) a9 fullShare xs ∗ tbPt c tbM0 xt0 ∗ tbPt c tbM1 xt1
            ∗ (iprop(owns (c : Thread nD τ) a4 fullShare x0 ∗ owns (c : Thread nD τ) a5 fullShare x1 ∗ owns (c : Thread nD τ) a6 fullShare x2 ∗ owns (c : Thread nD τ) a7 fullShare x3 ∗ (∃ f, a8.view.loc (c : Thread nD τ) ↦[a8.view.set]{fullShare} a8.view.writes (Elt F) f L4) ∗ (∃ f, a9.view.loc (c : Thread nD τ) ↦[a9.view.set]{fullShare} a9.view.writes (Elt F) f LS) ∗ tbPt c tbM0 xt0 ∗ tbPt c tbM1 xt1) -∗ K ⟨⟩))
          ⊢ wp frame (wpE (defs₀ (F := F)) Variants.none c none) E (cc0__lambda_ i tbM0 htbM0 tbM1 htbM1 a4 h4 a5 h5 a6 h6 a7 h7 a8 h8 a9 h9) K } := by
  refine ⟨?_, ?_, fun E K => ?run⟩
  case run =>
    simp only [cc0__lambda__eq_skeleton]; unfold cc0__lambda__skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, HT0, HT1, Hk⟩
    obtain rfl := h4.eq_unread hf0; obtain rfl := h5.eq_unread hf1; obtain rfl := h6.eq_unread hf2; obtain rfl := h7.eq_unread hf3; obtain rfl := h9.eq_unread hfs
    sl_exec (disch := first | exact hcR | exact hcD)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H4]; · iexists _; iexact H4
    isplitl [HS]; · iexists _; iexact HS
    isplitl [HT0]; · iexact HT0
    iexact HT1

end Cert.KernelIdeal.Hand

end
-- ==== Proof.KI.Frame.lean ====
/-
  What the pairwise-loss kernel leaves, point by point, and the body obligation of its pipeline.

  At tile step 0 of a batch row the accumulator is reset and the first tile's sum added; at steps 1 to 8 the
  tile's sum is added to what the step before left; at step 9 the last tile's sum is added and the total over the
  number of pairs is stored across the output block, which is written back there and nowhere else.  The
  accumulator's contents after each point are defined by recursion on the point, the invariant carries the
  accumulator at those contents between points, and the proof data hold the two shared input arrays at half shares.
-/
import proofs.«400616_j27212912788010_3_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The reset case's pieces cover the accumulator. -/
theorem scoverA (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : condR i) (hcD : ¬condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (y : S1x1.Idx) :
    ∃ pc ∈ (runA c i a4 h4 a5 h5 a6 h6 a7 h7 a8 h8 a9 h9 hcR hcD x0 x1 x2 x3 xt0 xt1).1, y ∈ pc.1.set :=
  View.cover_of_tiledL (runA c i a4 h4 a5 h5 a6 h6 a7 h7 a8 h8 a9 h9 hcR hcD x0 x1 x2 x3 xt0 xt1).1 S1x1.size (by sl_kernel_rfl) y
/-- What the reset case leaves in the accumulator. -/
def soutA (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : condR i) (hcD : ¬condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) : Vec F S1x1 .f32 :=
  VS.read (Elt F) (VS.writes (Elt F) VS.junk (runA c i a4 h4 a5 h5 a6 h6 a7 h7 a8 h8 a9 h9 hcR hcD x0 x1 x2 x3 xt0 xt1).1)

theorem scoverB (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : ¬condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) (y : S1x1.Idx) :
    ∃ pc ∈ (runB c i a4 h4 a5 h5 a6 h6 a7 h7 a8 h8 a9 h9 hcR hcD x0 x1 x2 x3 xt0 xt1 xs).1, y ∈ pc.1.set :=
  View.cover_of_tiledL (runB c i a4 h4 a5 h5 a6 h6 a7 h7 a8 h8 a9 h9 hcR hcD x0 x1 x2 x3 xt0 xt1 xs).1 S1x1.size (by sl_kernel_rfl) y
/-- What a middle step leaves in the accumulator, over what the step before left. -/
def soutB (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : ¬condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) : Vec F S1x1 .f32 :=
  VS.read (Elt F) (VS.writes (Elt F) VS.junk (runB c i a4 h4 a5 h5 a6 h6 a7 h7 a8 h8 a9 h9 hcR hcD x0 x1 x2 x3 xt0 xt1 xs).1)

theorem coverC (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) (y : S1x1x128.Idx) :
    ∃ pc ∈ (runC c i a4 h4 a5 h5 a6 h6 a7 h7 a8 h8 a9 h9 hcR hcD x0 x1 x2 x3 xt0 xt1 xs).1, y ∈ pc.1.set :=
  View.cover_of_tiledL (runC c i a4 h4 a5 h5 a6 h6 a7 h7 a8 h8 a9 h9 hcR hcD x0 x1 x2 x3 xt0 xt1 xs).1 S1x1x128.size (by sl_kernel_rfl) y
/-- What the last step leaves in the output block. -/
def outC (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) : Vec F S1x1x128 .f32 :=
  VO.read (Elt F) (VO.writes (Elt F) VO.junk (runC c i a4 h4 a5 h5 a6 h6 a7 h7 a8 h8 a9 h9 hcR hcD x0 x1 x2 x3 xt0 xt1 xs).1)
theorem scoverC (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) (y : S1x1.Idx) :
    ∃ pc ∈ (runC c i a4 h4 a5 h5 a6 h6 a7 h7 a8 h8 a9 h9 hcR hcD x0 x1 x2 x3 xt0 xt1 xs).2.1, y ∈ pc.1.set :=
  View.cover_of_tiledL (runC c i a4 h4 a5 h5 a6 h6 a7 h7 a8 h8 a9 h9 hcR hcD x0 x1 x2 x3 xt0 xt1 xs).2.1 S1x1.size (by sl_kernel_rfl) y
/-- What the last step leaves in the accumulator. -/
def soutC (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole) (hcR : ¬condR i) (hcD : condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) : Vec F S1x1 .f32 :=
  VS.read (Elt F) (VS.writes (Elt F) VS.junk (runC c i a4 h4 a5 h5 a6 h6 a7 h7 a8 h8 a9 h9 hcR hcD x0 x1 x2 x3 xt0 xt1 xs).2.1)

/-- A placeholder for the output block at the points that store nothing into it (never consulted: the window is
    idle there and not written back). -/
def outIdle : Vec F S1x1x128 .f32 := VO.read (Elt F) VO.junk

/-! ## The conditions at a point of the pipeline -/

theorem hR (t : Fin (cfgM m).N) : condR (grid0.coords t) ↔ t.val % 10 = 0 := hcondR t
theorem hD (t : Fin (cfgM m).N) : condD (grid0.coords t) ↔ t.val % 10 = 9 := hcondD t

/-! ## What the output block and the accumulator hold after each point -/

/-- THE ACCUMULATION: the output block and the accumulator after the body at position `n`. -/
def outsAt (c : Dev nD) : (n : ℕ) → n < (cfgM m).N → Vec F S1x1x128 .f32 × Vec F S1x1 .f32
  | 0, hn => (outIdle, soutA c (grid0.coords ⟨0, hn⟩) (ms0 m ⟨0, hn⟩) (hs0 m ⟨0, hn⟩) (ms1 m ⟨0, hn⟩) (hs1 m ⟨0, hn⟩) (ms2 m ⟨0, hn⟩) (hs2 m ⟨0, hn⟩) (ms3 m ⟨0, hn⟩) (hs3 m ⟨0, hn⟩) (ms4 m ⟨0, hn⟩) (hs4 m ⟨0, hn⟩) scM hscM ((hR m ⟨0, hn⟩).mpr (Nat.zero_mod _)) (fun h => (fun h => by (try dsimp only at h); omega) ((hD m ⟨0, hn⟩).mp h)) (iblk m c 0 ⟨0, hn⟩) (iblk m c 1 ⟨0, hn⟩) (iblk m c 2 ⟨0, hn⟩) (iblk m c 3 ⟨0, hn⟩) (tbl m 0) (tbl m 1))
  | n + 1, hn =>
    if h0 : (n + 1) % 10 = 0 then
      (outIdle, soutA c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) scM hscM ((hR m ⟨n + 1, hn⟩).mpr h0) (fun h => (fun h => by (try dsimp only at h); omega) ((hD m ⟨n + 1, hn⟩).mp h)) (iblk m c 0 ⟨n + 1, hn⟩) (iblk m c 1 ⟨n + 1, hn⟩) (iblk m c 2 ⟨n + 1, hn⟩) (iblk m c 3 ⟨n + 1, hn⟩) (tbl m 0) (tbl m 1))
    else
      if h9 : (n + 1) % 10 = 9 then
        (outC c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) scM hscM (fun h => h0 ((hR m ⟨n + 1, hn⟩).mp h)) ((hD m ⟨n + 1, hn⟩).mpr h9) (iblk m c 0 ⟨n + 1, hn⟩) (iblk m c 1 ⟨n + 1, hn⟩) (iblk m c 2 ⟨n + 1, hn⟩) (iblk m c 3 ⟨n + 1, hn⟩) (tbl m 0) (tbl m 1) (outsAt c n (Nat.lt_of_succ_lt hn)).2,
         soutC c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) scM hscM (fun h => h0 ((hR m ⟨n + 1, hn⟩).mp h)) ((hD m ⟨n + 1, hn⟩).mpr h9) (iblk m c 0 ⟨n + 1, hn⟩) (iblk m c 1 ⟨n + 1, hn⟩) (iblk m c 2 ⟨n + 1, hn⟩) (iblk m c 3 ⟨n + 1, hn⟩) (tbl m 0) (tbl m 1) (outsAt c n (Nat.lt_of_succ_lt hn)).2)
      else
        (outIdle, soutB c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) scM hscM (fun h => h0 ((hR m ⟨n + 1, hn⟩).mp h)) (fun h => h9 ((hD m ⟨n + 1, hn⟩).mp h)) (iblk m c 0 ⟨n + 1, hn⟩) (iblk m c 1 ⟨n + 1, hn⟩) (iblk m c 2 ⟨n + 1, hn⟩) (iblk m c 3 ⟨n + 1, hn⟩) (tbl m 0) (tbl m 1) (outsAt c n (Nat.lt_of_succ_lt hn)).2)

/-- At a reset point. -/
theorem outsAt_A (c : Dev nD) (t : Fin (cfgM m).N) (h0 : t.val % 10 = 0) (h9 : ¬t.val % 10 = 9) :
    outsAt m c t.val t.isLt = (outIdle, soutA c (grid0.coords t) (ms0 m t) (hs0 m t) (ms1 m t) (hs1 m t) (ms2 m t) (hs2 m t) (ms3 m t) (hs3 m t) (ms4 m t) (hs4 m t) scM hscM ((hR m t).mpr h0) (fun h => h9 ((hD m t).mp h)) (iblk m c 0 t) (iblk m c 1 t) (iblk m c 2 t) (iblk m c 3 t) (tbl m 0) (tbl m 1)) := by
  obtain ⟨n, hn⟩ := t
  cases n with
  | zero => exact rfl
  | succ n => exact (dif_pos h0).trans rfl

/-- At a middle point: over what the point before left. -/
theorem outsAt_B (c : Dev nD) (t : Fin (cfgM m).N) (h0 : ¬t.val % 10 = 0) (h9 : ¬t.val % 10 = 9) :
    outsAt m c t.val t.isLt = (outIdle, soutB c (grid0.coords t) (ms0 m t) (hs0 m t) (ms1 m t) (hs1 m t) (ms2 m t) (hs2 m t) (ms3 m t) (hs3 m t) (ms4 m t) (hs4 m t) scM hscM (fun h => h0 ((hR m t).mp h)) (fun h => h9 ((hD m t).mp h)) (iblk m c 0 t) (iblk m c 1 t) (iblk m c 2 t) (iblk m c 3 t) (tbl m 0) (tbl m 1) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h9).trans rfl)

/-- At a drain point: over what the point before left. -/
theorem outsAt_C (c : Dev nD) (t : Fin (cfgM m).N) (h0 : ¬t.val % 10 = 0) (h9 : t.val % 10 = 9) :
    outsAt m c t.val t.isLt = (outC c (grid0.coords t) (ms0 m t) (hs0 m t) (ms1 m t) (hs1 m t) (ms2 m t) (hs2 m t) (ms3 m t) (hs3 m t) (ms4 m t) (hs4 m t) scM hscM (fun h => h0 ((hR m t).mp h)) ((hD m t).mpr h9) (iblk m c 0 t) (iblk m c 1 t) (iblk m c 2 t) (iblk m c 3 t) (tbl m 0) (tbl m 1) (outsAt m c (t.val - 1) (Nat.lt_of_le_of_lt (Nat.sub_le _ _) t.isLt)).2,
      soutC c (grid0.coords t) (ms0 m t) (hs0 m t) (ms1 m t) (hs1 m t) (ms2 m t) (hs2 m t) (ms3 m t) (hs3 m t) (ms4 m t) (hs4 m t) scM hscM (fun h => h0 ((hR m t).mp h)) ((hD m t).mpr h9) (iblk m c 0 t) (iblk m c 1 t) (iblk m c 2 t) (iblk m c 3 t) (tbl m 0) (tbl m 1) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h9).trans rfl)

/-- The region invariant before position `n`: before the first point the plain class's with the tables' halves;
    afterwards the accumulator at what the point before left, the generator register at some state, the tables' halves. -/
def PhiS (c : Dev nD) : (n : ℕ) → n ≤ (cfgM m).N → sProp 𝕄
  | 0, _ => iprop(Pipeline.ΦA spec0 c ∗ Pipeline.ΦT pre0 (tbl m) c)
  | n + 1, hn => iprop(iprop(iprop(owns (c : Thread nD τ) scM fullShare ((outsAt m c n hn).2)) ∗ (∃ r, prngReg c r)) ∗ Pipeline.ΦT pre0 (tbl m) c)

theorem PhiS_zero (c : Dev nD) (n : ℕ) (h : n ≤ (cfgM m).N) (hz : n = 0) : PhiS m c n h = iprop(Pipeline.ΦA spec0 c ∗ Pipeline.ΦT pre0 (tbl m) c) := by
  subst hz; rfl
theorem PhiS_succ (c : Dev nD) (n : ℕ) (hn : n < (cfgM m).N) :
    PhiS m c (n + 1) hn = iprop(iprop(iprop(owns (c : Thread nD τ) scM fullShare ((outsAt m c n hn).2)) ∗ (∃ r, prngReg c r)) ∗ Pipeline.ΦT pre0 (tbl m) c) := rfl
theorem PhiS_pos (c : Dev nD) (n : ℕ) (h : n ≤ (cfgM m).N) (hz : n ≠ 0) :
    PhiS m c n h = iprop(iprop(iprop(owns (c : Thread nD τ) scM fullShare ((outsAt m c (n - 1) (by omega)).2)) ∗ (∃ r, prngReg c r)) ∗ Pipeline.ΦT pre0 (tbl m) c) := by
  cases n with
  | zero => exact absurd rfl hz
  | succ n => rfl

/-! ## The pipeline's proof data -/

/-- The proof data on core `c`: the arrays at the region's entry; after the body each input's buffer at its block
    and the output's at `outsAt`; the tracking invariant; the predictions' array split between windows 0 and 2 and the
    labels' between windows 1 and 3, at half shares; nothing owed. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin (cfgM m).W) : (dats m 0 c).A w = V m c (Pipeline.arrRef spec0 w) := by
  dsimp only [dats]

theorem PhiS_castSucc (c : Dev nD) (t : Fin (cfgM m).N) :
    (dats m 0 c).Φ t.castSucc = PhiS m c t.val (Nat.le_of_lt t.isLt) := by
  dsimp only [dats]; simp only [Fin.coe_castSucc]

theorem after0 (c : Dev nD) (t : Fin (cfgM m).N) : (dats m 0 c).after 0 t = iblk m c 0 t := by dsimp only [dats]; rfl
theorem after1 (c : Dev nD) (t : Fin (cfgM m).N) : (dats m 0 c).after 1 t = iblk m c 1 t := by dsimp only [dats]; rfl
theorem after2 (c : Dev nD) (t : Fin (cfgM m).N) : (dats m 0 c).after 2 t = iblk m c 2 t := by dsimp only [dats]; rfl
theorem after3 (c : Dev nD) (t : Fin (cfgM m).N) : (dats m 0 c).after 3 t = iblk m c 3 t := by dsimp only [dats]; rfl
theorem after4 (c : Dev nD) (t : Fin (cfgM m).N) : (dats m 0 c).after 4 t = (outsAt m c t.val t.isLt).1 := by dsimp only [dats]; rfl

/-- Each input's current staging buffer holds its block at every point, fetched there or not. -/
theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## Where the output window is idle, and when it is written back -/

theorem live0 (t : Fin (cfgM m).N) : (cfgM m).idle 0 (grid0.coords t) = false := rfl
theorem live1 (t : Fin (cfgM m).N) : (cfgM m).idle 1 (grid0.coords t) = false := rfl
theorem live2 (t : Fin (cfgM m).N) : (cfgM m).idle 2 (grid0.coords t) = false := rfl
theorem live3 (t : Fin (cfgM m).N) : (cfgM m).idle 3 (grid0.coords t) = false := rfl
/-- The output window is idle exactly where the drain branch is not taken. -/
theorem idle4 (t : Fin (cfgM m).N) (h : ¬condD (grid0.coords t)) : (cfgM m).idle 4 (grid0.coords t) = true := by
  show (!(k0_cond2 (grid0.coords t) == 1#1)) = true
  simp only [Bool.not_eq_true', beq_eq_false_iff_ne, ne_eq]; exact h
theorem live4 (t : Fin (cfgM m).N) (h : condD (grid0.coords t)) : (cfgM m).idle 4 (grid0.coords t) = false := by
  show (!(k0_cond2 (grid0.coords t) == 1#1)) = false
  simp only [Bool.not_eq_false', beq_iff_eq]; exact h
/-- The output block is written back at the points of tile step 9 (its index map reads only the batch row). -/
theorem flush4 (a : (pcfg0 (F := F)).Adm) : ∀ t : Fin (cfg0 a).N, ((cfg0 a).win 4).flush t = true ↔ t.val % 10 = 9 :=
  (by decide +kernel : ∀ t : Fin grid0.N, Pipeline.Window.flushOf grid0 true cc0_transform_4 t = true ↔ t.val % 10 = 9)
theorem noFlush4 (t : Fin (cfgM m).N) (h : ¬condD (grid0.coords t)) : ((cfgM m).win 4).flush t = false := by
  have := (flush4 (adm m) t).not.mpr (fun h9 => h ((hD m t).mpr h9))
  simpa using this

end Cert.KernelIdeal.Hand

end
-- ==== Proof.KI.Body.lean ====
/-
  The body obligation of the pairwise-loss kernel's pipeline: at every grid point, from the invariant, the four
  input blocks and the output block's buffer, the body runs to the invariant at the next point with the accumulator
  at that point's contents, the inputs as they were, and the output block either untouched (tile steps 0 to 8, where
  the window is idle and not written back) or at the drained total (tile step 9).
-/
import proofs.«400616_j27212912788010_3_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))

/-- and what it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the closed forms say which case the point is in; the invariant hands the body the
    accumulator at what the point before left (at anything before the first point) and takes it back at this
    point's contents; the tables' halves and the generator register pass through. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (N_M m)
  rw [show (dats m 0 c).leavesExact 0 t = owns (c : Thread nD τ) (ms0 m t) fullShare ((dats m 0 c).after 0 t) from by
    unfold Dat.leavesExact; rw [live0 m t]; rfl, after0]
  rw [show (dats m 0 c).leavesExact 1 t = owns (c : Thread nD τ) (ms1 m t) fullShare ((dats m 0 c).after 1 t) from by
    unfold Dat.leavesExact; rw [live1 m t]; rfl, after1]
  rw [show (dats m 0 c).leavesExact 2 t = owns (c : Thread nD τ) (ms2 m t) fullShare ((dats m 0 c).after 2 t) from by
    unfold Dat.leavesExact; rw [live2 m t]; rfl, after2]
  rw [show (dats m 0 c).leavesExact 3 t = owns (c : Thread nD τ) (ms3 m t) fullShare ((dats m 0 c).after 3 t) from by
    unfold Dat.leavesExact; rw [live3 m t]; rfl, after3]
  by_cases h0 : t.val % 10 = 0
  · have h9 : ¬t.val % 10 = 9 := by omega
    rw [Dat.leavesExact_idle (dats m 0 c) 4 t (idle4 m t (fun h => h9 ((hD m t).mp h))) (noFlush4 m t (fun h => h9 ((hD m t).mp h)))]
    rw [outsAt_A m c t h0 h9]
    unfold soutA; (try dsimp only)
    by_cases hz : t.val = 0
    · rw [PhiS_castSucc m c t, PhiS_zero m c _ _ hz, PhiA_eq, PhiT_eq]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply ((runA c (grid0.coords t) _ _ _ _ _ _ _ _ _ _ _ _ ((hR m t).mpr h0) (fun h => h9 ((hD m t).mp h)) (iblk m c 0 t) (iblk m c 1 t) (iblk m c 2 t) (iblk m c 3 t) (tbl m 0) (tbl m 1)).2 _ Set.univ _)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      iintro ⟨H0, H1, H2, H3, H4, ⟨%es, HS⟩, HT0, HT1⟩
      isplitl [HS Hg HT0 HT1]
      · isplitl [HS Hg]
        · isplitl [HS]
          · unfold owns; iexists _; isplitr
            swap; · iexact HS
            ipureintro; exact View.read_writes_of_cover _ _ _ _ _ (scoverA c _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz, PhiT_eq]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply ((runA c (grid0.coords t) _ _ _ _ _ _ _ _ _ _ _ _ ((hR m t).mpr h0) (fun h => h9 ((hD m t).mp h)) (iblk m c 0 t) (iblk m c 1 t) (iblk m c 2 t) (iblk m c 3 t) (tbl m 0) (tbl m 1)).2 _ Set.univ _)
      isplitl [H0]; · iexact H0
      isplitl [H1]; · iexact H1
      isplitl [H2]; · iexact H2
      isplitl [H3]; · iexact H3
      isplitl [H4]; · iexact H4
      isplitl [HS]; · iexists _; iexact HS
      isplitl [HT0]; · iexact HT0
      isplitl [HT1]; · iexact HT1
      iintro ⟨H0, H1, H2, H3, H4, ⟨%es, HS⟩, HT0, HT1⟩
      isplitl [HS Hg HT0 HT1]
      · isplitl [HS Hg]
        · isplitl [HS]
          · unfold owns; iexists _; isplitr
            swap; · iexact HS
            ipureintro; exact View.read_writes_of_cover _ _ _ _ _ (scoverA c _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h9 : t.val % 10 = 9
    · rw [show (dats m 0 c).leavesExact 4 t = owns (c : Thread nD τ) (ms4 m t) fullShare ((dats m 0 c).after 4 t) from by
        unfold Dat.leavesExact; rw [live4 m t ((hD m t).mpr h9)]; rfl, after4]
      rw [outsAt_C m c t h0 h9]
      unfold outC soutC; (try dsimp only)
      rw [PhiS_castSucc m c t, PhiS_pos m c _ _ hz, PhiT_eq]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply ((runC c (grid0.coords t) _ _ _ _ _ _ _ _ _ _ _ _ (fun h => h0 ((hR m t).mp h)) ((hD m t).mpr h9) (iblk m c 0 t) (iblk m c 1 t) (iblk m c 2 t) (iblk m c 3 t) (tbl m 0) (tbl m 1) _).2.2 Set.univ _)
      isplitl [H0]; · iexact H0
      isplitl [H1]; · iexact H1
      isplitl [H2]; · iexact H2
      isplitl [H3]; · iexact H3
      isplitl [H4]; · iexists _; iexact H4
      isplitl [HS]; · iexact HS
      isplitl [HT0]; · iexact HT0
      isplitl [HT1]; · iexact HT1
      iintro ⟨H0, H1, H2, H3, ⟨%e4, H4⟩, ⟨%es, HS⟩, HT0, HT1⟩
      isplitl [HS Hg HT0 HT1]
      · isplitl [HS Hg]
        · isplitl [HS]
          · unfold owns; iexists _; isplitr
            swap; · iexact HS
            ipureintro; exact View.read_writes_of_cover _ _ _ _ _ (scoverC c _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _ _ _)
    · rw [Dat.leavesExact_idle (dats m 0 c) 4 t (idle4 m t (fun h => h9 ((hD m t).mp h))) (noFlush4 m t (fun h => h9 ((hD m t).mp h)))]
      rw [outsAt_B m c t h0 h9]
      unfold soutB; (try dsimp only)
      rw [PhiS_castSucc m c t, PhiS_pos m c _ _ hz, PhiT_eq]
      iintro ⟨⟨⟨HS, Hg⟩, ⟨HT0, HT1⟩⟩, Ho, ⟨%d0, H0⟩, ⟨%d1, H1⟩, ⟨%d2, H2⟩, ⟨%d3, H3⟩, ⟨%d4, H4⟩⟩
      iapply ((runB c (grid0.coords t) _ _ _ _ _ _ _ _ _ _ _ _ (fun h => h0 ((hR m t).mp h)) (fun h => h9 ((hD m t).mp h)) (iblk m c 0 t) (iblk m c 1 t) (iblk m c 2 t) (iblk m c 3 t) (tbl m 0) (tbl m 1) _).2 _ Set.univ _)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      iintro ⟨H0, H1, H2, H3, H4, ⟨%es, HS⟩, HT0, HT1⟩
      isplitl [HS Hg HT0 HT1]
      · isplitl [HS Hg]
        · isplitl [HS]
          · unfold owns; iexists _; isplitr
            swap; · iexact HS
            ipureintro; exact View.read_writes_of_cover _ _ _ _ _ (scoverB c _ _ _ _ _ _ _ _ _ _ _ _ _ _ _ _ _ _ _ _ _ _)
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl, PhiS_zero m c 0 _ rfl]

/-- After the last point the invariant gives the plain class's back: the accumulator's contents are forgotten, the
    tables' halves let go. -/
theorem hout (c : Dev nD) : (dats m 0 c).Φ (Fin.last (cfgM m).N) ⊢ Pipeline.ΦA spec0 c := by
  rw [show (dats m 0 c).Φ (Fin.last (cfgM m).N) = PhiS m c (Fin.last (cfgM m).N).val (Nat.le_of_lt_succ (Fin.last (cfgM m).N).isLt) from rfl,
    PhiS_pos m c _ _ (by rw [Fin.val_last]; have : (cfgM m).N = 40 := N_M m; omega), PhiA_eq]
  iintro ⟨⟨HS, Hg⟩, -⟩
  isplitl [HS]
  · iexists _; iexact HS
  iexact Hg

end Cert.KernelIdeal.Hand

end
-- ==== Proof.KI.LaunchShare.lean ====
/-
  The pairwise-loss kernel's pipeline reads each input array through two windows. Here: the pipeline's arrays, with
  each input array dealt to its two windows at the two halves of the full share, are three whole buffers at the full
  share (the two input arrays and the output array), in both directions; and the unscoped buffers that bypass the
  one-window family of the output window are those that bypass the pipeline together with the two input arrays.
-/
import proofs.«400616_j27212912788010_3_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held at the full share is its two halves. -/
theorem pt_halves {ℓ : Loc nD τ sig} (f : Buf (Elt F) ℓ) :
    (ℓ ↦{fullShare} f : sProp 𝕄) = iprop((ℓ ↦{fullShare.left} f) ∗ ℓ ↦{fullShare.right} f) :=
  BI.Entails.antisymm (pointsTo_share (PosShare.mem_left_op_right fullShare)).1 (pointsTo_share (PosShare.mem_left_op_right fullShare)).2

/-- Five factors, the first and third the halves of one buffer, the second and fourth of another. -/
theorem five_split (Φ : Fin 5 → sProp 𝕄) (P4 P4L P4R P5 P5L P5R P6 : sProp 𝕄)
    (e0 : Φ 0 = P4L) (e1 : Φ 1 = P5L) (e2 : Φ 2 = P4R) (e3 : Φ 3 = P5R) (e4 : Φ 4 = P6)
    (h4 : P4 = iprop(P4L ∗ P4R)) (h5 : P5 = iprop(P5L ∗ P5R)) :
    bigSep Finset.univ Φ = iprop(P4 ∗ P5 ∗ P6) := by
  rw [bigSep_W0, e0, e1, e2, e3, e4, h4, h5]
  have h₁ : (iprop(P4L ∗ P5L ∗ P4R ∗ P5R ∗ P6) : sProp 𝕄) ⊢ iprop((P4L ∗ P4R) ∗ (P5L ∗ P5R) ∗ P6) := by
    iintro ⟨H0, H1, H2, H3, H4⟩
    isplitl [H0 H2]
    · isplitl [H0] <;> iassumption
    isplitl [H1 H3]
    · isplitl [H1] <;> iassumption
    iexact H4
  have h₂ : (iprop((P4L ∗ P4R) ∗ (P5L ∗ P5R) ∗ P6) : sProp 𝕄) ⊢ iprop(P4L ∗ P5L ∗ P4R ∗ P5R ∗ P6) := by
    iintro ⟨⟨H0, H2⟩, ⟨H1, H3⟩, H4⟩
    isplitl [H0]; · iexact H0
    isplitl [H1]; · iexact H1
    isplitl [H2]; · iexact H2
    isplitl [H3]; · iexact H3
    iexact H4
  exact BI.Entails.antisymm h₁ h₂

section OneWindow
variable {c : Dev nD} (dat : Dat τ (Elt F) Unit ℕ (UR sig nD τ) ℕ (Pipeline.pin pcfgs (fun _ => adm m) 0) c)
  (Fa : (w : Fin 5) → Buf (Elt F) (((spec0 w).arr.view.loc (c.tc : Thread nD τ))))

/-- Window `w`'s factor of the pipeline's arrays. -/
abbrev arrFac (w : Fin 5) : sProp 𝕄 :=
  ((Pipeline.pin pcfgs (fun _ => adm m) 0).win w).arr.view.loc (c.tc : Thread nD τ) ↦[((Pipeline.pin pcfgs (fun _ => adm m) 0).win w).arr.view.set]{dat.share w} Fa w

theorem arrFac0 (hq : dat.q 0 = fullShare.left) (W : Buf (Elt F) ((c.tc : Thread nD τ).loc main_v4)) (h : Fa 0 = W) :
    arrFac m dat Fa 0 = (((c.tc : Thread nD τ).loc main_v4) ↦{fullShare.left} W) := by
  subst h
  show (_ ↦[_]{dat.share 0} _) = _
  rw [show dat.share 0 = fullShare.left from hq, (arr_whole0 0).set_eq_univ]

theorem arrFac1 (hq : dat.q 1 = fullShare.left) (W : Buf (Elt F) ((c.tc : Thread nD τ).loc main_v5)) (h : Fa 1 = W) :
    arrFac m dat Fa 1 = (((c.tc : Thread nD τ).loc main_v5) ↦{fullShare.left} W) := by
  subst h
  show (_ ↦[_]{dat.share 1} _) = _
  rw [show dat.share 1 = fullShare.left from hq, (arr_whole0 1).set_eq_univ]

theorem arrFac2 (hq : dat.q 2 = fullShare.right) (W : Buf (Elt F) ((c.tc : Thread nD τ).loc main_v4)) (h : Fa 2 = W) :
    arrFac m dat Fa 2 = (((c.tc : Thread nD τ).loc main_v4) ↦{fullShare.right} W) := by
  subst h
  show (_ ↦[_]{dat.share 2} _) = _
  rw [show dat.share 2 = fullShare.right from hq, (arr_whole0 2).set_eq_univ]

theorem arrFac3 (hq : dat.q 3 = fullShare.right) (W : Buf (Elt F) ((c.tc : Thread nD τ).loc main_v5)) (h : Fa 3 = W) :
    arrFac m dat Fa 3 = (((c.tc : Thread nD τ).loc main_v5) ↦{fullShare.right} W) := by
  subst h
  show (_ ↦[_]{dat.share 3} _) = _
  rw [show dat.share 3 = fullShare.right from hq, (arr_whole0 3).set_eq_univ]

theorem arrFac4 (W : Buf (Elt F) ((c.tc : Thread nD τ).loc main_v6)) (h : Fa 4 = W) :
    arrFac m dat Fa 4 = (((c.tc : Thread nD τ).loc main_v6) ↦{fullShare} W) := by
  subst h
  show (_ ↦[_]{dat.share 4} _) = _
  rw [show dat.share 4 = fullShare from rfl, (arr_whole0 4).set_eq_univ]

/-- The pipeline's arrays are three whole buffers: the two input arrays, each split between its two windows at half
    shares, and the output array. -/
theorem arrays_shared
    (hq0 : dat.q 0 = fullShare.left) (hq2 : dat.q 2 = fullShare.right) (hq1 : dat.q 1 = fullShare.left) (hq3 : dat.q 3 = fullShare.right)
    (W4 : Buf (Elt F) ((c.tc : Thread nD τ).loc main_v4)) (W5 : Buf (Elt F) ((c.tc : Thread nD τ).loc main_v5))
    (W6 : Buf (Elt F) ((c.tc : Thread nD τ).loc main_v6))
    (h0 : Fa 0 = W4) (h2 : Fa 2 = W4) (h1 : Fa 1 = W5) (h3 : Fa 3 = W5) (h4 : Fa 4 = W6) :
    dat.arrays Fa = iprop((((c.tc : Thread nD τ).loc main_v4) ↦{fullShare} W4) ∗ (((c.tc : Thread nD τ).loc main_v5) ↦{fullShare} W5)
       ∗ (((c.tc : Thread nD τ).loc main_v6) ↦{fullShare} W6)) :=
  five_split (arrFac m dat Fa) _ _ _ _ _ _ _ (arrFac0 m dat Fa hq0 W4 h0) (arrFac1 m dat Fa hq1 W5 h1) (arrFac2 m dat Fa hq2 W4 h2)
    (arrFac3 m dat Fa hq3 W5 h3) (arrFac4 m dat Fa W6 h4) (pt_halves W4) (pt_halves W5)
end OneWindow

/-! ## The buffers that bypass the output window alone -/

/-- A member of `U` outside `I` and `P` is a member of `(U \ I) \ P`, and the others are those of the difference with it
    removed as well. -/
theorem sdiff_insert_split {α : Type} [DecidableEq α] (U I P : Finset α) (a : α) (haU : a ∈ U) (haI : a ∉ I) (haP : a ∉ P) :
    (U \ I) \ P = insert a ((U \ insert a I) \ P) := by
  ext b
  simp only [Finset.mem_sdiff, Finset.mem_insert, not_or]
  constructor
  · rintro ⟨⟨hU, hI⟩, hP⟩
    by_cases h : b = a
    · exact Or.inl h
    · exact Or.inr ⟨⟨hU, h, hI⟩, hP⟩
  · rintro (rfl | ⟨⟨hU, -, hI⟩, hP⟩)
    · exact ⟨⟨haU, haI⟩, haP⟩
    · exact ⟨⟨hU, hI⟩, hP⟩

/-- The same of a separating conjunction over the difference. -/
theorem bigSep_sdiff_insert {α : Type} [DecidableEq α] (U I P : Finset α) (a : α) (haU : a ∈ U) (haI : a ∉ I) (haP : a ∉ P)
    (Φ : α → sProp 𝕄) : bigSep ((U \ I) \ P) Φ = iprop(Φ a ∗ bigSep ((U \ insert a I) \ P) Φ) := by
  have hn : a ∉ (U \ insert a I) \ P := fun h => (Finset.mem_sdiff.mp (Finset.mem_sdiff.mp h).1).2 (Finset.mem_insert_self a I)
  rw [sdiff_insert_split U I P a haU haI haP, bigSep_insert hn]
  rfl

/-- The one-window family of the output window. -/
abbrev win1 : Fin 1 → Pipeline.WinSpec sig grid0.rank := fun _ => spec0 4

/-- The output window's array is `main_v6`; the five windows' arrays are `main_v4`, `main_v5` and `main_v6`. -/
theorem img1 : (Finset.univ : Finset (Fin 1)).image (Pipeline.arrRef win1) = {main_v6} := by decide
theorem img5 : (Finset.univ : Finset (Fin 5)).image (Pipeline.arrRef spec0) = insert main_v5 (insert main_v4 {main_v6}) := by decide

/-- What bypasses the output window alone: the two input arrays, whole, and what bypasses the pipeline. -/
theorem restP_split (c : Dev nD) (Wv : (b : Ref sig .tc) → Buf (Elt F) ((c.tc : Thread nD τ).loc b)) :
    (Pipeline.unscopedRestP pre0 win1 c Wv : sProp 𝕄)
      = iprop((((c.tc : Thread nD τ).loc main_v4) ↦{fullShare} Wv main_v4) ∗ (((c.tc : Thread nD τ).loc main_v5) ↦{fullShare} Wv main_v5)
          ∗ Pipeline.unscopedRestP pre0 spec0 c Wv) := by
  unfold Pipeline.unscopedRestP
  rw [img1, img5,
    bigSep_sdiff_insert _ {main_v6} _ main_v4 (Finset.mem_filter.mpr ⟨Finset.mem_univ _, by decide⟩) (by decide) (by decide),
    bigSep_sdiff_insert _ (insert main_v4 {main_v6}) _ main_v5 (Finset.mem_filter.mpr ⟨Finset.mem_univ _, by decide⟩) (by decide) (by decide)]

end Cert.KernelIdeal.Hand

end
-- ==== Proof.KI.LaunchTail.lean ====
/-
  The launch of the pairwise-loss kernel's region, its pieces: the three whole buffers behind the five windows' arrays
  are the pipeline's arrays at the region's entry (each input array dealt to its two windows at half shares); the six
  lines after the region run from the region's exit — the halves of each input array joined, the lines running within
  the output array and the buffers that bypass it, the halves dealt again —; a buffer they do not write is as the
  region found it; and no line before the region writes an argument of @main.
-/
import proofs.«400616_j27212912788010_3_alg».proof.Proof.KI.LaunchShare

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five windows' arrays, listed the other way round. -/
theorem img5' : (Finset.univ : Finset (Fin 5)).image (Pipeline.arrRef spec0) = insert main_v4 (insert main_v5 {main_v6}) := by decide

/-- The distinct buffers behind the windows' arrays are the two input arrays and the output array. -/
theorem arrBufs_eq (c : Dev nD) (Wv : (b : Ref sig .tc) → Buf (Elt F) ((c.tc : Thread nD τ).loc b)) :
    (Pipeline.arrBufs spec0 c Wv : sProp 𝕄)
      = iprop((((c.tc : Thread nD τ).loc main_v4) ↦{fullShare} Wv main_v4) ∗ (((c.tc : Thread nD τ).loc main_v5) ↦{fullShare} Wv main_v5)
          ∗ (((c.tc : Thread nD τ).loc main_v6) ↦{fullShare} Wv main_v6)) := by
  unfold Pipeline.arrBufs
  rw [img5', bigSep_insert (by decide), bigSep_insert (by decide), bigSep_singleton]
  rfl

/-- The one window's array held whole. -/
theorem arrPts_one (c : Dev nD) (A : (w : Fin 1) → Buf (Elt F) ((win1 w).arr.view.loc (c.tc : Thread nD τ))) :
    (Pipeline.arrPts win1 c A : sProp 𝕄) = (((c.tc : Thread nD τ).loc main_v6) ↦{fullShare} A 0) := by
  unfold Pipeline.arrPts
  rw [show (Finset.univ : Finset (Fin 1)) = {0} from by decide, bigSep_singleton]

/-- Four factors regrouped. -/
theorem rearr (P4 P5 P6 R : sProp 𝕄) : (iprop((P4 ∗ P5 ∗ P6) ∗ R) : sProp 𝕄) = iprop(P6 ∗ P4 ∗ P5 ∗ R) := by
  have h₁ : (iprop((P4 ∗ P5 ∗ P6) ∗ R) : sProp 𝕄) ⊢ iprop(P6 ∗ P4 ∗ P5 ∗ R) := by
    iintro ⟨⟨H4, H5, H6⟩, HR⟩
    isplitl [H6]; · iexact H6
    isplitl [H4]; · iexact H4
    isplitl [H5]; · iexact H5
    iexact HR
  have h₂ : (iprop(P6 ∗ P4 ∗ P5 ∗ R) : sProp 𝕄) ⊢ iprop((P4 ∗ P5 ∗ P6) ∗ R) := by
    iintro ⟨H6, H4, H5, HR⟩
    isplitr [HR]
    · isplitl [H4]; · iexact H4
      isplitl [H5]; · iexact H5
      iexact H6
    iexact HR
  exact BI.Entails.antisymm h₁ h₂

/-- The pipeline's arrays and what bypasses the pipeline are the output array and what bypasses the output window alone. -/
theorem join_shared {c : Dev nD} (dat : Dat τ (Elt F) Unit ℕ (UR sig nD τ) ℕ (Pipeline.pin pcfgs (fun _ => adm m) 0) c)
    (Fa : (w : Fin 5) → Buf (Elt F) (((spec0 w).arr.view.loc (c.tc : Thread nD τ))))
    (hq0 : dat.q 0 = fullShare.left) (hq2 : dat.q 2 = fullShare.right) (hq1 : dat.q 1 = fullShare.left) (hq3 : dat.q 3 = fullShare.right)
    (Wv : (b : Ref sig .tc) → Buf (Elt F) ((c.tc : Thread nD τ).loc b))
    (h0 : Fa 0 = Wv main_v4) (h2 : Fa 2 = Wv main_v4) (h1 : Fa 1 = Wv main_v5) (h3 : Fa 3 = Wv main_v5) :
    (iprop(dat.arrays Fa ∗ Pipeline.unscopedRestP pre0 spec0 c Wv) : sProp 𝕄)
      = iprop(Pipeline.arrPts win1 c (fun _ => Fa 4) ∗ Pipeline.unscopedRestP pre0 win1 c Wv) := by
  rw [arrays_shared m dat Fa hq0 hq2 hq1 hq3 (Wv main_v4) (Wv main_v5) (Fa 4) h0 h2 h1 h3 rfl, restP_split, arrPts_one, rearr]

/-- The launch's split: the three whole buffers behind the windows' arrays are the pipeline's arrays at the region's entry. -/
theorem hsplit_shared (dats : (p : Fin 1) → (c : Dev nD) → Dat τ (Elt F) Unit ℕ (UR sig nD τ) ℕ (Pipeline.pin pcfgs (fun _ => adm m) p) c)
    (hq0 : ∀ c, (dats 0 c).q 0 = fullShare.left) (hq2 : ∀ c, (dats 0 c).q 2 = fullShare.right)
    (hq1 : ∀ c, (dats 0 c).q 1 = fullShare.left) (hq3 : ∀ c, (dats 0 c).q 3 = fullShare.right)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  rw [arrays_shared m (dats 0 c) (fun w => (dats 0 c).arrAt w 0) (hq0 c) (hq2 c) (hq1 c) (hq3 c) (V m c main_v4) (V m c main_v5) (V m c main_v6)
    (hA c 0) (hA c 2) (hA c 1) (hA c 3) (hA c 4)]
  exact Entails.of_eq (arrBufs_eq c (V m c))

/-! ## The lines after the region -/

theorem hostOps1_fresh : (hostOps1 : List (HloOp τ sig (Elt F))).Forall fun op => op.fresh = ∅ := by
  simp only [List.Forall]; repeat' constructor

/-- The six buffers the lines after the region write. -/
abbrev tailOuts : List (Ref sig .tc) := [main_v7, main_v8, main_cst, main_v9, main_cst_1, main_v10]

/-- A reference that is none of them is written by no line after the region. -/
theorem tail_keeps (b : Ref sig .tc) (hb : ∀ y ∈ tailOuts, b ≠ y) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl
  all_goals
    simp only [StableHlo.nullary_writes, StableHlo.unary_writes, StableHlo.binary_writes, StableHlo.reshape_writes, Finset.mem_singleton]
    exact StableHlo.devRef_ne_of_ne (hb _ (by simp [tailOuts]))

theorem hinj1 : Function.Injective (Pipeline.arrRef win1) := fun a b _ => Subsingleton.elim a b

/-- The lines touch the output array and the buffers that bypass it only: no prefetched table. -/
theorem sfx_sub : ∀ ops ∈ ([hostOps1] : List (List (HloOp τ sig (Elt F)))), ∀ op ∈ ops, op.bufs ⊆ Pipeline.tailRefs sig pre0 win1 := by
  intro ops hops op hop
  simp only [List.mem_cons, List.mem_nil_iff, or_false] at hops
  subst hops
  refine Pipeline.sub_tailRefs pre0 win1 op ((List.forall_iff_forall_mem.mp hostOps1_sub) op hop) ?_
  simp only [hostOps1, List.mem_cons, List.mem_nil_iff, or_false] at hop
  rcases hop with rfl | rfl | rfl | rfl | rfl | rfl
  all_goals
    intro k
    fin_cases k <;>
      simp only [StableHlo.nullary_bufs, StableHlo.unary_bufs, StableHlo.binary_bufs, StableHlo.reshape_bufs, Finset.mem_insert, Finset.mem_singleton, not_or] <;>
      (repeat' constructor) <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef win1 w) ∉ op.writes := by
  intro ops hops op hop w
  simp only [List.mem_cons, List.mem_nil_iff, or_false] at hops
  subst hops
  exact tail_keeps main_v6 (by decide) op hop

/-- Core `c`'s buffer contents after the lines that follow the region, from the region's exit with the output array at `o`. -/
abbrev Wa (c : Dev nD) (o : Buf (Elt F) ((c.tc : Thread nD τ).loc main_v6)) (b : Ref sig .tc) : Buf (Elt F) ((c.tc : Thread nD τ).loc b) :=
  StableHlo.after (List.flatten [hostOps1]) (Pipeline.withArrays win1 c (V0 m c) fun _ => o) (Proc.devRef .tc b)

/-- A buffer the lines do not write, other than the output array, is as the region found it. -/
theorem Wa_keeps (c : Dev nD) (o : Buf (Elt F) ((c.tc : Thread nD τ).loc main_v6)) (b : Ref sig .tc)
    (hb : ∀ y ∈ tailOuts, b ≠ y) (hb6 : b ≠ main_v6) : Wa m c o b = V m c b := by
  show StableHlo.after (List.flatten [hostOps1]) _ _ = _
  rw [StableHlo.after_of_forall_not_mem _ _ fun op hop => ?_, Pipeline.withArrays_of_ne win1 c _ _ b fun _ => hb6.symm]
  have : op ∈ (hostOps1 : List (HloOp τ sig (Elt F))) := by simpa using hop
  exact tail_keeps b hb op this

/-- THE LINES AFTER THE REGION, run from the region's exit: the halves of the two input arrays are joined, the lines run
    within the output array and the buffers that bypass it, and the halves are dealt again. -/
theorem htail_shared (dats : (p : Fin 1) → (c : Dev nD) → Dat τ (Elt F) Unit ℕ (UR sig nD τ) ℕ (Pipeline.pin pcfgs (fun _ => adm m) p) c)
    (hq0 : ∀ c, (dats 0 c).q 0 = fullShare.left) (hq2 : ∀ c, (dats 0 c).q 2 = fullShare.right)
    (hq1 : ∀ c, (dats 0 c).q 1 = fullShare.left) (hq3 : ∀ c, (dats 0 c).q 3 = fullShare.right)
    (hA : ∀ c w, (dats 0 c).A w = V m c (Pipeline.arrRef spec0 w)) (c : Dev nD) (Q' : PUnit → sProp 𝕄) :
    iprop((iprop((dats 0 c).arrays ((dats 0 c).arrAt · (Pipeline.pin pcfgs (fun _ => adm m) 0).N)
              ∗ Pipeline.unscopedRestP pre0 spec0 c (Wa m c ((dats 0 c).arrAt 4 (Pipeline.pin pcfgs (fun _ => adm m) 0).N))) -∗ Q' ⟨⟩)
        ∗ boundary (c.tc : Thread nD τ) ∗ (dats 0 c).arrays ((dats 0 c).arrAt · (Pipeline.pin pcfgs (fun _ => adm m) 0).N)
        ∗ Pipeline.unscopedRestP pre0 spec0 c (V m c))
      ⊢ wp frame (wpE (Pipeline.defs pcfgs defs₀) (Variants.lift Variants.none) (c.tc : Thread nD τ) none) Set.univ
          (Pipeline.chain [StableHlo.seq hostOps1]) Q' := by
  have hi : ∀ w (hw : ((Pipeline.pin pcfgs (fun _ => adm m) 0).win w).isOut = false),
      (dats 0 c).arrAt w (Pipeline.pin pcfgs (fun _ => adm m) 0).N = V m c (Pipeline.arrRef spec0 w) := fun w hw => ((dats 0 c).arrAt_in w hw _).trans (hA c w)
  have k4 := Wa_keeps m c ((dats 0 c).arrAt 4 (Pipeline.pin pcfgs (fun _ => adm m) 0).N) main_v4 (by decide) (by decide)
  have k5 := Wa_keeps m c ((dats 0 c).arrAt 4 (Pipeline.pin pcfgs (fun _ => adm m) 0).N) main_v5 (by decide) (by decide)
  rw [join_shared m (dats 0 c) (fun w => (dats 0 c).arrAt w (Pipeline.pin pcfgs (fun _ => adm m) 0).N) (hq0 c) (hq2 c) (hq1 c) (hq3 c) (Wa m c ((dats 0 c).arrAt 4 (Pipeline.pin pcfgs (fun _ => adm m) 0).N))
      ((hi 0 rfl).trans k4.symm) ((hi 2 rfl).trans k4.symm) ((hi 1 rfl).trans k5.symm) ((hi 3 rfl).trans k5.symm),
    join_shared m (dats 0 c) (fun w => (dats 0 c).arrAt w (Pipeline.pin pcfgs (fun _ => adm m) 0).N) (hq0 c) (hq2 c) (hq1 c) (hq3 c) (V m c)
      (hi 0 rfl) (hi 2 rfl) (hi 1 rfl) (hi 3 rfl)]
  exact Pipeline.tail_seqs pcfgs defs₀ Variants.none pre0 win1 hinj1 c (V0 m c) (fun _ => (dats 0 c).arrAt 4 (Pipeline.pin pcfgs (fun _ => adm m) 0).N)
    [hostOps1] sfx_sub sfx_fresh sfx_keeps Q'

/-! ## What the buffers hold at the end -/

/-- No line before the region writes an argument of @main. -/
theorem V_arg0 (c : Dev nD) : V m c main_arg0 = m ((c.tc : Thread nD τ).loc main_arg0) := by
  dsimp only [V, V0]
  simp only [hostOps0, hostOps0_1, hostOps0_2, hostOps0_3, List.flatten_cons, List.flatten_nil, List.append_nil, List.cons_append, List.nil_append]
  after_results_simp
theorem V_arg1 (c : Dev nD) : V m c main_arg1 = m ((c.tc : Thread nD τ).loc main_arg1) := by
  dsimp only [V, V0]
  simp only [hostOps0, hostOps0_1, hostOps0_2, hostOps0_3, List.flatten_cons, List.flatten_nil, List.append_nil, List.cons_append, List.nil_append]
  after_results_simp
theorem V_arg2 (c : Dev nD) : V m c main_arg2 = m ((c.tc : Thread nD τ).loc main_arg2) := by
  dsimp only [V, V0]
  simp only [hostOps0, hostOps0_1, hostOps0_2, hostOps0_3, List.flatten_cons, List.flatten_nil, List.append_nil, List.cons_append, List.nil_append]
  after_results_simp

/-- An unscoped buffer that is no window's array and no prefetched table bypasses the pipeline. -/
theorem mem_restP (b : Ref sig .tc) (hs : b.isScoped = false) (ha : ∀ w, (spec0 w).arr.view.ref ≠ b)
    (hp : b ∉ Finset.univ.image pre0.ref) : b ∈ Pipeline.restRefsP sig pre0 spec0 :=
  Finset.mem_sdiff.mpr ⟨Pipeline.mem_restRefs_of b hs ha, hp⟩

end Cert.KernelIdeal.Hand

end
-- ==== Proof.KI.Launch.lean ====
/-
  The launch of the pairwise-loss kernel's region inside @main, for a pipeline whose windows share arrays: the row
  window and the column window read the SAME array of sampled predictions (and likewise the labels), so each input
  array is split between its two windows at half shares when the region is entered and joined again when it is left.
  From any proof data with those shares, a body obligation and an invariant entered from and returned to the plain
  class's, every weakly fair execution of @main terminates; the result buffer ends at what the lines after the
  region compute from the kernel's output array, and the three argument arrays end unchanged.
-/
import proofs.«400616_j27212912788010_3_alg».proof.Proof.KI.LaunchTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the lines after the region compute from the kernel's output array: entry [b, 0, 0] of each of the four
    blocks, summed from zero, divided by four. -/
def tailRes (o : (⟨S4x1x128, .f32⟩ : BufTy).Contents (Elt F)) : (⟨S_, .f32⟩ : BufTy).Contents (Elt F) :=
  Host.divf (Host.reduceAdd (shapeCast S4 (extractStridedSlice S4x1x1 ![0, 0, 0] o slices_S4x1x128_S4x1x1_0_0_0) shapeCasts_S4x1x1_S4)
    (constant S_ .f32 0x00000000#32) reducesTo_S4_S_d0 h_S_) (constant S_ .f32 0x40800000#32)

/-- The result buffer after the lines: the slice, the reshape, the sum from zero and the division by four, of the output array. -/
theorem Wa_v10 (c : Dev nD) (o : Buf (Elt F) ((c.tc : Thread nD τ).loc main_v6)) : Wa m c o main_v10 = tailRes o := by
  show StableHlo.after (List.flatten [hostOps1]) _ (Proc.devRef .tc main_v10) = _
  simp only [List.flatten_cons, List.flatten_nil, List.append_nil]
  after_results
  rw [Pipeline.withArrays_arr win1 hinj1 c _ _ 0]
  rfl

/-- The lines before the region allocate nothing. -/
theorem pre_fresh : ([hostOps0, hostOps0_1, hostOps0_2, hostOps0_3] : List (List (HloOp τ sig (Elt F)))).Forall fun ops => ops.Forall fun op => op.fresh = ∅ := by
  simp only [List.Forall]; repeat' constructor

/-- @main is the lines before the region, the region, and the six lines after it: it reduces to the region continued by
    those six lines, at the contents after the earlier ones. -/
theorem hmain : Pipeline.HMainPK (Ix := Unit) (Name := ℕ) (U := UR sig nD τ) (Lvl := ℕ) pcfgs 0 defs₀ Variants.none m (main (F := F)) (V m)
      (fun _ => Pipeline.chain [StableHlo.seq hostOps1]) :=
  Pipeline.hmainP_around pcfgs 0 defs₀ Variants.none m main [hostOps0, hostOps0_1, hostOps0_2, hostOps0_3] [hostOps1]
    ⟨hostOps0_sub, hostOps0_1_sub, hostOps0_2_sub, hostOps0_3_sub⟩ pre_fresh main_chain

set_option backward.isDefEq.respectTransparency.types false in
/-- THE RUN, for a pipeline whose input windows share arrays (windows 0 and 2 the predictions, 1 and 3 the labels). -/
theorem run_shared
    (dats : (p : Fin 1) → (c : Dev nD) → Dat τ (Elt F) Unit ℕ (UR sig nD τ) ℕ (Pipeline.pin pcfgs (fun _ => adm m) p) c)
    (hbody : ∀ c, Pipeline.BodyObligationLoose (dats 0 c) defs₀ Variants.none () Set.univ)
    (hq0 : ∀ c, (dats 0 c).q 0 = fullShare.left) (hq2 : ∀ c, (dats 0 c).q 2 = fullShare.right)
    (hq1 : ∀ c, (dats 0 c).q 1 = fullShare.left) (hq3 : ∀ c, (dats 0 c).q 3 = fullShare.right)
    (howed : ∀ c t, (dats 0 c).owed t = 0)
    (hA : ∀ c w, (dats 0 c).A w = V m c (Pipeline.arrRef spec0 w))
    (hin : ∀ c, iprop(Pipeline.ΦA spec0 c ∗ Pipeline.ΦT pre0 (tbl m) c) ⊢ (dats 0 c).Φ 0)
    (hout : ∀ c, (dats 0 c).Φ (Fin.last (cfgM m).N) ⊢ Pipeline.ΦA spec0 c) :
    θ_run defs (onTc (τ := τ) (main (F := F))) ⟨m, fun _ => 0, ρ⟩ (fun r => ∀ c : Dev nD,
      r.2.mem ((c.tc : Thread nD τ).loc main_v10) = tailRes ((dats 0 c).arrAt 4 (cfgM m).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail pcfgs (fun _ => adm m) dats () (cellOf_inj (fun _ => adm m)) 0 winFacts₀0 (Pipeline.OwnSemFacts.none spec0) preFacts0 emb₁ defs₀ Variants.none m ρ main
    (fun _ => Pipeline.chain [StableHlo.seq hostOps1]) hbody
    block_pos0 arr_whole0 stage_whole0 howed
    (G := fun _ => iprop(emp)) (u₀ := initOf (Pipeline.cells (Pipeline.pin pcfgs (fun _ => adm m)) (cellOf_inj (fun _ => adm m))) (Pipeline.launchToks (Pipeline.pin pcfgs (fun _ => adm m)) (cellOf_inj (fun _ => adm m))))
    (hu₀ := by
      iintro Hu; imodintro
      isplitl [Hu]; · iapply (show (ownU _ : sProp 𝕄) ⊢ BI.own (emb₁ (initOf (Pipeline.cells (Pipeline.pin pcfgs (fun _ => adm m)) (cellOf_inj (fun _ => adm m))) (Pipeline.launchToks (Pipeline.pin pcfgs (fun _ => adm m)) (cellOf_inj (fun _ => adm m))))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := hsplit_shared m dats hq0 hq2 hq1 hq3 hA)
    (hpf := fun c k => V_pre m c k)
    (X := fun c => iprop(∃ r, prngReg c r)) (Y := fun c => iprop(∃ r, prngReg c r))
    (Z := fun c => Pipeline.unscopedRestP (Ix := Unit) (Name := ℕ) (U := UR sig nD τ) (Lvl := ℕ) pre0 spec0 c (V m c))
    (Z' := fun c => Pipeline.unscopedRestP (Ix := Unit) (Name := ℕ) (U := UR sig nD τ) (Lvl := ℕ) pre0 spec0 c (Wa m c ((dats 0 c).arrAt 4 (cfgM m).N)))
    (hX := fun c => by
      iintro ⟨HU, -, -, -, Hp, -⟩; imodintro
      isplitl [Hp]; · iexists _; iexact Hp
      iexact HU)
    (hin := fun c => (show _ ⊢ iprop(Pipeline.ΦA spec0 c ∗ Pipeline.ΦT pre0 (tbl m) c) by
      unfold Pipeline.ΦA Pipeline.ΦT; iintro ⟨Hp, Ht, Hr⟩
      isplitr [Ht]
      · isplitl [Hr] <;> iassumption
      · iexact Ht).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_shared m dats hq0 hq2 hq1 hq3 hA c Q')
    (QY := fun c s => ∀ b ∈ Pipeline.restRefsP sig pre0 spec0, s.mem ((c.tc : Thread nD τ).loc b) = Wa m c ((dats 0 c).arrAt 4 (cfgM m).N) b)
    (hY := fun c s' => by
      iintro ⟨-, HU, HSI⟩
      unfold Pipeline.unscopedRestP
      imodintro
      iapply (pointsTo_read_all (Pipeline.restRefsP sig pre0 spec0) (fun b => (c.tc : Thread nD τ).loc b) (Wa m c ((dats 0 c).arrAt 4 (cfgM m).N)) s')
      isplitl [HU] <;> iassumption)
    (hQ := fun s h c =>
      ⟨((h c).2.2 main_v10 (mem_restP main_v10 rfl (by decide) (by decide))).trans (Wa_v10 m c _),
       ((h c).2.2 main_arg0 (mem_restP main_arg0 rfl (by decide) (by decide))).trans ((Wa_keeps m c _ main_arg0 (by decide) (by decide)).trans (V_arg0 m c)),
       ((h c).2.2 main_arg1 (mem_restP main_arg1 rfl (by decide) (by decide))).trans ((Wa_keeps m c _ main_arg1 (by decide) (by decide)).trans (V_arg1 m c)),
       ((h c).2.2 main_arg2 (mem_restP main_arg2 rfl (by decide) (by decide))).trans ((Wa_keeps m c _ main_arg2 (by decide) (by decide)).trans (V_arg2 m c))⟩)

end Cert.KernelIdeal.Hand

end
-- ==== Proof.Spec.lean ====
/-
  The loss both programs compute, as one function on the extended reals.

  For one batch row of 4096 sampled predictions `x` and labels `l`, every ordered pair `i < j` contributes
  `3 · h(p)` when the labels agree and `h(1 - p)` when they differ, where `p = max (x i - max (x j) 0) 0` and
  `h` is the Huber-like function `h y = y·y·5` below `0.1` and `y - 0.1 + 0.05` from `0.1` on (the constants are
  the float patterns both programs print, read at the ideal instance).  The row's loss is the sum over the strict
  upper triangle divided by the number of pairs, and the result is the mean of the four rows.
-/
import Idealize.ShloMosaic.PureOps.Ideal
import Idealize.ShloMosaic.PureOps.Ideal.Laws
import Idealize.ShloMosaic.Lib.ValueIdx
import Mathlib.Data.EReal.Operations
import Mathlib.Data.EReal.Inv
import Mathlib.Algebra.BigOperators.Fin
import Mathlib.Logic.Equiv.Fin.Basic
import Mathlib.Data.Fin.VecNotation

noncomputable section

namespace Cert.Spec

open Idealize.ShloMosaic

/-- The printed float constants, read at the ideal instance. -/
abbrev c01 : EReal := Ideal.ofBits .f32 0x3DCCCCCD#32
abbrev c005 : EReal := Ideal.ofBits .f32 0x3D4CCCCD#32
abbrev c5 : EReal := Ideal.ofBits .f32 0x40A00000#32
abbrev c3 : EReal := Ideal.ofBits .f32 0x40400000#32
abbrev c1 : EReal := Ideal.ofBits .f32 0x3F800000#32
abbrev cN : EReal := Ideal.ofBits .f32 0x4AFFF000#32
abbrev c4 : EReal := Ideal.ofBits .f32 0x40800000#32

/-- `h y`: quadratic below `0.1`, linear with a bias from there on; the comparison is the ideal instance's ordered `<`. -/
def huber (y : EReal) : EReal :=
  if Ideal.cmp .olt y c01 = 1#1 then y * y * c5 else y - c01 + c005

/-- The relu'd difference of a pair: `max (a - max b 0) 0`. -/
def gap (a b : EReal) : EReal := max (a - max b 0) 0

/-- One pair's contribution, as the kernel selects it. -/
def pairLoss (a b : EReal) (same : Prop) [Decidable same] : EReal :=
  if same then c3 * huber (gap a b) else huber (c1 - gap a b)

/-- One pair's contribution, as the reference blends it with the 0/1 weight `t`. -/
def pairBlend (a b : EReal) (t : EReal) : EReal :=
  (c3 * t) * huber (max (gap a b) (-(gap a b))) + (c1 - t) * huber (c1 - max (gap a b) (-(gap a b)))

/-- The pattern `0x3F800000`: sign bit clear, exponent field `127` (the bias), fraction field `0`, so the value
    is `(2^23 + 0) · 2^(127 - 127 - 23) = 1`. -/
theorem ofBits_one_f32 : Ideal.ofBits .f32 0x3F800000#32 = 1 := by
  have hs : ((0x3F800000#32).extractLsb' (8 + 23) 1 == 1#1) = false := by decide
  have he : ((0x3F800000#32).extractLsb' 23 8).toNat = 127 := by decide
  have hm : ((0x3F800000#32).extractLsb' 0 23).toNat = 0 := by decide
  have hr : ((if false = true then (-1 : ℝ) else 1) * ((2 ^ 23 + 0 : ℕ) : ℝ)
      * (2 : ℝ) ^ (((127 : ℕ) : ℤ) - (2 ^ (8 - 1) - 1) - ((23 : ℕ) : ℤ))) = 1 := by
    norm_num
  show Ideal.ieee 8 23 (0x3F800000#32) = 1
  unfold Ideal.ieee
  simp only [hs, he, hm]
  rw [if_neg (by decide : ¬ ((127 : ℕ) = 2 ^ 8 - 1)), if_neg (by decide : ¬ ((127 : ℕ) = 0)), hr]
  rfl

/-- The gap is a maximum with zero, hence nonnegative, so it is its own absolute value `max p (-p)`. -/
theorem gap_nonneg (a b : EReal) : 0 ≤ gap a b := le_max_right _ _
theorem max_gap_neg (a b : EReal) : max (gap a b) (-(gap a b)) = gap a b := by
  have h0 : 0 ≤ gap a b := gap_nonneg a b
  have h1 : -(gap a b) ≤ 0 := by
    have := EReal.neg_le_neg_iff.mpr h0
    rwa [neg_zero] at this
  exact max_eq_left (h1.trans h0)
/-- `1 - 1 = 0` on the extended reals: both are real, and the difference of reals is the real difference. -/
theorem one_sub_one : (1 : EReal) - 1 = 0 := by
  rw [← EReal.coe_one, ← EReal.coe_sub, sub_self, EReal.coe_zero]

/-- The blend with weight one is the "same label" branch, with weight zero the other: on ALL extended reals
    (`0 · x = 0`, `1 · x = x`, `|p| = p` for `p ≥ 0`). -/
theorem pairBlend_one (a b : EReal) : pairBlend a b 1 = c3 * huber (gap a b) := by
  have hc : c1 = 1 := ofBits_one_f32
  unfold pairBlend
  rw [max_gap_neg, hc, one_sub_one, zero_mul, add_zero, mul_one]
theorem pairBlend_zero (a b : EReal) : pairBlend a b 0 = huber (c1 - gap a b) := by
  have hc : c1 = 1 := ofBits_one_f32
  unfold pairBlend
  rw [max_gap_neg, mul_zero, zero_mul, zero_add, hc, sub_zero, one_mul]
/-- The two float patterns that must be read: one and zero. -/
theorem c1_eq : c1 = 1 := ofBits_one_f32

/-- The strict-upper-triangle sum of one row. -/
def tri (x : Fin 4096 → EReal) (l : Fin 4096 → BitVec 32) : EReal :=
  ∑ i : Fin 4096, ∑ j : Fin 4096, if i.val < j.val then pairLoss (x i) (x j) (l i = l j) else 0

/-- The result: the mean over the four rows of each row's triangle sum over the number of pairs. -/
def final (x : Fin 4 → Fin 4096 → EReal) (l : Fin 4 → Fin 4096 → BitVec 32) : EReal :=
  Ideal.div (∑ b : Fin 4, Ideal.div (tri (x b) (l b)) cN) c4

/-- The tile pairs the kernel visits: row tile and column tile of step `k`. -/
def tI : Fin 10 → ℕ := ![0, 0, 0, 0, 1, 1, 1, 2, 2, 3]
def tJ : Fin 10 → ℕ := ![0, 1, 2, 3, 1, 2, 3, 2, 3, 3]
theorem tI_lt (k : Fin 10) : tI k < 4 := by revert k; decide
theorem tJ_lt (k : Fin 10) : tJ k < 4 := by revert k; decide

/-- An index below `m * n` is `n * I + r` with `I < m` and `r < n`, each pair once. -/
theorem sum_fin_mul {M : Type} [AddCommMonoid M] (m n : ℕ) (g : ℕ → M) :
    (∑ i : Fin (m * n), g i.val) = ∑ I : Fin m, ∑ r : Fin n, g (n * I.val + r.val) := by
  rw [← Fintype.sum_prod_type (f := fun p : Fin m × Fin n => g (n * p.1.val + p.2.val))]
  refine (Fintype.sum_equiv finProdFinEquiv _ _ (fun p => ?_)).symm
  show g (n * p.1.val + p.2.val) = g (p.2.val + n * p.1.val)
  rw [add_comm]

/-- Of the sixteen entries of a 4 × 4 array that vanishes strictly below its diagonal, the ten on and above the
    diagonal remain, row by row: the order in which `tI`, `tJ` list them. -/
theorem sum_sixteen {M : Type} [AddCommMonoid M] (T : ℕ → ℕ → M) (hT : ∀ I J, J < I → T I J = 0) :
    (∑ I : Fin 4, ∑ J : Fin 4, T I.val J.val) = ∑ k : Fin 10, T (tI k) (tJ k) := by
  have hL : (∑ I : Fin 4, ∑ J : Fin 4, T I.val J.val)
      = (T 0 0 + T 0 1 + T 0 2 + T 0 3) + (T 1 0 + T 1 1 + T 1 2 + T 1 3)
        + (T 2 0 + T 2 1 + T 2 2 + T 2 3) + (T 3 0 + T 3 1 + T 3 2 + T 3 3) := by
    simp only [Fin.sum_univ_four]; rfl
  have hR : (∑ k : Fin 10, T (tI k) (tJ k))
      = T 0 0 + (T 0 1 + (T 0 2 + (T 0 3 + (T 1 1 + (T 1 2 + (T 1 3 + (T 2 2 + (T 2 3 + (T 3 3 + 0))))))))) := by
    simp only [Fin.sum_univ_succ, Fin.sum_univ_zero]; rfl
  rw [hL, hR, hT 1 0 (by decide), hT 2 0 (by decide), hT 2 1 (by decide), hT 3 0 (by decide),
    hT 3 1 (by decide), hT 3 2 (by decide)]
  simp only [zero_add, add_zero, add_assoc]

/-- A sum over the 4096 × 4096 square of a function that vanishes on and below the diagonal is the sum over the
    ten 1024 × 1024 tiles `(tI k, tJ k)` (the tiles with row tile ≤ column tile): the other six tiles lie wholly
    below the diagonal.  In any additive commutative monoid: no finiteness is used. -/
theorem sum_square_eq_tiles {M : Type} [AddCommMonoid M] (f : ℕ → ℕ → M) (hf : ∀ i j, j ≤ i → f i j = 0) :
    (∑ i : Fin 4096, ∑ j : Fin 4096, f i.val j.val)
      = ∑ k : Fin 10, ∑ r : Fin 1024, ∑ c : Fin 1024, f (1024 * tI k + r.val) (1024 * tJ k + c.val) := by
  -- both indices split into tile and offset, and the two middle sums change places
  have hsq : (∑ i : Fin 4096, ∑ j : Fin 4096, f i.val j.val)
      = ∑ I : Fin 4, ∑ J : Fin 4, ∑ r : Fin 1024, ∑ c : Fin 1024,
          f (1024 * I.val + r.val) (1024 * J.val + c.val) :=
    calc (∑ i : Fin 4096, ∑ j : Fin 4096, f i.val j.val)
        = ∑ i : Fin 4096, ∑ J : Fin 4, ∑ c : Fin 1024, f i.val (1024 * J.val + c.val) :=
          Finset.sum_congr rfl (fun i _ => sum_fin_mul 4 1024 (f i.val))
      _ = ∑ I : Fin 4, ∑ r : Fin 1024, ∑ J : Fin 4, ∑ c : Fin 1024,
            f (1024 * I.val + r.val) (1024 * J.val + c.val) :=
          sum_fin_mul 4 1024 (fun i => ∑ J : Fin 4, ∑ c : Fin 1024, f i (1024 * J.val + c.val))
      _ = _ := Finset.sum_congr rfl (fun I _ => Finset.sum_comm)
  rw [hsq]
  refine sum_sixteen (fun I J => ∑ r : Fin 1024, ∑ c : Fin 1024, f (1024 * I + r.val) (1024 * J + c.val)) ?_
  -- a tile with column tile below row tile: `1024 * J + c ≤ 1024 * I + r` as `c < 1024`, so every term vanishes
  intro I J hJI
  refine Finset.sum_eq_zero (fun r _ => Finset.sum_eq_zero (fun c _ => hf _ _ ?_))
  have hc := c.isLt
  omega

end Cert.Spec

end
-- ==== Proof.KI.ValuePiecesFound.lean ====
/-
  What the kernel body's stores leave, as the body's own arithmetic.

  At each kind of grid point the pieces the body writes into the accumulator (and, at the drain step, into the output
  block) are whole-buffer stores, so what they leave is the last store's value.  That value is the tile update
  `k0_pay7` of the four input blocks, the two table words the body reads at its tile step, and the accumulator
  it loads: the zero block `k0_pay2` just stored at a reset step, the contents found otherwise.  At the drain step the
  output block receives `k0_pay1` of the accumulator just stored.  Nothing here depends on the float instance.
-/
import proofs.«400616_j27212912788010_3_alg».proof.Proof.KI.Frame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The word of the row-tile table at the body's tile step. -/
def wordI (c : Dev nD) (i : grid0.Coords) (xt0 : TbBuf (F := F) c tbM0) : Elt F .i32 :=
  View.ld (View.read (Elt F) (View.whole main_c) xt0) (Rect.unit (s := S10) (k0_off1 i) S1.size (k0_off1_inb i))
    (Shape.Idx.first (numel1_S1.symm ▸ Nat.one_pos))
/-- The word of the column-tile table at the body's tile step. -/
def wordJ (c : Dev nD) (i : grid0.Coords) (xt1 : TbBuf (F := F) c tbM1) : Elt F .i32 :=
  View.ld (View.read (Elt F) (View.whole main_c_0) xt1) (Rect.unit (s := S10) (k0_off1 i) S1.size (k0_off1_inb i))
    (Shape.Idx.first (numel1_S1.symm ▸ Nat.one_pos))

/-- The tile update of the four input blocks over an accumulator `xs`. -/
def tileUpdate (c : Dev nD) (i : grid0.Coords) (x0 : Vec F S1x1x1024 .f32) (x1 : Vec F S1x1x1024 .i32) (x2 : Vec F S1x1x1024 .f32)
    (x3 : Vec F S1x1x1024 .i32) (xt0 : TbBuf (F := F) c tbM0) (xt1 : TbBuf (F := F) c tbM1) (xs : Vec F S1x1 .f32) : Vec F S1x1 .f32 :=
  k0_pay7 (k0_pay3 x0 x2) (k0_pay4 x1 x3) (k0_pay5 x0 x2) (k0_pay6 (F := F)) (wordI c i xt0) (wordJ c i xt1) xs

variable (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole)

/-- A middle step leaves the tile update of what the accumulator held. -/
theorem soutB_found (hcR : ¬condR i) (hcD : ¬condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) :
    soutB (F := F) c i a4 h4 a5 h5 a6 h6 a7 h7 a8 h8 a9 h9 hcR hcD x0 x1 x2 x3 xt0 xt1 xs = tileUpdate c i x0 x1 x2 x3 xt0 xt1 xs := by
  unfold soutB
  rw [View.read_writes_eq_canon _ _ _ (scoverB c i a4 h4 a5 h5 a6 h6 a7 h7 a8 h8 a9 h9 hcR hcD x0 x1 x2 x3 xt0 xt1 xs)]
  unfold runB
  dsimp only
  sl_unfold_words
  rw [View.canon_unit_zero hz2]
  simp only [View.readAt_eq_ld, h4.read_unread, h5.read_unread, h6.read_unread, h7.read_unread, h9.read_unread,
    View.ld_unit_zero (S := S1x1) hz2, View.ld_unit_zero (S := S1x1x1024) hz3]
  rfl

/-- A reset step leaves the tile update of the zero block. -/
theorem soutA_found (hcR : condR i) (hcD : ¬condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) :
    soutA (F := F) c i a4 h4 a5 h5 a6 h6 a7 h7 a8 h8 a9 h9 hcR hcD x0 x1 x2 x3 xt0 xt1 = tileUpdate c i x0 x1 x2 x3 xt0 xt1 (k0_pay2 (F := F)) := by
  unfold soutA
  rw [View.read_writes_eq_canon _ _ _ (scoverA c i a4 h4 a5 h5 a6 h6 a7 h7 a8 h8 a9 h9 hcR hcD x0 x1 x2 x3 xt0 xt1)]
  unfold runA
  dsimp only
  sl_unfold_words
  rw [View.canon_cons_unit_zero (S := S1x1) hz2]
  simp only [View.readAt_eq_ld, h4.read_unread, h5.read_unread, h6.read_unread, h7.read_unread,
    View.readCov_unit_zero (S := S1x1) _ hz2, View.ld_unit_zero (S := S1x1x1024) hz3]
  rfl

/-- The drain step leaves the tile update of what the accumulator held … -/
theorem soutC_found (hcR : ¬condR i) (hcD : condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) :
    soutC (F := F) c i a4 h4 a5 h5 a6 h6 a7 h7 a8 h8 a9 h9 hcR hcD x0 x1 x2 x3 xt0 xt1 xs = tileUpdate c i x0 x1 x2 x3 xt0 xt1 xs := by
  unfold soutC
  rw [View.read_writes_eq_canon _ _ _ (scoverC c i a4 h4 a5 h5 a6 h6 a7 h7 a8 h8 a9 h9 hcR hcD x0 x1 x2 x3 xt0 xt1 xs)]
  unfold runC
  dsimp only
  sl_unfold_words
  rw [View.canon_unit_zero hz2]
  simp only [View.readAt_eq_ld, h4.read_unread, h5.read_unread, h6.read_unread, h7.read_unread, h9.read_unread,
    View.ld_unit_zero (S := S1x1) hz2, View.ld_unit_zero (S := S1x1x1024) hz3]
  rfl

/-- … and stores `k0_pay1` of that total across the output block. -/
theorem outC_found (hcR : ¬condR i) (hcD : condD i) (x0 : Vec F S1x1x1024 .f32) (x1 : Vec F S1x1x1024 .i32) (x2 : Vec F S1x1x1024 .f32) (x3 : Vec F S1x1x1024 .i32) (xt0 : TbBuf (F := F) c tbM0) (xt1 : TbBuf (F := F) c tbM1) (xs : Vec F S1x1 .f32) :
    outC (F := F) c i a4 h4 a5 h5 a6 h6 a7 h7 a8 h8 a9 h9 hcR hcD x0 x1 x2 x3 xt0 xt1 xs = k0_pay1 (tileUpdate c i x0 x1 x2 x3 xt0 xt1 xs) := by
  unfold outC
  rw [View.read_writes_eq_canon _ _ _ (coverC c i a4 h4 a5 h5 a6 h6 a7 h7 a8 h8 a9 h9 hcR hcD x0 x1 x2 x3 xt0 xt1 xs)]
  unfold runC
  dsimp only
  sl_unfold_words
  rw [View.canon_unit_zero hz3]
  simp only [View.readAt_eq_ld, h4.read_unread, h5.read_unread, h6.read_unread, h7.read_unread, h9.read_unread,
    View.readCov_unit_zero (S := S1x1) _ hz2, View.ld_unit_zero (S := S1x1) hz2, View.ld_unit_zero (S := S1x1x1024) hz3]
  rfl

end Cert.KernelIdeal.Hand

end
-- ==== Proof.LibLayoutColumn.lean ====
/-
  Layout operations on a column, read at an index: the forms a "sum the rows, keep the axis" computation meets.

  A vector of length `a` viewed as an `[a, 1]` column, a column broadcast across `b` lanes, a column placed under a
  leading unit axis, an array with two leading unit axes flattened, and the all-unit shapes a reduction to one element
  passes through.  Each reads the operand at the index with the same row-major position (a cast) or at the index with
  the unit axes at zero (a broadcast).  Last, a sum over the indices of a `[1, a, 1]` array is the sum over its one
  free coordinate.  Every statement holds at any extents.
-/
import Idealize.ShloMosaic.Lib.ValueIdx
import Idealize.ShloMosaic.Lib.Pipeline.Value

noncomputable section

open scoped BigOperators

namespace Idealize.ShloMosaic.ValueIdx

open Idealize.ShloMosaic

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[1, a, 1]` reads, at `(u, p, w)`, the operand at `(p, 0)`. -/
theorem shapeCast_a1_1a1_apply {a : ℕ} (x : (⟨2, ![a, 1]⟩ : Shape).Idx → α)
    (h : (⟨2, ![a, 1]⟩ : Shape).ShapeCasts ⟨3, ![1, a, 1]⟩) (u : Fin 1) (p : Fin a) (w : Fin 1) :
    shapeCast ⟨3, ![1, a, 1]⟩ x h (ix3 u p w) = x (ix2 p (0 : Fin 1)) :=
  shapeCast_apply x h _ _ (by
    have hu : u.val = 0 := by omega
    have hw : w.val = 0 := by omega
    rw [Shape.rowMajor_val_three, Shape.rowMajor_val_two]
    show p.val * 1 + 0 = (u.val * a + p.val) * 1 + w.val
    rw [hu, hw, Nat.zero_mul, Nat.zero_add])

/-- A one-element array cast to `[1, 1, 1]` reads its one element. -/
theorem shapeCast_1_111_apply (x : (⟨1, ![1]⟩ : Shape).Idx → α)
    (h : (⟨1, ![1]⟩ : Shape).ShapeCasts ⟨3, ![1, 1, 1]⟩) (u v w : Fin 1) :
    shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A `[1, 1]` array cast to `[1, 1, 1]` reads its one element. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element in every lane. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (l : Fin b) :
    broadcastTo ⟨3, ![1, 1, b]⟩ v h (ix3 u w l) = v (ix3 (0 : Fin 1) (0 : Fin 1) (0 : Fin 1)) := by
  refine broadcastTo_apply v h (ix3 u w l) (ix3 (0 : Fin 1) (0 : Fin 1) (0 : Fin 1)) fun ax => ?_
  match ax with
  | ⟨0, _⟩ => rfl
  | ⟨1, _⟩ => rfl
  | ⟨2, _⟩ => rfl

/-- The indices of a `[1, a, 1]` array are its one free coordinate … -/
def idxEquiv1a1 {a : ℕ} : (⟨3, ![1, a, 1]⟩ : Shape).Idx ≃ Fin a where
  toFun i := i 1
  invFun p := ix3 (0 : Fin 1) p (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over them is the sum over that coordinate. -/
theorem sum_idx_1a1 {M : Type*} [AddCommMonoid M] {a : ℕ} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

end Idealize.ShloMosaic.ValueIdx

end
-- ==== Proof.KI.ValuePiecesPay.lean ====
/-
  The body's elementwise arithmetic at the ideal instance, read at one element.

  Over a row block `x0` and a column block `x2` of predictions the body forms, at row `r` and column `cc` of the
  1024 × 1024 tile, the relu'd difference `max (x0 r - max (x2 cc) 0) 0` (the row block viewed as a column and
  broadcast across lanes, the relu'd column block broadcast down the rows); over the label blocks the one-bit
  "labels agree"; the two-branch function `Cert.Spec.huber` of the difference; and the constant three.  The
  reset value is the zero block, and the drain value is the accumulator over the number of pairs in every lane.
-/
import proofs.«400616_j27212912788010_3_alg».proof.Proof.Gen.KernelIdeal.Skeleton
import proofs.«400616_j27212912788010_3_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«400616_j27212912788010_3_alg».proof.Proof.LibLayoutColumn

set_option maxRecDepth 16384

noncomputable section

namespace Cert.KernelIdeal.Hand

open Cert.KernelIdeal Cert.KernelIdeal.Gen
open Idealize.ShloMosaic Idealize.ShloMosaic.TcCoe
open Idealize.ShloMosaic.ValueIdx

/-- A scalar constant at the ideal instance is the extended real its word encodes. -/
theorem scalar_ofBits (φ : FTy) (b : BitVec φ.bits) : Scalar.ofBits (F := Ideal) φ b = Ideal.ofBits φ b := rfl

/-- An integer comparison at an index compares the elements. -/
theorem cmpi_apply {s : Shape} {w : Nat} (p : CmpIPredicate) (x y : IVec s w) (i : s.Idx) :
    cmpi p x y i = IntOp.cmpi p (x i) (y i) := rfl

/-- The relu'd difference at `(r, cc)`. -/
theorem pay3_at (x0 x2 : Vec Ideal S1x1x1024 .f32) (r cc : Fin 1024) :
    k0_pay3 (F := Ideal) x0 x2 (ix2 r cc)
      = Cert.Spec.gap (x0 (ix3 (0 : Fin 1) (0 : Fin 1) r)) (x2 (ix3 (0 : Fin 1) (0 : Fin 1) cc)) := by
  unfold k0_pay3 Cert.Spec.gap
  simp only [maximumf_apply, subf_apply, broadcast_apply, broadcastTo_a1_ab_apply, broadcastTo_1b_ab_apply,
    shapeCast_a_a1_apply, shapeCast_a_1a_apply, shapeCast_11a_a_apply, scalar_ofBits, Ideal.ofBits_zero_f32]

/-- "Labels agree" at `(r, cc)`. -/
theorem pay4_at (x1 x3 : Vec Ideal S1x1x1024 .i32) (r cc : Fin 1024) :
    k0_pay4 (F := Ideal) x1 x3 (ix2 r cc)
      = IntOp.cmpi .eq (x1 (ix3 (0 : Fin 1) (0 : Fin 1) r)) (x3 (ix3 (0 : Fin 1) (0 : Fin 1) cc)) := by
  unfold k0_pay4
  simp only [cmpi_apply, broadcastTo_a1_ab_apply, broadcastTo_1b_ab_apply, shapeCast_a_a1_apply,
    shapeCast_a_1a_apply, shapeCast_11a_a_apply]

/-- The two-branch function of the relu'd difference, at every index. -/
theorem pay5_eq (x0 x2 : Vec Ideal S1x1x1024 .f32) (I : S1024x1024.Idx) :
    k0_pay5 (F := Ideal) x0 x2 I = Cert.Spec.huber (k0_pay3 (F := Ideal) x0 x2 I) := by
  unfold k0_pay5
  simp only [select_apply, cmpf_apply, mulf_apply, subf_apply, addf_apply, broadcast_apply, scalar_ofBits]
  generalize k0_pay3 (F := Ideal) x0 x2 I = y
  rfl

/-- The constant three, at every index. -/
theorem pay6_eq (I : S1024x1024.Idx) : k0_pay6 (F := Ideal) I = Cert.Spec.c3 := rfl

/-- The reset value is zero. -/
theorem pay2_at : k0_pay2 (F := Ideal) (ix2 (0 : Fin 1) (0 : Fin 1)) = 0 := by
  unfold k0_pay2
  rw [shapeCast_self]
  exact Ideal.ofBits_zero_f32

/-- The drain value: the accumulator over the number of pairs, in every lane. -/
theorem pay1_at (v : Vec Ideal S1x1 .f32) (l : Fin 128) :
    k0_pay1 (F := Ideal) v (ix3 (0 : Fin 1) (0 : Fin 1) l) = Ideal.div (v (ix2 (0 : Fin 1) (0 : Fin 1))) Cert.Spec.cN := by
  unfold k0_pay1
  simp only [broadcastTo_111_11b_apply, shapeCast_11_111_apply, divf_apply, broadcast_apply, scalar_ofBits]

end Cert.KernelIdeal.Hand

end
-- ==== Proof.KI.ValuePiecesSum.lean ====
/-
  The tile update at the ideal instance: the accumulator plus the plain double sum of the tile's selected terms.

  The body multiplies the selected 1024 × 1024 tile by a column of ones on the matrix unit (each row's sum), views
  the column of row sums under a leading unit axis, sums it over both of its axes into one element, and adds that
  element to the accumulator.  At the ideal instance a product with a column of ones into a zero accumulator is the
  sum along the row (`x · 1 = x`, `0 + x = x`), and the sum into one element is the sum down the column, so the
  update adds `∑ r, ∑ cc` of the selected terms.
-/
import proofs.«400616_j27212912788010_3_alg».proof.Proof.Gen.KernelIdeal.Skeleton
import proofs.«400616_j27212912788010_3_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«400616_j27212912788010_3_alg».proof.Proof.LibLayoutColumn

set_option maxRecDepth 16384

noncomputable section

namespace Cert.KernelIdeal.Hand

open Cert.KernelIdeal Cert.KernelIdeal.Gen
open Idealize.ShloMosaic Idealize.ShloMosaic.TcCoe
open Idealize.ShloMosaic.ValueIdx

/-- A scalar constant at the ideal instance is the extended real its word encodes. -/
theorem scalar_ofBits' (φ : FTy) (b : BitVec φ.bits) : Scalar.ofBits (F := Ideal) φ b = Ideal.ofBits φ b := rfl

/-- The one element of a `[1, 1, 1]` array, extracted. -/
theorem extract_111 {α : Type} (v : S1x1x1.Idx → α) (h : ∀ a, (![0, 0, 0] : Fin 3 → Nat) a < S1x1x1.size a) :
    extractAt ![0, 0, 0] v h = v (ix3 (0 : Fin 1) (0 : Fin 1) (0 : Fin 1)) :=
  congrArg v (funext fun a => by match a with | ⟨0, _⟩ => rfl | ⟨1, _⟩ => rfl | ⟨2, _⟩ => rfl)

/-- The sum over both axes of a `[1, 1024, 1]` array into its one element is the sum down the column. -/
theorem laneSum_eq (src : FVec Ideal S1x1024x1 .f32) (hφ : FKind.Formats .f32)
    (hacc : (0x00000000#32 : BitVec 32) = FKind.add.neutral .f32 hφ) (j : S1.Idx) :
    multiReduction .add [1, 2] S1 src 0x00000000#32 reduces_S1x1024x1_S1 hφ hacc j
      = ∑ p : Fin 1024, src (ix3 (0 : Fin 1) p (0 : Fin 1)) :=
  (Ideal.multiReduction_add_total src 0x00000000#32 reduces_S1x1024x1_S1
    (fun b => by match b with | ⟨0, _⟩ => rfl) hφ hacc j).trans (sum_idx_1a1 src)

/-- The matrix unit's product of a 1024 × 1024 tile with a column, into a zero accumulator, at row `r`: the sum
    along the row of the products. -/
theorem rowDot_at (v : FVec Ideal S1024x1024 .f32) (u : FVec Ideal S1024x1 .f32) (r : Fin 1024) :
    matmul dot_S1024x1024_S1024x1_S1024x1_1_0_0_1_n_n none v u (constant S1024x1 .f32 0x00000000#32) (ix2 r (0 : Fin 1))
      = ∑ cc : Fin 1024, v (ix2 r cc) * u (ix2 cc (0 : Fin 1)) := by
  show FloatOps.matmul dot_S1024x1024_S1024x1_S1024x1_1_0_0_1_n_n none v u (constant S1024x1 .f32 0x00000000#32) (ix2 r (0 : Fin 1)) = _
  rw [Ideal.matmul_constant_zero_apply, ← Equiv.sum_comp (contrEquiv1 dot_S1024x1024_S1024x1_S1024x1_1_0_0_1_n_n 1024 rfl rfl).symm]
  refine Finset.sum_congr rfl fun cc _ => ?_
  have c2 := contrEquiv1_symm_val dot_S1024x1024_S1024x1_S1024x1_1_0_0_1_n_n 1024 rfl rfl cc
  have l2 : dot_S1024x1024_S1024x1_S1024x1_1_0_0_1_n_n.lhsIdx (ix2 r (0 : Fin 1)) ((contrEquiv1 dot_S1024x1024_S1024x1_S1024x1_1_0_0_1_n_n 1024 rfl rfl).symm cc) = ix2 r cc := by
    funext ax; apply Fin.ext
    match ax with
    | ⟨0, _⟩ => simp [DotDims.lhsIdx, dot_S1024x1024_S1024x1_S1024x1_1_0_0_1_n_n]; rfl
    | ⟨1, _⟩ => simp [DotDims.lhsIdx, dot_S1024x1024_S1024x1_S1024x1_1_0_0_1_n_n]; exact c2
  have r2 : dot_S1024x1024_S1024x1_S1024x1_1_0_0_1_n_n.rhsIdx (ix2 r (0 : Fin 1)) ((contrEquiv1 dot_S1024x1024_S1024x1_S1024x1_1_0_0_1_n_n 1024 rfl rfl).symm cc) = ix2 cc (0 : Fin 1) := by
    funext ax; apply Fin.ext
    match ax with
    | ⟨0, _⟩ => simp [DotDims.rhsIdx, dot_S1024x1024_S1024x1_S1024x1_1_0_0_1_n_n]; exact c2
    | ⟨1, _⟩ => simp [DotDims.rhsIdx, dot_S1024x1024_S1024x1_S1024x1_1_0_0_1_n_n]
  rw [l2, r2]

/-- Against the column of ones: the sum along the row. -/
theorem rowSum_at (v : FVec Ideal S1024x1024 .f32) (r : Fin 1024) :
    matmul dot_S1024x1024_S1024x1_S1024x1_1_0_0_1_n_n none v (broadcast S1024x1 (FloatOps.ofBits (F := Ideal) .f32 0x3F800000#32)) (constant S1024x1 .f32 0x00000000#32) (ix2 r (0 : Fin 1))
      = ∑ cc : Fin 1024, v (ix2 r cc) := by
  rw [rowDot_at]
  refine Finset.sum_congr rfl fun cc _ => ?_
  show v (ix2 r cc) * Cert.Spec.c1 = _
  rw [Cert.Spec.c1_eq, mul_one]

/-- An integer sum at an index adds the elements. -/
theorem addi_apply {s : Shape} {w : Nat} (x y : IVec s w) (i : s.Idx) : addi x y i = IntOp.addi (x i) (y i) := rfl
/-- An integer comparison at an index compares the elements. -/
theorem cmpi_apply' {s : Shape} {w : Nat} (p : CmpIPredicate) (x y : IVec s w) (i : s.Idx) :
    cmpi p x y i = IntOp.cmpi p (x i) (y i) := rfl

/-- The row ramp at `(p, cc)` is `p`, the column ramp `cc`. -/
theorem iotaRow_at (p cc : Fin 1024) :
    iota .tc S1024x1024 32 [0] iota_S1024x1024_d0_w32 (ix2 p cc) = BitVec.ofNat 32 p.val :=
  iota_single_apply .tc S1024x1024 32 0 iota_S1024x1024_d0_w32 (ix2 p cc)
theorem iotaCol_at (p cc : Fin 1024) :
    iota .tc S1024x1024 32 [1] iota_S1024x1024_d1_w32 (ix2 p cc) = BitVec.ofNat 32 cc.val :=
  iota_single_apply .tc S1024x1024 32 1 iota_S1024x1024_d1_w32 (ix2 p cc)

/-- The tile's selected term at `(p, cc)`: inside the mask the "labels agree" branch `three · h` or the other
    branch `h (1 - difference)`, outside it zero; over the body's four tables and the two table words. -/
def tileElt (v19 : FVec Ideal S1024x1024 .f32) (v24 : IVec S1024x1024 1) (v34 v35 : FVec Ideal S1024x1024 .f32)
    (wI wJ : BitVec 32) (p cc : Fin 1024) : EReal :=
  Scalar.select
    (IntOp.cmpi .slt (IntOp.addi (Scalar.muli wI 1024#32) (BitVec.ofNat 32 p.val))
      (IntOp.addi (Scalar.muli wJ 1024#32) (BitVec.ofNat 32 cc.val)))
    (Scalar.select (v24 (ix2 p cc)) (v35 (ix2 p cc) * v34 (ix2 p cc))
      (Cert.Spec.huber (Cert.Spec.c1 - v19 (ix2 p cc))))
    0

/-- THE TILE UPDATE at the ideal instance: the accumulator plus the double sum of the selected terms. -/
theorem pay7_at (v19 : FVec Ideal S1024x1024 .f32) (v24 : IVec S1024x1024 1) (v34 v35 : FVec Ideal S1024x1024 .f32)
    (wI wJ : BitVec 32) (v71 : Vec Ideal S1x1 .f32) :
    k0_pay7 (F := Ideal) v19 v24 v34 v35 wI wJ v71 (ix2 (0 : Fin 1) (0 : Fin 1))
      = v71 (ix2 (0 : Fin 1) (0 : Fin 1)) + ∑ p : Fin 1024, ∑ cc : Fin 1024, tileElt v19 v24 v34 v35 wI wJ p cc := by
  unfold k0_pay7
  simp only [shapeCast_self, addf_apply, broadcast_apply, extract_111, shapeCast_1_111_apply]
  refine (congrArg (fun s => v71 (ix2 (0 : Fin 1) (0 : Fin 1)) + s) (laneSum_eq _ _ _ (ix1 (0 : Fin 1)))).trans ?_
  simp only [shapeCast_a1_1a1_apply, rowSum_at, select_apply, cmpi_apply', addi_apply, iotaRow_at, iotaCol_at,
    mulf_apply, subf_apply, cmpf_apply, addf_apply, broadcast_apply]
  simp only [Ideal.ofBits_def, Ideal.ofBits_zero_f32]
  refine congrArg (fun s => v71 (ix2 (0 : Fin 1) (0 : Fin 1)) + s)
    (Finset.sum_congr rfl fun p _ => Finset.sum_congr rfl fun cc _ => ?_)
  unfold tileElt
  rw [iotaRow_at p cc, iotaCol_at p cc]
  generalize v19 (ix2 p cc) = y
  generalize v24 (ix2 p cc) = b
  generalize v35 (ix2 p cc) * v34 (ix2 p cc) = z
  rfl

end Cert.KernelIdeal.Hand

end
-- ==== Proof.KI.ValuePiecesMask.lean ====
/-
  The kernel's tile mask, read at one element.

  The body compares global indices as 32-bit words: `table word · 1024 + row` against `table word · 1024 + column`,
  signed.  A table word is a tile number below 4 and a row or column is below 1024, so each side is below 4096, no
  product or sum wraps, and the signed comparison of the words is the comparison of the numbers
  `1024 · tile + position`.
-/
import proofs.«400616_j27212912788010_3_alg».proof.Proof.Gen.KernelIdeal.Skeleton
import proofs.«400616_j27212912788010_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe
open Idealize.ShloMosaic.ValueIdx

/-- A tile number times 1024 plus a position inside the tile, as a word, holds that number. -/
theorem toNat_tileIndex (w : BitVec 32) (hw : w.toNat < 4) (r : Fin 1024) :
    (IntOp.addi (Scalar.muli w 1024#32) (BitVec.ofNat 32 r.val)).toNat = 1024 * w.toNat + r.val := by
  show (w * 1024#32 + BitVec.ofNat 32 r.val).toNat = _
  rw [BitVec.toNat_add, BitVec.toNat_mul, BitVec.toNat_ofNat, BitVec.toNat_ofNat]
  have := r.isLt
  omega

/-- The signed comparison of two such words is the comparison of the global indices. -/
theorem tileMask_iff (wI wJ : BitVec 32) (hI : wI.toNat < 4) (hJ : wJ.toNat < 4) (r cc : Fin 1024) :
    IntOp.cmpi .slt (IntOp.addi (Scalar.muli wI 1024#32) (BitVec.ofNat 32 r.val))
        (IntOp.addi (Scalar.muli wJ 1024#32) (BitVec.ofNat 32 cc.val)) = 1#1
      ↔ 1024 * wI.toNat + r.val < 1024 * wJ.toNat + cc.val := by
  have ha := toNat_tileIndex wI hI r
  have hb := toNat_tileIndex wJ hJ cc
  have hr := r.isLt
  have hc := cc.isLt
  have h := StableHlo.Predicate.slt_iff_toNat
    (a := IntOp.addi (Scalar.muli wI 1024#32) (BitVec.ofNat 32 r.val))
    (b := IntOp.addi (Scalar.muli wJ 1024#32) (BitVec.ofNat 32 cc.val)) (by rw [ha]; omega) (by rw [hb]; omega)
  rw [ha, hb] at h
  exact h

/-- The table words of step `k` hold the row tile and the column tile of that step. -/
theorem toNat_lit0 (k : Fin 10) : (lit0 k).toNat = Cert.Spec.tI k := by revert k; decide
theorem toNat_lit1 (k : Fin 10) : (lit1 k).toNat = Cert.Spec.tJ k := by revert k; decide

end Cert.KernelIdeal.Hand

end
-- ==== Proof.KI.ValuePiecesTile.lean ====
/-
  The tile's selected term is the pair loss inside the strict upper triangle of the global index square.

  At tile step `k` the two table words the body loads are the row tile `tI k` and the column tile `tJ k` (the
  tables are the literal ones, and the scalar load reads them at the tile step).  The mask then compares
  `1024 · tI k + r` with `1024 · tJ k + cc`; inside it the one-bit "labels agree" selects `three · h (difference)`
  or `h (1 - difference)`, which is `Cert.Spec.pairLoss`; outside it the term is zero.
-/
import proofs.«400616_j27212912788010_3_alg».proof.Proof.KI.ValuePiecesFound
import proofs.«400616_j27212912788010_3_alg».proof.Proof.KI.ValuePiecesPay
import proofs.«400616_j27212912788010_3_alg».proof.Proof.KI.ValuePiecesSum
import proofs.«400616_j27212912788010_3_alg».proof.Proof.KI.ValuePiecesMask

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (c : Dev nD) (i : grid0.Coords)

/-- The index the body's scalar load reads is the tile step. -/
theorem wordIdx_eq (k : Fin 10) (hk : (i 1).val = k.val)
    (h : 0 < (Rect.unit (s := S10) (k0_off1 i) S1.size (k0_off1_inb i)).shape.numel) :
    S10.rowMajor ((Rect.unit (s := S10) (k0_off1 i) S1.size (k0_off1_inb i)).emb (Shape.Idx.first h)) = k := by
  apply Fin.ext
  rw [Shape.rowMajor_val_one, Rect.emb_apply, Rect.off_unit, Rect.stride_unit]
  have e : k0_off1 i 0 = (i 1).val := congrFun (k0_off1_eq i) 0
  show k0_off1 i 0 + 1 * 0 = k.val
  rw [e]
  omega

/-- The row-tile word at step `k`. -/
theorem wordI_eq (xt0 : TbBuf (F := Ideal) c tbM0) (k : Fin 10) (hk : (i 1).val = k.val)
    (h0 : xt0 = fun j => lit0 (S10.rowMajor j)) : wordI c i xt0 = lit0 k := by
  subst h0
  unfold wordI
  rw [View.read_whole]
  show lit0 (S10.rowMajor ((Rect.unit (s := S10) (k0_off1 i) S1.size (k0_off1_inb i)).emb (Shape.Idx.first _))) = lit0 k
  rw [wordIdx_eq i k hk]

/-- The column-tile word at step `k`. -/
theorem wordJ_eq (xt1 : TbBuf (F := Ideal) c tbM1) (k : Fin 10) (hk : (i 1).val = k.val)
    (h1 : xt1 = fun j => lit1 (S10.rowMajor j)) : wordJ c i xt1 = lit1 k := by
  subst h1
  unfold wordJ
  rw [View.read_whole]
  show lit1 (S10.rowMajor ((Rect.unit (s := S10) (k0_off1 i) S1.size (k0_off1_inb i)).emb (Shape.Idx.first _))) = lit1 k
  rw [wordIdx_eq i k hk]

/-- The selected term of the tile of step `k` at `(r, cc)`. -/
theorem tileElt_eq (x0 : Vec Ideal S1x1x1024 .f32) (x1 : Vec Ideal S1x1x1024 .i32) (x2 : Vec Ideal S1x1x1024 .f32)
    (x3 : Vec Ideal S1x1x1024 .i32) (k : Fin 10) (r cc : Fin 1024) :
    tileElt (k0_pay3 (F := Ideal) x0 x2) (k0_pay4 (F := Ideal) x1 x3) (k0_pay5 (F := Ideal) x0 x2) (k0_pay6 (F := Ideal)) (lit0 k) (lit1 k) r cc
      = if 1024 * Cert.Spec.tI k + r.val < 1024 * Cert.Spec.tJ k + cc.val then
          Cert.Spec.pairLoss (x0 (ix3 (0 : Fin 1) (0 : Fin 1) r)) (x2 (ix3 (0 : Fin 1) (0 : Fin 1) cc))
            (x1 (ix3 (0 : Fin 1) (0 : Fin 1) r) = x3 (ix3 (0 : Fin 1) (0 : Fin 1) cc))
        else 0 := by
  unfold tileElt
  rw [pay3_at, pay4_at, pay5_eq, pay3_at, pay6_eq]
  have hm := tileMask_iff (lit0 k) (lit1 k) (by rw [toNat_lit0]; exact Cert.Spec.tI_lt k)
    (by rw [toNat_lit1]; exact Cert.Spec.tJ_lt k) r cc
  rw [toNat_lit0, toNat_lit1] at hm
  by_cases h : 1024 * Cert.Spec.tI k + r.val < 1024 * Cert.Spec.tJ k + cc.val
  · rw [if_pos h, hm.2 h, select_one]
    unfold Cert.Spec.pairLoss
    by_cases e : x1 (ix3 (0 : Fin 1) (0 : Fin 1) r) = x3 (ix3 (0 : Fin 1) (0 : Fin 1) cc)
    · rw [if_pos e, StableHlo.Predicate.cmpi_eq_iff.2 e, select_one]
    · rw [if_neg e, eq_zero_of_ne_one (fun h' => e (StableHlo.Predicate.cmpi_eq_iff.1 h')), select_zero]
  · rw [if_neg h, eq_zero_of_ne_one (fun h' => h (hm.1 h')), select_zero]

end Cert.KernelIdeal.Hand

end
-- ==== Proof.KI.ValuePieces.lean ====
/-
  What the kernel's stores hold at the ideal instance, point by point: the accumulator after a tile step is what
  it held before plus the tile's masked pair-loss sum (zero plus it at the reset step), and the output block at the
  drain step is that total over the number of pairs, in every lane.

  The tile of step `k` pairs rows `1024·tI k + r` with columns `1024·tJ k + c`; the kernel's mask compares these
  global indices as 32-bit words (`table word · 1024 + iota`), which for table words below 4 is the comparison of
  the natural numbers; the row sums by the matrix unit against a column of ones and the lane sum over them are the
  plain double sum at the ideal instance.
-/
import proofs.«400616_j27212912788010_3_alg».proof.Proof.KI.Frame
import proofs.«400616_j27212912788010_3_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«400616_j27212912788010_3_alg».proof.Proof.KI.ValuePiecesTile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The masked pair-loss sum of the tile of step `k`, over the row block `x0`/`x1` (predictions, labels) and the
    column block `x2`/`x3`. -/
def tileSum (x0 : Vec Ideal S1x1x1024 .f32) (x1 : Vec Ideal S1x1x1024 .i32) (x2 : Vec Ideal S1x1x1024 .f32) (x3 : Vec Ideal S1x1x1024 .i32) (k : Fin 10) : EReal :=
  ∑ r : Fin 1024, ∑ cc : Fin 1024,
    if 1024 * Cert.Spec.tI k + r.val < 1024 * Cert.Spec.tJ k + cc.val then
      Cert.Spec.pairLoss (x0 (ix3 (0 : Fin 1) (0 : Fin 1) r)) (x2 (ix3 (0 : Fin 1) (0 : Fin 1) cc)) (x1 (ix3 (0 : Fin 1) (0 : Fin 1) r) = x3 (ix3 (0 : Fin 1) (0 : Fin 1) cc))
    else 0

/-- THE TILE UPDATE of step `k` at the ideal instance: the accumulator plus the tile's masked pair-loss sum. -/
theorem tileUpdate_at (c : Dev nD) (i : grid0.Coords) (x0 : Vec Ideal S1x1x1024 .f32) (x1 : Vec Ideal S1x1x1024 .i32) (x2 : Vec Ideal S1x1x1024 .f32) (x3 : Vec Ideal S1x1x1024 .i32) (xt0 : TbBuf (F := Ideal) c tbM0) (xt1 : TbBuf (F := Ideal) c tbM1) (xs : Vec Ideal S1x1 .f32) (k : Fin 10) (hk : (i 1).val = k.val)
    (h0 : xt0 = fun j => lit0 (S10.rowMajor j)) (h1 : xt1 = fun j => lit1 (S10.rowMajor j)) :
    tileUpdate c i x0 x1 x2 x3 xt0 xt1 xs (ix2 (0 : Fin 1) (0 : Fin 1)) = xs (ix2 (0 : Fin 1) (0 : Fin 1)) + tileSum x0 x1 x2 x3 k := by
  unfold tileUpdate
  rw [wordI_eq c i xt0 k hk h0, wordJ_eq c i xt1 k hk h1]
  refine (pay7_at _ _ _ _ _ _ _).trans ?_
  refine congrArg (fun s => xs (ix2 (0 : Fin 1) (0 : Fin 1)) + s) ?_
  unfold tileSum
  exact Finset.sum_congr rfl fun r _ => Finset.sum_congr rfl fun cc _ => tileElt_eq x0 x1 x2 x3 k r cc

variable (c : Dev nD) (i : grid0.Coords) (a4 : Memref sig .tc .vmem S1x1x1024 .f32) (h4 : a4.IsWhole) (a5 : Memref sig .tc .vmem S1x1x1024 .i32) (h5 : a5.IsWhole) (a6 : Memref sig .tc .vmem S1x1x1024 .f32) (h6 : a6.IsWhole) (a7 : Memref sig .tc .vmem S1x1x1024 .i32) (h7 : a7.IsWhole) (a8 : Memref sig .tc .vmem S1x1x128 .f32) (h8 : a8.IsWhole) (a9 : Memref sig .tc .vmem S1x1 .f32) (h9 : a9.IsWhole)

/-- The accumulator after a reset step: the tile's sum. -/
theorem soutA_val (hcR : condR i) (hcD : ¬condD i) (x0 : Vec Ideal S1x1x1024 .f32) (x1 : Vec Ideal S1x1x1024 .i32) (x2 : Vec Ideal S1x1x1024 .f32) (x3 : Vec Ideal S1x1x1024 .i32) (xt0 : TbBuf (F := Ideal) c tbM0) (xt1 : TbBuf (F := Ideal) c tbM1) (k : Fin 10) (hk : (i 1).val = k.val)
    (h0 : xt0 = fun j => lit0 (S10.rowMajor j)) (h1 : xt1 = fun j => lit1 (S10.rowMajor j)) :
    soutA (F := Ideal) c i a4 h4 a5 h5 a6 h6 a7 h7 a8 h8 a9 h9 hcR hcD x0 x1 x2 x3 xt0 xt1 (ix2 (0 : Fin 1) (0 : Fin 1)) = tileSum x0 x1 x2 x3 k := by
  rw [soutA_found c i a4 h4 a5 h5 a6 h6 a7 h7 a8 h8 a9 h9 hcR hcD x0 x1 x2 x3 xt0 xt1,
    tileUpdate_at c i x0 x1 x2 x3 xt0 xt1 _ k hk h0 h1, pay2_at, zero_add]

/-- The accumulator after a middle step: what it held plus the tile's sum. -/
theorem soutB_val (hcR : ¬condR i) (hcD : ¬condD i) (x0 : Vec Ideal S1x1x1024 .f32) (x1 : Vec Ideal S1x1x1024 .i32) (x2 : Vec Ideal S1x1x1024 .f32) (x3 : Vec Ideal S1x1x1024 .i32) (xt0 : TbBuf (F := Ideal) c tbM0) (xt1 : TbBuf (F := Ideal) c tbM1) (xs : Vec Ideal S1x1 .f32) (k : Fin 10) (hk : (i 1).val = k.val)
    (h0 : xt0 = fun j => lit0 (S10.rowMajor j)) (h1 : xt1 = fun j => lit1 (S10.rowMajor j)) :
    soutB (F := Ideal) c i a4 h4 a5 h5 a6 h6 a7 h7 a8 h8 a9 h9 hcR hcD x0 x1 x2 x3 xt0 xt1 xs (ix2 (0 : Fin 1) (0 : Fin 1)) = xs (ix2 (0 : Fin 1) (0 : Fin 1)) + tileSum x0 x1 x2 x3 k := by
  rw [soutB_found c i a4 h4 a5 h5 a6 h6 a7 h7 a8 h8 a9 h9 hcR hcD x0 x1 x2 x3 xt0 xt1 xs]
  exact tileUpdate_at c i x0 x1 x2 x3 xt0 xt1 xs k hk h0 h1

/-- The accumulator after the drain step: what it held plus the tile's sum. -/
theorem soutC_val (hcR : ¬condR i) (hcD : condD i) (x0 : Vec Ideal S1x1x1024 .f32) (x1 : Vec Ideal S1x1x1024 .i32) (x2 : Vec Ideal S1x1x1024 .f32) (x3 : Vec Ideal S1x1x1024 .i32) (xt0 : TbBuf (F := Ideal) c tbM0) (xt1 : TbBuf (F := Ideal) c tbM1) (xs : Vec Ideal S1x1 .f32) (k : Fin 10) (hk : (i 1).val = k.val)
    (h0 : xt0 = fun j => lit0 (S10.rowMajor j)) (h1 : xt1 = fun j => lit1 (S10.rowMajor j)) :
    soutC (F := Ideal) c i a4 h4 a5 h5 a6 h6 a7 h7 a8 h8 a9 h9 hcR hcD x0 x1 x2 x3 xt0 xt1 xs (ix2 (0 : Fin 1) (0 : Fin 1)) = xs (ix2 (0 : Fin 1) (0 : Fin 1)) + tileSum x0 x1 x2 x3 k := by
  rw [soutC_found c i a4 h4 a5 h5 a6 h6 a7 h7 a8 h8 a9 h9 hcR hcD x0 x1 x2 x3 xt0 xt1 xs]
  exact tileUpdate_at c i x0 x1 x2 x3 xt0 xt1 xs k hk h0 h1

/-- The output block at the drain step: the total over the number of pairs, in every lane. -/
theorem outC_val (hcR : ¬condR i) (hcD : condD i) (x0 : Vec Ideal S1x1x1024 .f32) (x1 : Vec Ideal S1x1x1024 .i32) (x2 : Vec Ideal S1x1x1024 .f32) (x3 : Vec Ideal S1x1x1024 .i32) (xt0 : TbBuf (F := Ideal) c tbM0) (xt1 : TbBuf (F := Ideal) c tbM1) (xs : Vec Ideal S1x1 .f32) (k : Fin 10) (hk : (i 1).val = k.val)
    (h0 : xt0 = fun j => lit0 (S10.rowMajor j)) (h1 : xt1 = fun j => lit1 (S10.rowMajor j)) (l : Fin 128) :
    outC (F := Ideal) c i a4 h4 a5 h5 a6 h6 a7 h7 a8 h8 a9 h9 hcR hcD x0 x1 x2 x3 xt0 xt1 xs (ix3 (0 : Fin 1) (0 : Fin 1) l)
      = Ideal.div (xs (ix2 (0 : Fin 1) (0 : Fin 1)) + tileSum x0 x1 x2 x3 k) Cert.Spec.cN := by
  rw [outC_found c i a4 h4 a5 h5 a6 h6 a7 h7 a8 h8 a9 h9 hcR hcD x0 x1 x2 x3 xt0 xt1 xs, pay1_at,
    tileUpdate_at c i x0 x1 x2 x3 xt0 xt1 xs k hk h0 h1]

end Cert.KernelIdeal.Hand

end
-- ==== Proof.KI.ValueBlocksIdx.lean ====
/-
  Where a block sits in its array, as arithmetic on the grid point, with the tile tables' contents a variable.

  Grid point `t` of the 4 × 10 grid has batch row `t / 10` and tile step `t % 10`.  The four input windows' index
  maps return `[row, 0, T]` with `T` the word a tile table holds at the tile step (windows 0 and 1 read the first
  table, 2 and 3 the second); the output window's returns `[row, 0, 0]`.  A block's coordinate in its array is the
  block index times the block's size plus the coordinate inside the block, so entry `r` of an input block is
  `[row, 0, 1024·T + r]` and lane `l` of the output block is `[row, 0, l]`.  The two literal tables, word by word,
  are the row tiles and the column tiles of the ten steps.
-/
import proofs.«400616_j27212912788010_3_alg».proof.Proof.KI.Setup
import proofs.«400616_j27212912788010_3_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The grid point's coordinates: batch row and tile step. -/
theorem coords_val : ∀ t : Fin grid0.N, (grid0.coords t 0).val = t.val / 10 ∧ (grid0.coords t 1).val = t.val % 10 := by decide +kernel

/-- The first literal table's words are the row tiles, the second's the column tiles. -/
theorem lit0_tI : ∀ k : Fin 10, (lit0 (S10.rowMajor (ix1 k))).toNat = Cert.Spec.tI k := by decide
theorem lit1_tJ : ∀ k : Fin 10, (lit1 (S10.rowMajor (ix1 k))).toNat = Cert.Spec.tJ k := by decide

/-- A number below 2³² survives the round trip through a 32-bit word. -/
theorem ofNat_toNat_lt (n : ℕ) (h : n < 4294967296) : (BitVec.ofNat 32 n).toNat = n := by
  rw [BitVec.toNat_ofNat]; exact Nat.mod_eq_of_lt h

/-- An index of a [1, 1, 128] block is its lane. -/
theorem eq_ix3_lane (y : S1x1x128.Idx) : ∃ l : Fin 128, y = ix3 (0 : Fin 1) (0 : Fin 1) l := by
  refine ⟨y 2, ?_⟩
  have h0 : (y 0).val < 1 := (y 0).isLt
  have h1 : (y 1).val < 1 := (y 1).isLt
  funext a
  match a with
  | ⟨0, _⟩ => exact Fin.ext (by show (y 0).val = 0; omega)
  | ⟨1, _⟩ => exact Fin.ext (by show (y 1).val = 0; omega)
  | ⟨2, _⟩ => rfl

section
variable {F : FTy → Type} [FloatOps F]

/-- The one index of the unit rectangle an index map loads a table through: the tile step. -/
theorem unit_emb (i : grid0.Coords) :
    (Rect.unit (s := S10) ![(Scalar.indexCast (BitVec.ofNat 32 (i 1).val)).toNat] S1.size (k0_off1_inb i)).emb (Shape.Idx.first (numel1_S1.symm ▸ Nat.one_pos)) = ix1 (i 1) := by
  refine funext fun a => Fin.ext ?_
  match a with
  | ⟨0, _⟩ =>
    rw [Rect.emb_apply]
    show (Scalar.indexCast (BitVec.ofNat 32 (i 1).val)).toNat + 1 * 0 = (i 1).val
    have h10 : (i 1).val < 10 := (i 1).isLt
    unfold Scalar.indexCast
    rw [ofNat_toNat_lt _ (by omega)]; omega

/-! ## The input windows -/

/-- Window 0's block index (row predictions): the batch row, 0, and the tile table 0 names at the tile step. -/
theorem tr0_eq (pf : pre0.Contents (Elt F)) (i : grid0.Coords) :
    cc0_transform_0 k0_off1_inb numel1_S1 pf i = ![(i 0).val, 0, (pf 0 (ix1 (i 1))).toNat] := by
  unfold cc0_transform_0
  dsimp only
  have h4 : (i 0).val < 4 := (i 0).isLt
  have e : pf.at 0 (Rect.unit (s := S10) ![(Scalar.indexCast (BitVec.ofNat 32 (i 1).val)).toNat] S1.size (k0_off1_inb i)) numel1_S1 = pf 0 (ix1 (i 1)) :=
    congrArg (pf 0) (unit_emb i)
  rw [e, ofNat_toNat_lt _ (by omega)]
  rfl
/-- Window 1's block index (row labels): the batch row, 0, and the tile table 0 names at the tile step. -/
theorem tr1_eq (pf : pre0.Contents (Elt F)) (i : grid0.Coords) :
    cc0_transform_1 k0_off1_inb numel1_S1 pf i = ![(i 0).val, 0, (pf 0 (ix1 (i 1))).toNat] := by
  unfold cc0_transform_1
  dsimp only
  have h4 : (i 0).val < 4 := (i 0).isLt
  have e : pf.at 0 (Rect.unit (s := S10) ![(Scalar.indexCast (BitVec.ofNat 32 (i 1).val)).toNat] S1.size (k0_off1_inb i)) numel1_S1 = pf 0 (ix1 (i 1)) :=
    congrArg (pf 0) (unit_emb i)
  rw [e, ofNat_toNat_lt _ (by omega)]
  rfl
/-- Window 2's block index (column predictions): the batch row, 0, and the tile table 1 names at the tile step. -/
theorem tr2_eq (pf : pre0.Contents (Elt F)) (i : grid0.Coords) :
    cc0_transform_2 k0_off1_inb numel1_S1 pf i = ![(i 0).val, 0, (pf 1 (ix1 (i 1))).toNat] := by
  unfold cc0_transform_2
  dsimp only
  have h4 : (i 0).val < 4 := (i 0).isLt
  have e : pf.at 1 (Rect.unit (s := S10) ![(Scalar.indexCast (BitVec.ofNat 32 (i 1).val)).toNat] S1.size (k0_off1_inb i)) numel1_S1 = pf 1 (ix1 (i 1)) :=
    congrArg (pf 1) (unit_emb i)
  rw [e, ofNat_toNat_lt _ (by omega)]
  rfl
/-- Window 3's block index (column labels): the batch row, 0, and the tile table 1 names at the tile step. -/
theorem tr3_eq (pf : pre0.Contents (Elt F)) (i : grid0.Coords) :
    cc0_transform_3 k0_off1_inb numel1_S1 pf i = ![(i 0).val, 0, (pf 1 (ix1 (i 1))).toNat] := by
  unfold cc0_transform_3
  dsimp only
  have h4 : (i 0).val < 4 := (i 0).isLt
  have e : pf.at 1 (Rect.unit (s := S10) ![(Scalar.indexCast (BitVec.ofNat 32 (i 1).val)).toNat] S1.size (k0_off1_inb i)) numel1_S1 = pf 1 (ix1 (i 1)) :=
    congrArg (pf 1) (unit_emb i)
  rw [e, ofNat_toNat_lt _ (by omega)]
  rfl

theorem index0 (a : (pcfg0 (F := F)).Adm) (t : Fin (cfg0 a).N) :
    ((cfg0 a).win 0).index t = cc0_transform_0 k0_off1_inb numel1_S1 a.1 (grid0.coords t) := rfl

/-- Entry `r` of window 0's block at point `10·b + k` sits at `[b, 0, 1024·T + r]` of its array, `T` the tile table 0 names at step `k`. -/
theorem emb0 (a : (pcfg0 (F := F)).Adm) (t : Fin (cfg0 a).N) (b : Fin 4) (k : Fin 10) (ht : t.val = 10 * b.val + k.val) (r : Fin 1024)
    (j : Fin 4096) (hj : j.val = 1024 * (a.1 0 (ix1 k)).toNat + r.val) :
    (((cfg0 a).win 0).blk t).view.emb (ix3 (0 : Fin 1) (0 : Fin 1) r) = ix3 b (0 : Fin 1) j := by
  have hc := coords_val t
  have hb := b.isLt
  have hk := k.isLt
  have e1 : grid0.coords t 1 = k := Fin.ext (by rw [hc.2, ht]; omega)
  have hi := index0 a t
  rw [tr0_eq, e1] at hi
  funext x; apply Fin.ext
  match x with
  | ⟨0, _⟩ =>
    show ((cfg0 a).win 0).index t (0 : Fin 3) * 1 + 1 * 0 = b.val
    rw [hi]; show (grid0.coords t 0).val * 1 + 1 * 0 = b.val
    rw [hc.1, ht]; omega
  | ⟨1, _⟩ =>
    show ((cfg0 a).win 0).index t (1 : Fin 3) * 1 + 1 * 0 = 0
    rw [hi]; rfl
  | ⟨2, _⟩ =>
    show ((cfg0 a).win 0).index t (2 : Fin 3) * 1024 + 1 * r.val = j.val
    rw [hi, hj]; show (a.1 0 (ix1 k)).toNat * 1024 + 1 * r.val = _
    omega

theorem index1 (a : (pcfg0 (F := F)).Adm) (t : Fin (cfg0 a).N) :
    ((cfg0 a).win 1).index t = cc0_transform_1 k0_off1_inb numel1_S1 a.1 (grid0.coords t) := rfl

/-- Entry `r` of window 1's block at point `10·b + k` sits at `[b, 0, 1024·T + r]` of its array, `T` the tile table 0 names at step `k`. -/
theorem emb1 (a : (pcfg0 (F := F)).Adm) (t : Fin (cfg0 a).N) (b : Fin 4) (k : Fin 10) (ht : t.val = 10 * b.val + k.val) (r : Fin 1024)
    (j : Fin 4096) (hj : j.val = 1024 * (a.1 0 (ix1 k)).toNat + r.val) :
    (((cfg0 a).win 1).blk t).view.emb (ix3 (0 : Fin 1) (0 : Fin 1) r) = ix3 b (0 : Fin 1) j := by
  have hc := coords_val t
  have hb := b.isLt
  have hk := k.isLt
  have e1 : grid0.coords t 1 = k := Fin.ext (by rw [hc.2, ht]; omega)
  have hi := index1 a t
  rw [tr1_eq, e1] at hi
  funext x; apply Fin.ext
  match x with
  | ⟨0, _⟩ =>
    show ((cfg0 a).win 1).index t (0 : Fin 3) * 1 + 1 * 0 = b.val
    rw [hi]; show (grid0.coords t 0).val * 1 + 1 * 0 = b.val
    rw [hc.1, ht]; omega
  | ⟨1, _⟩ =>
    show ((cfg0 a).win 1).index t (1 : Fin 3) * 1 + 1 * 0 = 0
    rw [hi]; rfl
  | ⟨2, _⟩ =>
    show ((cfg0 a).win 1).index t (2 : Fin 3) * 1024 + 1 * r.val = j.val
    rw [hi, hj]; show (a.1 0 (ix1 k)).toNat * 1024 + 1 * r.val = _
    omega

theorem index2 (a : (pcfg0 (F := F)).Adm) (t : Fin (cfg0 a).N) :
    ((cfg0 a).win 2).index t = cc0_transform_2 k0_off1_inb numel1_S1 a.1 (grid0.coords t) := rfl

/-- Entry `r` of window 2's block at point `10·b + k` sits at `[b, 0, 1024·T + r]` of its array, `T` the tile table 1 names at step `k`. -/
theorem emb2 (a : (pcfg0 (F := F)).Adm) (t : Fin (cfg0 a).N) (b : Fin 4) (k : Fin 10) (ht : t.val = 10 * b.val + k.val) (r : Fin 1024)
    (j : Fin 4096) (hj : j.val = 1024 * (a.1 1 (ix1 k)).toNat + r.val) :
    (((cfg0 a).win 2).blk t).view.emb (ix3 (0 : Fin 1) (0 : Fin 1) r) = ix3 b (0 : Fin 1) j := by
  have hc := coords_val t
  have hb := b.isLt
  have hk := k.isLt
  have e1 : grid0.coords t 1 = k := Fin.ext (by rw [hc.2, ht]; omega)
  have hi := index2 a t
  rw [tr2_eq, e1] at hi
  funext x; apply Fin.ext
  match x with
  | ⟨0, _⟩ =>
    show ((cfg0 a).win 2).index t (0 : Fin 3) * 1 + 1 * 0 = b.val
    rw [hi]; show (grid0.coords t 0).val * 1 + 1 * 0 = b.val
    rw [hc.1, ht]; omega
  | ⟨1, _⟩ =>
    show ((cfg0 a).win 2).index t (1 : Fin 3) * 1 + 1 * 0 = 0
    rw [hi]; rfl
  | ⟨2, _⟩ =>
    show ((cfg0 a).win 2).index t (2 : Fin 3) * 1024 + 1 * r.val = j.val
    rw [hi, hj]; show (a.1 1 (ix1 k)).toNat * 1024 + 1 * r.val = _
    omega

theorem index3 (a : (pcfg0 (F := F)).Adm) (t : Fin (cfg0 a).N) :
    ((cfg0 a).win 3).index t = cc0_transform_3 k0_off1_inb numel1_S1 a.1 (grid0.coords t) := rfl

/-- Entry `r` of window 3's block at point `10·b + k` sits at `[b, 0, 1024·T + r]` of its array, `T` the tile table 1 names at step `k`. -/
theorem emb3 (a : (pcfg0 (F := F)).Adm) (t : Fin (cfg0 a).N) (b : Fin 4) (k : Fin 10) (ht : t.val = 10 * b.val + k.val) (r : Fin 1024)
    (j : Fin 4096) (hj : j.val = 1024 * (a.1 1 (ix1 k)).toNat + r.val) :
    (((cfg0 a).win 3).blk t).view.emb (ix3 (0 : Fin 1) (0 : Fin 1) r) = ix3 b (0 : Fin 1) j := by
  have hc := coords_val t
  have hb := b.isLt
  have hk := k.isLt
  have e1 : grid0.coords t 1 = k := Fin.ext (by rw [hc.2, ht]; omega)
  have hi := index3 a t
  rw [tr3_eq, e1] at hi
  funext x; apply Fin.ext
  match x with
  | ⟨0, _⟩ =>
    show ((cfg0 a).win 3).index t (0 : Fin 3) * 1 + 1 * 0 = b.val
    rw [hi]; show (grid0.coords t 0).val * 1 + 1 * 0 = b.val
    rw [hc.1, ht]; omega
  | ⟨1, _⟩ =>
    show ((cfg0 a).win 3).index t (1 : Fin 3) * 1 + 1 * 0 = 0
    rw [hi]; rfl
  | ⟨2, _⟩ =>
    show ((cfg0 a).win 3).index t (2 : Fin 3) * 1024 + 1 * r.val = j.val
    rw [hi, hj]; show (a.1 1 (ix1 k)).toNat * 1024 + 1 * r.val = _
    omega

/-! ## The output window -/

/-- The output window's block index: the batch row alone. -/
theorem tr4_eq (i : grid0.Coords) : cc0_transform_4 i = ![(i 0).val, 0, 0] := by
  unfold cc0_transform_4
  dsimp only
  have h4 : (i 0).val < 4 := (i 0).isLt
  rw [ofNat_toNat_lt _ (by omega)]
  rfl

theorem index4 (a : (pcfg0 (F := F)).Adm) (t : Fin (cfg0 a).N) : ((cfg0 a).win 4).index t = cc0_transform_4 (grid0.coords t) := rfl

/-- Lane `l` of the output block at a point of batch row `b` sits at `[b, 0, l]` of the output array. -/
theorem emb4 (a : (pcfg0 (F := F)).Adm) (t : Fin (cfg0 a).N) (b : Fin 4) (hb : t.val / 10 = b.val) (l : Fin 128) :
    (((cfg0 a).win 4).blk t).view.emb (ix3 (0 : Fin 1) (0 : Fin 1) l) = ix3 b (0 : Fin 1) l := by
  have hc := coords_val t
  have hi := index4 a t
  rw [tr4_eq] at hi
  funext x; apply Fin.ext
  match x with
  | ⟨0, _⟩ =>
    show ((cfg0 a).win 4).index t (0 : Fin 3) * 1 + 1 * 0 = b.val
    rw [hi]; show (grid0.coords t 0).val * 1 + 1 * 0 = b.val
    rw [hc.1, hb]; omega
  | ⟨1, _⟩ =>
    show ((cfg0 a).win 4).index t (1 : Fin 3) * 1 + 1 * 0 = 0
    rw [hi]; rfl
  | ⟨2, _⟩ =>
    show ((cfg0 a).win 4).index t (2 : Fin 3) * 128 + 1 * l.val = l.val
    rw [hi]; show 0 * 128 + 1 * l.val = l.val
    omega

end

end Cert.KernelIdeal.Hand

end
-- ==== Proof.KI.ValueBlocksHost.lean ====
/-
  The two arrays the input windows read, in terms of the gathers' results.

  The region's entry contents are what the last two host lines before it — the broadcasts that insert a unit axis
  into the sampled predictions and the sampled labels — leave over everything before them; read at `[b, 0, j]` a
  broadcast array is its operand at `[b, j]`.
-/
import proofs.«400616_j27212912788010_3_alg».proof.Proof.KI.Setup
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The region's entry contents: the two broadcasts run over what the constants, reshapes and gathers leave. -/
theorem V0_split (c : Dev nD) :
    V0 (F := Ideal) m c = StableHlo.after hostOps0_3 (StableHlo.after (List.flatten [hostOps0, hostOps0_1, hostOps0_2]) (fun b => m (c, b))) := by
  show StableHlo.after (List.flatten [hostOps0, hostOps0_1, hostOps0_2, hostOps0_3]) _ = _
  rw [show List.flatten [hostOps0 (F := Ideal), hostOps0_1, hostOps0_2, hostOps0_3] = List.flatten [hostOps0, hostOps0_1, hostOps0_2] ++ hostOps0_3 from by
    simp only [List.flatten_cons, List.flatten_nil, List.append_nil, List.append_assoc], StableHlo.after_append]

/-- The predictions' windows' array is the first gather's result with a unit axis inserted. -/
theorem V4_eq (c : Dev nD) : (V (F := Ideal) m c main_v4 : S4x1x4096.Idx → EReal) = broadcastInDim S4x1x4096 ![0, 2] bcast_S4x4096_S4x1x4096_0_2 (V (F := Ideal) m c main_v2 : S4x4096.Idx → EReal) := by
  dsimp only [V]
  rw [V0_split]
  generalize StableHlo.after (List.flatten [hostOps0 (F := Ideal), hostOps0_1, hostOps0_2]) (fun b => m (c, b)) = W
  simp only [hostOps0_3]
  after_results

/-- The labels' windows' array is the second gather's result with a unit axis inserted. -/
theorem V5_eq (c : Dev nD) : (V (F := Ideal) m c main_v5 : S4x1x4096.Idx → BitVec 32) = broadcastInDim S4x1x4096 ![0, 2] bcast_S4x4096_S4x1x4096_0_2 (V (F := Ideal) m c main_v3 : S4x4096.Idx → BitVec 32) := by
  dsimp only [V]
  rw [V0_split]
  generalize StableHlo.after (List.flatten [hostOps0 (F := Ideal), hostOps0_1, hostOps0_2]) (fun b => m (c, b)) = W
  simp only [hostOps0_3]
  after_results

/-- Read at `[b, 0, j]` they are the gathers' results at `[b, j]`. -/
theorem V4_apply (c : Dev nD) (b : Fin 4) (j : Fin 4096) :
    (V (F := Ideal) m c main_v4 : S4x1x4096.Idx → EReal) (ix3 b (0 : Fin 1) j) = (V (F := Ideal) m c main_v2 : S4x4096.Idx → EReal) (ix2 b j) := by
  rw [V4_eq]
  refine broadcastInDim_apply _ _ _ _ (ix2 b j) fun a => ?_
  match a with
  | ⟨0, _⟩ => rfl
  | ⟨1, _⟩ => rfl
theorem V5_apply (c : Dev nD) (b : Fin 4) (j : Fin 4096) :
    (V (F := Ideal) m c main_v5 : S4x1x4096.Idx → BitVec 32) (ix3 b (0 : Fin 1) j) = (V (F := Ideal) m c main_v3 : S4x4096.Idx → BitVec 32) (ix2 b j) := by
  rw [V5_eq]
  refine broadcastInDim_apply _ _ _ _ (ix2 b j) fun a => ?_
  match a with
  | ⟨0, _⟩ => rfl
  | ⟨1, _⟩ => rfl

end Cert.KernelIdeal.Hand

end
-- ==== Proof.KI.ValueBlocks.lean ====
/-
  Where the kernel's blocks and its result sit in the arrays, at the ideal instance.

  Grid point `t = 10·b + k` is batch row `b`, tile step `k`: the row windows stage entries
  `1024·tI k … 1024·tI k + 1023` of row `b` of the sampled predictions and labels, the column windows entries
  `1024·tJ k …`; the sampled arrays are the gathers' results with a unit axis inserted.  The output array's block
  `b` is what the drain step `10·b + 9` stored, and the lines after the region read its entry `[b, 0, 0]`, sum
  the four from zero and divide by four.
-/
import proofs.«400616_j27212912788010_3_alg».proof.Proof.KI.Body
import proofs.«400616_j27212912788010_3_alg».proof.Proof.KI.Launch
import proofs.«400616_j27212912788010_3_alg».proof.Proof.Spec
import proofs.«400616_j27212912788010_3_alg».proof.Proof.KI.ValueBlocksIdx
import proofs.«400616_j27212912788010_3_alg».proof.Proof.KI.ValueBlocksHost
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- Row `b`, position `i` of the sampled predictions: the first gather's result at the region's entry. -/
def xK (c : Dev nD) (b : Fin 4) (i : Fin 4096) : EReal := (V (F := Ideal) m c main_v2 : S4x4096.Idx → EReal) (ix2 b i)
/-- Row `b`, position `i` of the sampled labels: the second gather's result. -/
def lK (c : Dev nD) (b : Fin 4) (i : Fin 4096) : BitVec 32 := (V (F := Ideal) m c main_v3 : S4x4096.Idx → BitVec 32) (ix2 b i)

/-- The four input blocks at point `t = 10·b + k`, entry by entry. -/
theorem iblk0_apply (c : Dev nD) (b : Fin 4) (k : Fin 10) (t : Fin (cfgM m).N) (ht : t.val = 10 * b.val + k.val) (r : Fin 1024) (h : 1024 * Cert.Spec.tI k + r.val < 4096) :
    (iblk m c 0 t : S1x1x1024.Idx → EReal) (ix3 (0 : Fin 1) (0 : Fin 1) r) = xK m c b ⟨1024 * Cert.Spec.tI k + r.val, h⟩ := by
  unfold iblk
  show (V (F := Ideal) m c main_v4 : S4x1x4096.Idx → _) ((((cfg0 (adm m)).win 0).blk t).view.emb (ix3 (0 : Fin 1) (0 : Fin 1) r)) = _
  rw [emb0 (adm m) t b k ht r ⟨1024 * Cert.Spec.tI k + r.val, h⟩ (by
    show _ = 1024 * (tbl m 0 (ix1 k)).toNat + r.val
    rw [tbl_zero, lit0_tI])]
  exact V4_apply m c b _
theorem iblk1_apply (c : Dev nD) (b : Fin 4) (k : Fin 10) (t : Fin (cfgM m).N) (ht : t.val = 10 * b.val + k.val) (r : Fin 1024) (h : 1024 * Cert.Spec.tI k + r.val < 4096) :
    (iblk m c 1 t : S1x1x1024.Idx → BitVec 32) (ix3 (0 : Fin 1) (0 : Fin 1) r) = lK m c b ⟨1024 * Cert.Spec.tI k + r.val, h⟩ := by
  unfold iblk
  show (V (F := Ideal) m c main_v5 : S4x1x4096.Idx → _) ((((cfg0 (adm m)).win 1).blk t).view.emb (ix3 (0 : Fin 1) (0 : Fin 1) r)) = _
  rw [emb1 (adm m) t b k ht r ⟨1024 * Cert.Spec.tI k + r.val, h⟩ (by
    show _ = 1024 * (tbl m 0 (ix1 k)).toNat + r.val
    rw [tbl_zero, lit0_tI])]
  exact V5_apply m c b _
theorem iblk2_apply (c : Dev nD) (b : Fin 4) (k : Fin 10) (t : Fin (cfgM m).N) (ht : t.val = 10 * b.val + k.val) (r : Fin 1024) (h : 1024 * Cert.Spec.tJ k + r.val < 4096) :
    (iblk m c 2 t : S1x1x1024.Idx → EReal) (ix3 (0 : Fin 1) (0 : Fin 1) r) = xK m c b ⟨1024 * Cert.Spec.tJ k + r.val, h⟩ := by
  unfold iblk
  show (V (F := Ideal) m c main_v4 : S4x1x4096.Idx → _) ((((cfg0 (adm m)).win 2).blk t).view.emb (ix3 (0 : Fin 1) (0 : Fin 1) r)) = _
  rw [emb2 (adm m) t b k ht r ⟨1024 * Cert.Spec.tJ k + r.val, h⟩ (by
    show _ = 1024 * (tbl m 1 (ix1 k)).toNat + r.val
    rw [tbl_one, lit1_tJ])]
  exact V4_apply m c b _
theorem iblk3_apply (c : Dev nD) (b : Fin 4) (k : Fin 10) (t : Fin (cfgM m).N) (ht : t.val = 10 * b.val + k.val) (r : Fin 1024) (h : 1024 * Cert.Spec.tJ k + r.val < 4096) :
    (iblk m c 3 t : S1x1x1024.Idx → BitVec 32) (ix3 (0 : Fin 1) (0 : Fin 1) r) = lK m c b ⟨1024 * Cert.Spec.tJ k + r.val, h⟩ := by
  unfold iblk
  show (V (F := Ideal) m c main_v5 : S4x1x4096.Idx → _) ((((cfg0 (adm m)).win 3).blk t).view.emb (ix3 (0 : Fin 1) (0 : Fin 1) r)) = _
  rw [emb3 (adm m) t b k ht r ⟨1024 * Cert.Spec.tJ k + r.val, h⟩ (by
    show _ = 1024 * (tbl m 1 (ix1 k)).toNat + r.val
    rw [tbl_one, lit1_tJ])]
  exact V5_apply m c b _

/-- The grid point of batch row `b`, tile step 9. -/
noncomputable def tLast (b : Fin 4) : Fin (cfgM m).N := ⟨10 * b.val + 9, by have := N_M m; have := b.isLt; omega⟩

/-- The lines after the region, read at the ideal values: lane 0 of the four rows' blocks summed from zero, over four. -/
theorem tailRes_eq (o : S4x1x128.Idx → EReal) (j : S_.Idx) :
    tailRes (F := Ideal) o j = Ideal.div (∑ b : Fin 4, o (ix3 b (0 : Fin 1) (0 : Fin 128))) Cert.Spec.c4 := by
  unfold tailRes
  show Ideal.div (Ideal.hostReduceAdd reducesTo_S4_S_d0 _ (Ideal.ofBits .f32 0x00000000#32) j) (Ideal.ofBits .f32 0x40800000#32) = _
  rw [Ideal.hostReduceAdd_total reducesTo_S4_S_d0 (fun b => b.elim0) _ _ j, Ideal.ofBits_zero_f32, zero_add,
    ← Equiv.sum_comp (idxEquiv1 (n := 4)).symm]
  refine congrArg (fun s => Ideal.div s Cert.Spec.c4) (Finset.sum_congr rfl fun b _ => ?_)
  show shapeCast S4 (extractStridedSlice S4x1x1 ![0, 0, 0] o slices_S4x1x128_S4x1x1_0_0_0) shapeCasts_S4x1x1_S4 (ix1 b) = _
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ _ _ _ (ix3 b (0 : Fin 1) (0 : Fin 128)) fun a => ?_
    match a with
    | ⟨0, _⟩ => show b.val = 0 + b.val; omega
    | ⟨1, _⟩ => rfl
    | ⟨2, _⟩ => rfl

/-- What point `t` leaves in the output block. -/
def outF (c : Dev nD) (t : Fin (cfgM m).N) : S1x1x128.Idx → EReal := (outsAt m c t.val t.isLt).1

/-- The output array the write-backs build: row `b`'s block is what the drain step of row `b` stored. -/
def outG (c : Dev nD) : S4x1x128.Idx → EReal := fun i => outF m c (tLast m (i 0)) (ix3 (0 : Fin 1) (0 : Fin 1) (i 2))

/-- A point that writes the output block back (tile step 9) writes its own block of that array. -/
theorem flushed4_eq (c : Dev nD) (t : Fin (cfgM m).N) (hf : ((cfgM m).win 4).flush t = true) :
    (dats m 0 c).flushed 4 t = (((cfgM m).win 4).blk t).view.read (Elt Ideal) (outG m c) := by
  have h9 := (flush4 (adm m) t).mp hf
  have hN := N_M m
  have ht := t.isLt
  show ((cfgM m).win 4).cut (grid0.coords t) ((dats m 0 c).after 4 t) = _
  rw [after4]
  refine funext fun (y : S1x1x128.Idx) => ?_
  show outF m c t y = outG m c ((((cfg0 (adm m)).win 4).blk t).view.emb y)
  obtain ⟨l, rfl⟩ := eq_ix3_lane y
  rw [emb4 (adm m) t ⟨t.val / 10, by omega⟩ rfl]
  show _ = outF m c (tLast m ⟨t.val / 10, by omega⟩) (ix3 (0 : Fin 1) (0 : Fin 1) l)
  have e : tLast m ⟨t.val / 10, by omega⟩ = t := Fin.ext (by show 10 * (t.val / 10) + 9 = t.val; omega)
  rw [e]

/-- So the final output array at `[b, 0, 0]` is lane 0 of what the drain step of row `b` stored. -/
theorem arr4_apply (c : Dev nD) (b : Fin 4) :
    (dats m 0 c).arrAt 4 (cfgM m).N (ix3 b (0 : Fin 1) (0 : Fin 128)) = outF m c (tLast m b) (ix3 (0 : Fin 1) (0 : Fin 1) (0 : Fin 128)) := by
  have hb := b.isLt
  refine (dats m 0 c).arrAt_apply_of_mem 4 (outG m c) (flushed4_eq m c) (cfgM m).N (tLast m b) (ix3 b (0 : Fin 1) (0 : Fin 128)) (tLast m b).isLt
    ((flush4 (adm m) (tLast m b)).mpr (by show (10 * b.val + 9) % 10 = 9; omega)) ?_
  rw [← emb4 (adm m) (tLast m b) b (by show (10 * b.val + 9) / 10 = b.val; omega) (0 : Fin 128)]
  exact View.emb_mem_set _ _

/-- What the lines after the region compute from the final output array: the mean over the four rows of lane 0 of
    what each row's drain step stored. -/
theorem tailRes_arr (c : Dev nD) (j : S_.Idx) :
    tailRes (F := Ideal) ((dats m 0 c).arrAt 4 (cfgM m).N) j
      = Ideal.div (∑ b : Fin 4, ((outsAt m c (tLast m b).val (tLast m b).isLt).1 : S1x1x128.Idx → EReal) (ix3 (0 : Fin 1) (0 : Fin 1) (0 : Fin 128))) Cert.Spec.c4 := by
  refine (tailRes_eq ((dats m 0 c).arrAt 4 (cfgM m).N) j).trans ?_
  exact congrArg (fun s => Ideal.div s Cert.Spec.c4) (Finset.sum_congr rfl fun b _ => arr4_apply m c b)

end Cert.KernelIdeal.Hand

end
-- ==== Proof.KI.ValueTri.lean ====
/-
  One row's strict-upper-triangle sum, tile by tile.

  The pair table of a row is 4096 × 4096 and only its entries strictly above the diagonal count; cut into sixteen
  1024 × 1024 tiles, the six tiles below the diagonal hold nothing, and the other ten are the tiles
  `(tI k, tJ k)`, each summed with the strictly-above-the-diagonal test on the global indices.
-/
import proofs.«400616_j27212912788010_3_alg».proof.Proof.Spec

noncomputable section

namespace Cert.KernelIdeal.Hand

open Cert.Spec

/-- An entry of row tile `tI k` or column tile `tJ k` is an entry of the row. -/
theorem tI_bound (k : Fin 10) (r : Fin 1024) : 1024 * tI k + r.val < 4096 := by
  have := tI_lt k; have := r.isLt; omega
theorem tJ_bound (k : Fin 10) (r : Fin 1024) : 1024 * tJ k + r.val < 4096 := by
  have := tJ_lt k; have := r.isLt; omega

/-- The masked pair-loss sum of tile `k` of a row with predictions `x` and labels `l`. -/
def rowTile (x : Fin 4096 → EReal) (l : Fin 4096 → BitVec 32) (k : Fin 10) : EReal :=
  ∑ r : Fin 1024, ∑ cc : Fin 1024,
    if 1024 * tI k + r.val < 1024 * tJ k + cc.val then
      pairLoss (x ⟨1024 * tI k + r.val, tI_bound k r⟩) (x ⟨1024 * tJ k + cc.val, tJ_bound k cc⟩)
        (l ⟨1024 * tI k + r.val, tI_bound k r⟩ = l ⟨1024 * tJ k + cc.val, tJ_bound k cc⟩)
    else 0

/-- The pair table continued by zero outside the square: a function of two natural numbers that vanishes on and
    below the diagonal. -/
def pairTable (x : Fin 4096 → EReal) (l : Fin 4096 → BitVec 32) (i j : ℕ) : EReal :=
  if h : i < 4096 ∧ j < 4096 then
    (if i < j then pairLoss (x ⟨i, h.1⟩) (x ⟨j, h.2⟩) (l ⟨i, h.1⟩ = l ⟨j, h.2⟩) else 0)
  else 0

theorem pairTable_lower (x : Fin 4096 → EReal) (l : Fin 4096 → BitVec 32) (i j : ℕ) (h : j ≤ i) :
    pairTable x l i j = 0 := by
  unfold pairTable
  split
  · rw [if_neg (Nat.not_lt.mpr h)]
  · rfl

theorem pairTable_in (x : Fin 4096 → EReal) (l : Fin 4096 → BitVec 32) (i j : ℕ) (hi : i < 4096) (hj : j < 4096) :
    pairTable x l i j = if i < j then pairLoss (x ⟨i, hi⟩) (x ⟨j, hj⟩) (l ⟨i, hi⟩ = l ⟨j, hj⟩) else 0 := by
  unfold pairTable
  rw [dif_pos ⟨hi, hj⟩]

/-- The row's triangle sum is the sum of its ten tiles. -/
theorem tri_eq_tiles (x : Fin 4096 → EReal) (l : Fin 4096 → BitVec 32) :
    tri x l = ∑ k : Fin 10, rowTile x l k := by
  have h1 : tri x l = ∑ i : Fin 4096, ∑ j : Fin 4096, pairTable x l i.val j.val := by
    unfold tri
    refine Finset.sum_congr rfl (fun i _ => Finset.sum_congr rfl (fun j _ => ?_))
    rw [pairTable_in x l i.val j.val i.isLt j.isLt]
  rw [h1, sum_square_eq_tiles (pairTable x l) (pairTable_lower x l)]
  refine Finset.sum_congr rfl (fun k _ => ?_)
  unfold rowTile
  refine Finset.sum_congr rfl (fun r _ => Finset.sum_congr rfl (fun cc _ => ?_))
  rw [pairTable_in x l _ _ (tI_bound k r) (tJ_bound k cc)]

end Cert.KernelIdeal.Hand

end
-- ==== Proof.KI.Value.lean ====
/-
  The kernel program's result at the ideal instance is the loss `Cert.Spec.final` of the sampled rows.

  Within batch row `b` the accumulator after tile step `k` is the sum of the tile sums of steps `0 … k` (reset at
  step 0, added to at every later step); the ten tiles are the tiles on and above the diagonal of the 4096 × 4096
  pair table, whose other entries are masked to zero, so after step 9 the accumulator is the row's strict-upper-
  triangle sum; the drain divides it by the number of pairs and the lines after the region average the four rows.
-/
import proofs.«400616_j27212912788010_3_alg».proof.Proof.KI.ValuePieces
import proofs.«400616_j27212912788010_3_alg».proof.Proof.KI.ValueBlocks
import proofs.«400616_j27212912788010_3_alg».proof.Proof.KI.ValueTri

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The tile step of a grid point is its position modulo ten (the last axis runs fastest). -/
theorem coords_step (t : Fin grid0.N) : (grid0.coords t 1).val = t.val % 10 := by
  show t.val / grid0.stride 1 % grid0.bound 1 = t.val % 10
  have h1 : grid0.stride 1 = 1 := by decide
  have h2 : grid0.bound 1 = 10 := by decide
  rw [h1, h2, Nat.div_one]

/-- The tile sum of the blocks staged at point `t`, for tile step `k`. -/
noncomputable def tileAt (c : Dev nD) (t : Fin (cfgM m).N) (k : Fin 10) : EReal :=
  tileSum (iblk m c 0 t) (iblk m c 1 t) (iblk m c 2 t) (iblk m c 3 t) k

/-- The accumulator's one entry after the point at position `n`. -/
noncomputable def accAt (c : Dev nD) (n : ℕ) (hn : n < (cfgM m).N) : EReal :=
  (outsAt m c n hn).2 (ix2 (0 : Fin 1) (0 : Fin 1))

theorem accAt_congr (c : Dev nD) (n n' : ℕ) (hn : n < (cfgM m).N) (hn' : n' < (cfgM m).N) (h : n = n') :
    accAt m c n hn = accAt m c n' hn' := by
  subst h; rfl

/-- After a reset point: the tile's sum. -/
theorem accAt_reset (c : Dev nD) (t : Fin (cfgM m).N) (k : Fin 10) (hk : t.val % 10 = k.val) (h0 : t.val % 10 = 0) :
    accAt m c t.val t.isLt = tileAt m c t k := by
  unfold accAt tileAt
  rw [outsAt_A m c t h0 (by omega)]
  dsimp only
  exact soutA_val c _ _ _ _ _ _ _ _ _ _ _ _ _ _ _ _ _ _ _ _ _ k ((coords_step t).trans hk) (tbl_zero m) (tbl_one m)

/-- After a middle point: what the point before left, plus the tile's sum. -/
theorem accAt_middle (c : Dev nD) (t : Fin (cfgM m).N) (k : Fin 10) (hk : t.val % 10 = k.val)
    (h0 : ¬t.val % 10 = 0) (h9 : ¬t.val % 10 = 9) :
    accAt m c t.val t.isLt
      = accAt m c (t.val - 1) (Nat.lt_of_le_of_lt (Nat.sub_le _ _) t.isLt) + tileAt m c t k := by
  unfold accAt tileAt
  rw [outsAt_B m c t h0 h9]
  dsimp only
  exact soutB_val c _ _ _ _ _ _ _ _ _ _ _ _ _ _ _ _ _ _ _ _ _ _ k ((coords_step t).trans hk) (tbl_zero m) (tbl_one m)

/-- The output block after a drain point: what the point before left plus the tile's sum, over the number of
    pairs, in every lane. -/
theorem out_drain (c : Dev nD) (t : Fin (cfgM m).N) (k : Fin 10) (hk : t.val % 10 = k.val)
    (h0 : ¬t.val % 10 = 0) (h9 : t.val % 10 = 9) (l : Fin 128) :
    (outsAt m c t.val t.isLt).1 (ix3 (0 : Fin 1) (0 : Fin 1) l)
      = Ideal.div (accAt m c (t.val - 1) (Nat.lt_of_le_of_lt (Nat.sub_le _ _) t.isLt) + tileAt m c t k)
          Cert.Spec.cN := by
  unfold accAt tileAt
  rw [outsAt_C m c t h0 h9]
  dsimp only
  exact outC_val c _ _ _ _ _ _ _ _ _ _ _ _ _ _ _ _ _ _ _ _ _ _ k ((coords_step t).trans hk) (tbl_zero m) (tbl_one m) l

/-- The grid point of batch row `b`, tile step `k`. -/
noncomputable def pt (b : Fin 4) (k : Fin 10) : Fin (cfgM m).N :=
  ⟨10 * b.val + k.val, by have := N_M m; have := b.isLt; have := k.isLt; omega⟩

/-- The tile sum of the blocks staged at point `10·b + k` is tile `k` of row `b` of the sampled arrays. -/
theorem tileAt_row (c : Dev nD) (b : Fin 4) (k : Fin 10) :
    tileAt m c (pt m b k) k = rowTile (xK m c b) (lK m c b) k := by
  unfold tileAt tileSum rowTile
  refine Finset.sum_congr rfl (fun r _ => Finset.sum_congr rfl (fun cc _ => ?_))
  rw [iblk0_apply m c b k (pt m b k) rfl r (tI_bound k r), iblk1_apply m c b k (pt m b k) rfl r (tI_bound k r),
    iblk2_apply m c b k (pt m b k) rfl cc (tJ_bound k cc), iblk3_apply m c b k (pt m b k) rfl cc (tJ_bound k cc)]

/-- A row's tile sums, continued by zero beyond the ten steps. -/
noncomputable def rowTileN (x : Fin 4096 → EReal) (l : Fin 4096 → BitVec 32) (n : ℕ) : EReal :=
  if h : n < 10 then rowTile x l ⟨n, h⟩ else 0

theorem sum_rowTileN (x : Fin 4096 → EReal) (l : Fin 4096 → BitVec 32) :
    ∑ n ∈ Finset.range 10, rowTileN x l n = ∑ k : Fin 10, rowTile x l k :=
  (Fin.sum_univ_eq_sum_range (rowTileN x l) 10).symm.trans
    (Finset.sum_congr rfl (fun k _ => dif_pos k.isLt))

/-- THE ACCUMULATION: within batch row `b`, after tile step `n ≤ 8` the accumulator holds the sum of the tile sums
    of steps `0 … n`. -/
theorem acc_row (c : Dev nD) (b : Fin 4) : ∀ (n : ℕ) (hn : n < 9) (h : 10 * b.val + n < (cfgM m).N),
    accAt m c (10 * b.val + n) h = ∑ k' ∈ Finset.range (n + 1), rowTileN (xK m c b) (lK m c b) k' := by
  intro n
  induction n with
  | zero =>
    intro hn h
    have e := accAt_reset m c (pt m b ⟨0, by omega⟩) ⟨0, by omega⟩ (by show (10 * b.val + 0) % 10 = 0; omega)
      (by show (10 * b.val + 0) % 10 = 0; omega)
    rw [Finset.sum_range_one]
    refine e.trans ((tileAt_row m c b ⟨0, by omega⟩).trans ?_)
    unfold rowTileN
    rw [dif_pos (by omega)]
  | succ n ih =>
    intro hn h
    have hb := b.isLt
    have e := accAt_middle m c (pt m b ⟨n + 1, by omega⟩) ⟨n + 1, by omega⟩
      (by show (10 * b.val + (n + 1)) % 10 = n + 1; omega)
      (by show ¬(10 * b.val + (n + 1)) % 10 = 0; omega)
      (by show ¬(10 * b.val + (n + 1)) % 10 = 9; omega)
    have hprev := accAt_congr m c ((pt m b ⟨n + 1, by omega⟩).val - 1) (10 * b.val + n)
      (Nat.lt_of_le_of_lt (Nat.sub_le _ _) (pt m b ⟨n + 1, by omega⟩).isLt) (by have := N_M m; omega)
      (by show 10 * b.val + (n + 1) - 1 = 10 * b.val + n; omega)
    rw [Finset.sum_range_succ, ← ih (by omega) (by have := N_M m; omega), ← hprev]
    refine e.trans (congrArg _ ((tileAt_row m c b ⟨n + 1, by omega⟩).trans ?_))
    unfold rowTileN
    rw [dif_pos (by omega)]

/-- What row `b`'s drain step stores: the row's triangle sum over the number of pairs. -/
theorem out_row (c : Dev nD) (b : Fin 4) :
    (outsAt m c (tLast m b).val (tLast m b).isLt).1 (ix3 (0 : Fin 1) (0 : Fin 1) (0 : Fin 128))
      = Ideal.div (Cert.Spec.tri (xK m c b) (lK m c b)) Cert.Spec.cN := by
  have hb := b.isLt
  have e := out_drain m c (tLast m b) ⟨9, by omega⟩ (by show (10 * b.val + 9) % 10 = 9; omega)
    (by show ¬(10 * b.val + 9) % 10 = 0; omega) (by show (10 * b.val + 9) % 10 = 9; omega) (0 : Fin 128)
  have hprev := accAt_congr m c ((tLast m b).val - 1) (10 * b.val + 8)
    (Nat.lt_of_le_of_lt (Nat.sub_le _ _) (tLast m b).isLt) (by have := N_M m; omega)
    (by show 10 * b.val + 9 - 1 = 10 * b.val + 8; omega)
  rw [e, hprev, acc_row m c b 8 (by omega) (by have := N_M m; omega)]
  have ht : tileAt m c (tLast m b) ⟨9, by omega⟩ = rowTileN (xK m c b) (lK m c b) 9 := by
    refine (tileAt_row m c b ⟨9, by omega⟩).trans ?_
    unfold rowTileN
    rw [dif_pos (by omega)]
  rw [ht, ← Finset.sum_range_succ, sum_rowTileN, ← tri_eq_tiles]

/-- THE KERNEL'S VALUE. -/
theorem kernel_value (c : Dev nD) (j : S_.Idx) :
    tailRes (F := Ideal) ((dats m 0 c).arrAt 4 (cfgM m).N) j = Cert.Spec.final (xK m c) (lK m c) := by
  rw [tailRes_arr m c j]
  unfold Cert.Spec.final
  exact congrArg (fun s => Ideal.div s Cert.Spec.c4) (Finset.sum_congr rfl (fun b _ => out_row m c b))

end Cert.KernelIdeal.Hand

end
-- ==== Proof.KI.Gather.lean ====
/-
  The two gathers are one function of the arguments in both programs: the kernel's host prefix and the reference
  begin with the same `take_along_axis` chains (negative indices wrapped, a range test, the gather, a fill for
  out-of-range indices) on the same arguments, so the sampled predictions and labels the kernel's region finds are
  the reference's gather stages of the launch contents.
-/
import proofs.«400616_j27212912788010_3_alg».proof.Proof.KI.Setup
import proofs.«400616_j27212912788010_3_alg».proof.Proof.RefRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.ReferenceIdeal.ReadP in
/-- The sampled predictions at the region's entry are the reference's first gather stage of the arguments. -/
theorem pred_eq (c : Dev nD) :
    (V m c main_v2 : (⟨S4x4096, .f32⟩ : BufTy).Contents (Elt F))
      = Cert.ReferenceIdeal.ReadP.val_main_v1 (F := F) (m ((c.tc : Thread nD τ).loc main_arg0)) (m ((c.tc : Thread nD τ).loc main_arg2)) := by
  -- the kernel side: the contents of the gather's result after the fifty operations, as one composed term
  dsimp only [V, V0]
  simp only [hostOps0, hostOps0_1, hostOps0_2, hostOps0_3, List.flatten_cons, List.flatten_nil, List.append_nil, List.cons_append, List.nil_append]
  after_results_simp
  simp only [StableHlo.TRef.ofBuf, StableHlo.TRef.toBuf, cast_eq]
  -- the reference side: its stages opened down to the same operations on the same arguments
  unfold val_main_v1 val_main_call0_v14 val_main_call0_cst val_main_call0_v13 val_main_call0_v12 val_main_call0_c_3
    val_main_call0_v11 val_main_call0_v10 val_main_call0_v9 val_main_call0_v8 val_main_call0_c_1 val_main_call0_v7
    val_main_call0_v6 val_main_call0_c_2 val_main_call0_v5 val_main_call0_v4 val_main_call0_v3 val_main_call0_v2
    val_main_call0_c_0 val_main_call0_v1 val_main_call0_v0 val_main_call0_c val_main_v0
  rfl

open Cert.ReferenceIdeal.ReadP in
/-- The sampled labels at the region's entry are the reference's second gather stage of the arguments. -/
theorem lab_eq (c : Dev nD) :
    (V m c main_v3 : (⟨S4x4096, .i32⟩ : BufTy).Contents (Elt F))
      = Cert.ReferenceIdeal.ReadP.val_main_v3 (F := F) (m ((c.tc : Thread nD τ).loc main_arg1)) (m ((c.tc : Thread nD τ).loc main_arg2)) := by
  dsimp only [V, V0]
  simp only [hostOps0, hostOps0_1, hostOps0_2, hostOps0_3, List.flatten_cons, List.flatten_nil, List.append_nil, List.cons_append, List.nil_append]
  after_results_simp
  simp only [StableHlo.TRef.ofBuf, StableHlo.TRef.toBuf, cast_eq]
  unfold val_main_v3 val_main_call1_v14 val_main_call1_c_4 val_main_call1_v13 val_main_call1_v12 val_main_call1_c_3
    val_main_call1_v11 val_main_call1_v10 val_main_call1_v9 val_main_call1_v8 val_main_call1_c_1 val_main_call1_v7
    val_main_call1_v6 val_main_call1_c_2 val_main_call1_v5 val_main_call1_v4 val_main_call1_v3 val_main_call1_v2
    val_main_call1_c_0 val_main_call1_v1 val_main_call1_v0 val_main_call1_c val_main_v2
  rfl

end Cert.KernelIdeal.Hand

end
-- ==== Proof.LibReduceTwoAxes.lean ====
/-
  A host float sum over the two trailing axes of a rank-3 array, read at the ideal instance.

  `stablehlo.reduce … add` over axes `[1, 2]` of an `[n0, n1, n2]` array into `[n0]` gives, at row `a`, the
  initial value plus the sum of every element of that row's `n1 × n2` table.  The source indices that drop to the
  result index `a` are exactly the triples `(a, p, q)`; pairing each with its two trailing coordinates turns the
  sum over that set into the double sum over `p` and `q`.  Nothing is used of the extents: the statement holds at any
  `n0`, `n1`, `n2`.
-/
import Idealize.ShloMosaic.Lib.ValueIdx
import Idealize.ShloMosaic.PureOps.Ideal.Laws

noncomputable section

open scoped BigOperators

namespace Idealize.ShloMosaic.Ideal

open Idealize.ShloMosaic Idealize.ShloMosaic.ValueIdx

/-- An index of an `[n0, n1, n2]` array drops (axes 1 and 2 removed) to `j` exactly when its leading coordinate
    is `j`'s. -/
theorem drop_trailing_two_iff {n0 n1 n2 : Nat}
    (h : (⟨3, ![n0, n1, n2]⟩ : Shape).ReducesTo [1, 2] ⟨1, ![n0]⟩)
    (i : (⟨3, ![n0, n1, n2]⟩ : Shape).Idx) (j : (⟨1, ![n0]⟩ : Shape).Idx) :
    h.drop i = j ↔ i 0 = j 0 := by
  have hv : (h.drop i 0 : Nat) = i 0 := Shape.ReducesTo.drop_apply_val h i 0
  constructor
  · intro e; rw [e] at hv; exact Fin.ext hv.symm
  · intro e; funext b; have hb : b = 0 := Subsingleton.elim _ _; subst hb; exact Fin.ext (by rw [hv, e])

/-- The host's sum over the two trailing axes of a rank-3 array, at the ideal instance: the initial value plus the
    double sum over the two trailing coordinates. -/
theorem hostReduceAdd_trailing_two {n0 n1 n2 : Nat}
    (h : (⟨3, ![n0, n1, n2]⟩ : Shape).ReducesTo [1, 2] ⟨1, ![n0]⟩)
    (x : (⟨3, ![n0, n1, n2]⟩ : Shape).Idx → EReal) (init : EReal) (j : (⟨1, ![n0]⟩ : Shape).Idx) :
    Ideal.hostReduceAdd h x init j = init + ∑ p : Fin n1, ∑ q : Fin n2, x (ix3 (j 0) p q) := by
  unfold Ideal.hostReduceAdd
  refine congrArg (init + ·) ?_
  rw [← Fintype.sum_prod_type' (f := fun (p : Fin n1) (q : Fin n2) => x (ix3 (j 0) p q))]
  refine Finset.sum_nbij' (fun i => (i 1, i 2)) (fun pq => ix3 (j 0) pq.1 pq.2) ?_ ?_ ?_ ?_ ?_
  · intro i _; exact Finset.mem_univ _
  · intro pq _; exact Finset.mem_filter.2 ⟨Finset.mem_univ _, (drop_trailing_two_iff h _ j).2 rfl⟩
  · intro i hi
    have h0 : i 0 = j 0 := (drop_trailing_two_iff h i j).1 (Finset.mem_filter.1 hi).2
    funext a
    match a with
    | ⟨0, _⟩ => exact h0.symm
    | ⟨1, _⟩ => rfl
    | ⟨2, _⟩ => rfl
  · intro pq _; rfl
  · intro i hi
    have h0 : i 0 = j 0 := (drop_trailing_two_iff h i j).1 (Finset.mem_filter.1 hi).2
    refine congrArg x ?_
    funext a
    match a with
    | ⟨0, _⟩ => exact h0
    | ⟨1, _⟩ => rfl
    | ⟨2, _⟩ => rfl

end Idealize.ShloMosaic.Ideal

end
-- ==== Proof.RefSideMask.lean ====
/-
  The reference's strict-upper-triangle mask, read at one element.

  The mask is built from two index ramps over a 4096 × 4096 square: where "row index + 0 ≥ column index" (a signed
  comparison of 32-bit words) it is false, elsewhere true.  Both indices are below 4096, so the words compare as the
  numbers they hold, and the bit at row `i`, column `j` is set exactly when `i < j`.  Broadcast over the batch rows,
  the mask at `(b, i, j)` is that bit.
-/
import proofs.«400616_j27212912788010_3_alg».proof.Proof.RefRead
import proofs.«400616_j27212912788010_3_alg».proof.Proof.Spec
import Idealize.ShloMosaic.Lib.ValueIdx
import Idealize.ShloMosaic.PureOps.Ideal.Laws
import Idealize.ShloMosaic.Lib.StableHlo.Predicate

noncomputable section

namespace Cert.RefSide

open Cert.ReferenceIdeal Cert.ReferenceIdeal.Gen Cert.ReferenceIdeal.ReadP Idealize.ShloMosaic Idealize.ShloMosaic.TcCoe Idealize.ShloMosaic.ValueIdx

/-- A ramp value below 4096 is held exactly by its 32-bit word. -/
theorem toNat_ramp (i : Fin 4096) : (BitVec.ofNat 32 i.val).toNat = i.val := by
  rw [BitVec.toNat_ofNat]; have := i.isLt; omega

/-- The square mask at row `i`, column `j`: set exactly when `i < j`. -/
theorem triu_at (i j : Fin 4096) :
    val_main_v48 (F := Ideal) (ix2 i j) = if i.val < j.val then 1#1 else 0#1 := by
  rw [val_main_v48_apply, val_main_call6_v4_apply, val_main_call6_v2_apply, val_main_call6_v0_apply,
    val_main_call6_v1_apply, val_main_call6_c_apply, val_main_call6_v3_apply, val_main_call6_v5_apply,
    val_main_call6_c_0_apply, val_main_v47_apply, val_main_c_apply]
  show Scalar.select (IntOp.cmpi .sge (BitVec.ofNat 32 i.val + 0#32) (BitVec.ofNat 32 j.val)) 0#1 1#1 = _
  rw [BitVec.add_zero]
  have hi : (BitVec.ofNat 32 i.val).toNat < 2 ^ 31 := by rw [toNat_ramp]; have := i.isLt; omega
  have hj : (BitVec.ofNat 32 j.val).toNat < 2 ^ 31 := by rw [toNat_ramp]; have := j.isLt; omega
  have hc := StableHlo.Predicate.sge_iff_toNat hi hj
  rw [toNat_ramp, toNat_ramp] at hc
  by_cases h : i.val < j.val
  · rw [if_pos h, eq_zero_of_ne_one (fun e => absurd (hc.1 e) (by omega)), select_zero]
  · rw [if_neg h, hc.2 (by omega), select_one]

/-- The mask broadcast over the batch rows, at `(b, i, j)`. -/
theorem mask_at (b : Fin 4) (i j : Fin 4096) :
    val_main_call7_v1 (F := Ideal) (ix3 b i j) = if i.val < j.val then 1#1 else 0#1 := by
  rw [val_main_call7_v1_apply]
  have e : idx_main_call7_v1 (ix3 b i j) = ix2 i j :=
    funext fun a => by match a with | ⟨0, _⟩ => rfl | ⟨1, _⟩ => rfl
  rw [e, triu_at]

end Cert.RefSide

end
-- ==== Proof.RefSideElem.lean ====
/-
  The reference's table of pair terms, read at one element `(b, i, j)`.

  With `x` the sampled predictions of row `b` and `l` its sampled labels, the reference forms
  `p = max (x i - max (x j) 0) 0`, its absolute value `|p| = max p (-p)`, the 0/1 float `t` of "l i = l j", and the
  blend `(3·t)·h(|p|) + (1 - t)·h(1 - |p|)` with `h` the two-branch function `Cert.Spec.huber`.  Each stage is read
  at the index by the stage's own reading lemma; the broadcasts send `(b, i, j)` to `(b, i)` for the row operand and
  to `(b, j)` for the column operand.  The weight `t` is exactly `1` or `0`, so the blend is the selected branch
  (`Cert.Spec.pairBlend_one`, `Cert.Spec.pairBlend_zero`), and outside the strict upper triangle the mask
  replaces the term by zero.
-/
import proofs.«400616_j27212912788010_3_alg».proof.Proof.RefRead
import proofs.«400616_j27212912788010_3_alg».proof.Proof.Spec
import Idealize.ShloMosaic.Lib.ValueIdx
import Idealize.ShloMosaic.PureOps.Ideal.Laws
import Idealize.ShloMosaic.Lib.StableHlo.Predicate
import proofs.«400616_j27212912788010_3_alg».proof.Proof.RefSideMask

noncomputable section

namespace Cert.RefSide

open Cert.ReferenceIdeal Cert.ReferenceIdeal.Gen Cert.ReferenceIdeal.ReadP Idealize.ShloMosaic Idealize.ShloMosaic.TcCoe Idealize.ShloMosaic.ValueIdx

variable (a0 : (⟨S4x1x512x512, .f32⟩ : BufTy).Contents (Elt Ideal)) (a1 : (⟨S4x1x512x512, .i32⟩ : BufTy).Contents (Elt Ideal))
  (a2 : (⟨S4x4096, .i32⟩ : BufTy).Contents (Elt Ideal))

/-- The row operand at `(b, i, j)` is the prediction at `(b, i)`. -/
theorem rowPred_at (b : Fin 4) (i j : Fin 4096) :
    val_main_v7 (F := Ideal) a0 a2 (ix3 b i j) = val_main_v1 (F := Ideal) a0 a2 (ix2 b i) := by
  rw [val_main_v7_apply, val_main_v4_apply]
  exact congrArg (val_main_v1 (F := Ideal) a0 a2) (funext fun a => by match a with | ⟨0, _⟩ => rfl | ⟨1, _⟩ => rfl)

/-- The column operand at `(b, i, j)` is the relu'd prediction at `(b, j)`. -/
theorem colPred_at (b : Fin 4) (i j : Fin 4096) :
    val_main_v8 (F := Ideal) a0 a2 (ix3 b i j) = max (val_main_v1 (F := Ideal) a0 a2 (ix2 b j)) 0 := by
  rw [val_main_v8_apply, val_main_v6_apply, val_main_v5_apply, val_main_call2_v0_apply, val_main_call2_cst_apply,
    Ideal.maximumf_def, Ideal.ofBits_def, Ideal.ofBits_zero_f32]
  exact congrArg (fun k => max (val_main_v1 (F := Ideal) a0 a2 k) 0)
    (funext fun a => by match a with | ⟨0, _⟩ => rfl | ⟨1, _⟩ => rfl)

/-- The relu'd difference at `(b, i, j)`. -/
theorem gap_at (b : Fin 4) (i j : Fin 4096) :
    val_main_v10 (F := Ideal) a0 a2 (ix3 b i j)
      = Cert.Spec.gap (val_main_v1 (F := Ideal) a0 a2 (ix2 b i)) (val_main_v1 (F := Ideal) a0 a2 (ix2 b j)) := by
  rw [val_main_v10_apply, val_main_v9_apply, rowPred_at, colPred_at, val_main_call3_v0_apply, val_main_call3_cst_apply,
    Ideal.maximumf_def, Ideal.subf_def, Ideal.ofBits_def, Ideal.ofBits_zero_f32]
  rfl

/-- Its absolute value. -/
theorem abs_at (b : Fin 4) (i j : Fin 4096) :
    val_main_v11 (F := Ideal) a0 a2 (ix3 b i j)
      = max (Cert.Spec.gap (val_main_v1 (F := Ideal) a0 a2 (ix2 b i)) (val_main_v1 (F := Ideal) a0 a2 (ix2 b j)))
          (-(Cert.Spec.gap (val_main_v1 (F := Ideal) a0 a2 (ix2 b i)) (val_main_v1 (F := Ideal) a0 a2 (ix2 b j)))) := by
  rw [val_main_v11_apply, gap_at]
  rfl

/-- The first two-branch stage is `h` of the absolute value, at every index. -/
theorem huberAbs_eq (I : S4x4096x4096.Idx) :
    val_main_v29 (F := Ideal) a0 a2 I = Cert.Spec.huber (val_main_v11 (F := Ideal) a0 a2 I) := by
  rw [val_main_v29_apply, val_main_v21_apply, val_main_v24_apply, val_main_v22_apply, val_main_v28_apply,
    val_main_v26_apply, val_main_v20_apply, val_main_cst_0_apply, val_main_v23_apply, val_main_cst_1_apply,
    val_main_v25_apply, val_main_cst_2_apply, val_main_v27_apply, val_main_cst_3_apply]
  generalize val_main_v11 (F := Ideal) a0 a2 I = y
  rfl

/-- One minus the absolute value, at every index. -/
theorem oneSub_eq (I : S4x4096x4096.Idx) :
    val_main_v34 (F := Ideal) a0 a2 I = Cert.Spec.c1 - val_main_v11 (F := Ideal) a0 a2 I := by
  rw [val_main_v34_apply, val_main_v33_apply, val_main_cst_5_apply]
  rfl

/-- The second two-branch stage is `h` of one minus the absolute value, at every index. -/
theorem huberOneSub_eq (I : S4x4096x4096.Idx) :
    val_main_v44 (F := Ideal) a0 a2 I = Cert.Spec.huber (val_main_v34 (F := Ideal) a0 a2 I) := by
  rw [val_main_v44_apply, val_main_v36_apply, val_main_v39_apply, val_main_v37_apply, val_main_v43_apply,
    val_main_v41_apply, val_main_v35_apply, val_main_cst_6_apply, val_main_v38_apply, val_main_cst_7_apply,
    val_main_v40_apply, val_main_cst_8_apply, val_main_v42_apply, val_main_cst_9_apply]
  generalize val_main_v34 (F := Ideal) a0 a2 I = y
  rfl

/-- The weight at `(b, i, j)`: the float of the one-bit "labels agree". -/
theorem weight_at (b : Fin 4) (i j : Fin 4096) :
    val_main_v17 (F := Ideal) a1 a2 (ix3 b i j)
      = if val_main_v3 (F := Ideal) a1 a2 (ix2 b i) = val_main_v3 (F := Ideal) a1 a2 (ix2 b j) then (1 : EReal) else 0 := by
  rw [val_main_v17_apply, val_main_v16_apply, val_main_v14_apply, val_main_v12_apply, val_main_v15_apply, val_main_v13_apply]
  have ei : idx_main_v12 (idx_main_v14 (ix3 b i j)) = ix2 b i :=
    funext fun a => by match a with | ⟨0, _⟩ => rfl | ⟨1, _⟩ => rfl
  have ej : idx_main_v13 (idx_main_v15 (ix3 b i j)) = ix2 b j :=
    funext fun a => by match a with | ⟨0, _⟩ => rfl | ⟨1, _⟩ => rfl
  rw [ei, ej]
  generalize val_main_v3 (F := Ideal) a1 a2 (ix2 b i) = u
  generalize val_main_v3 (F := Ideal) a1 a2 (ix2 b j) = v
  show (((IntOp.cmpi .eq u v).toNat : ℝ) : EReal) = _
  by_cases h : u = v
  · rw [if_pos h, StableHlo.Predicate.cmpi_eq_iff.2 h]
    show (((1 : ℕ) : ℝ) : EReal) = 1
    rw [Nat.cast_one, EReal.coe_one]
  · rw [if_neg h, eq_zero_of_ne_one (fun e => h (StableHlo.Predicate.cmpi_eq_iff.1 e))]
    show (((0 : ℕ) : ℝ) : EReal) = 0
    rw [Nat.cast_zero, EReal.coe_zero]

/-- The blended pair term at `(b, i, j)`. -/
theorem blend_at (b : Fin 4) (i j : Fin 4096) :
    val_main_v46 (F := Ideal) a0 a1 a2 (ix3 b i j)
      = Cert.Spec.pairBlend (val_main_v1 (F := Ideal) a0 a2 (ix2 b i)) (val_main_v1 (F := Ideal) a0 a2 (ix2 b j))
          (val_main_v17 (F := Ideal) a1 a2 (ix3 b i j)) := by
  rw [val_main_v46_apply, val_main_v30_apply, val_main_v19_apply, val_main_v18_apply, val_main_cst_apply,
    val_main_v45_apply, val_main_v32_apply, val_main_v31_apply, val_main_cst_4_apply, huberAbs_eq, huberOneSub_eq,
    oneSub_eq, abs_at]
  generalize val_main_v17 (F := Ideal) a1 a2 (ix3 b i j) = t
  generalize val_main_v1 (F := Ideal) a0 a2 (ix2 b i) = x
  generalize val_main_v1 (F := Ideal) a0 a2 (ix2 b j) = y
  rfl

/-- The masked pair term at `(b, i, j)`: the pair's loss inside the strict upper triangle, zero outside. -/
theorem masked_at (b : Fin 4) (i j : Fin 4096) :
    val_main_v49 (F := Ideal) a0 a1 a2 (ix3 b i j)
      = if i.val < j.val then
          Cert.Spec.pairLoss (val_main_v1 (F := Ideal) a0 a2 (ix2 b i)) (val_main_v1 (F := Ideal) a0 a2 (ix2 b j))
            (val_main_v3 (F := Ideal) a1 a2 (ix2 b i) = val_main_v3 (F := Ideal) a1 a2 (ix2 b j))
        else 0 := by
  rw [val_main_v49_apply, mask_at]
  by_cases h : i.val < j.val
  · rw [if_pos h, if_pos h, select_one, blend_at, weight_at]
    unfold Cert.Spec.pairLoss
    by_cases e : val_main_v3 (F := Ideal) a1 a2 (ix2 b i) = val_main_v3 (F := Ideal) a1 a2 (ix2 b j)
    · rw [if_pos e, if_pos e, Cert.Spec.pairBlend_one]
    · rw [if_neg e, if_neg e, Cert.Spec.pairBlend_zero]
  · rw [if_neg h, if_neg h, select_zero, val_main_call7_v2_apply, val_main_call7_v0_apply, val_main_cst_10_apply,
      Ideal.ofBits_def, Ideal.ofBits_zero_f32]

end Cert.RefSide

end
-- ==== Proof.RefSide.lean ====
/-
  The reference program's result is the loss `Cert.Spec.final` of the sampled predictions and labels.

  The reference gathers 4096 predictions and labels per batch row, forms the full 4096 × 4096 table of pair terms
  `(3·t)·h(|p|) + (1 - t)·h(1 - |p|)` with `t` the 0/1 float of "labels agree", zeroes everything outside the strict
  upper triangle, sums each row's table, divides by the number of pairs and averages the four rows.  With `t ∈ {0, 1}`
  the blend is the selected branch on every extended real, so the result is `Cert.Spec.final`.
-/
import proofs.«400616_j27212912788010_3_alg».proof.Proof.RefRead
import proofs.«400616_j27212912788010_3_alg».proof.Proof.Spec
import Idealize.ShloMosaic.Lib.ValueIdx
import Idealize.ShloMosaic.PureOps.Ideal.Laws
import proofs.«400616_j27212912788010_3_alg».proof.Proof.LibReduceTwoAxes
import proofs.«400616_j27212912788010_3_alg».proof.Proof.RefSideElem

noncomputable section

namespace Cert.RefSide

open Cert.ReferenceIdeal Cert.ReferenceIdeal.Gen Cert.ReferenceIdeal.ReadP Idealize.ShloMosaic Idealize.ShloMosaic.TcCoe Idealize.ShloMosaic.ValueIdx

/-- Row `b`, position `i` of the sampled predictions, as the reference's gather stage holds them. -/
def xR (a0 : (⟨S4x1x512x512, .f32⟩ : BufTy).Contents (Elt Ideal)) (a2 : (⟨S4x4096, .i32⟩ : BufTy).Contents (Elt Ideal))
    (b : Fin 4) (i : Fin 4096) : EReal := val_main_v1 (F := Ideal) a0 a2 (ix2 b i)

/-- Row `b`, position `i` of the sampled labels. -/
def lR (a1 : (⟨S4x1x512x512, .i32⟩ : BufTy).Contents (Elt Ideal)) (a2 : (⟨S4x4096, .i32⟩ : BufTy).Contents (Elt Ideal))
    (b : Fin 4) (i : Fin 4096) : BitVec 32 := val_main_v3 (F := Ideal) a1 a2 (ix2 b i)

/-- A sum over the indices of a one-axis array is the sum over the axis's coordinates. -/
theorem sum_rows {n : Nat} (f : (⟨1, ![n]⟩ : Shape).Idx → EReal) : ∑ j, f j = ∑ b : Fin n, f (ix1 b) :=
  Fintype.sum_equiv ⟨fun j => j 0, fun b => ix1 b, fun j => (eq_ix1 j).symm, fun _ => rfl⟩ _ _
    (fun j => congrArg f (eq_ix1 j))

/-- One row's table summed over both of its axes is the strict-upper-triangle sum of that row's pair losses. -/
theorem rowSum_at (a0 : (⟨S4x1x512x512, .f32⟩ : BufTy).Contents (Elt Ideal)) (a1 : (⟨S4x1x512x512, .i32⟩ : BufTy).Contents (Elt Ideal))
    (a2 : (⟨S4x4096, .i32⟩ : BufTy).Contents (Elt Ideal)) (b : Fin 4) :
    val_main_v50 (F := Ideal) a0 a1 a2 (ix1 b) = Cert.Spec.tri (xR a0 a2 b) (lR a1 a2 b) := by
  unfold val_main_v50
  simp only [Host.reduceAdd, Ideal.hostReduceAdd_def]
  refine (Ideal.hostReduceAdd_trailing_two reducesTo_S4x4096x4096_S4_d1_2 _ _ (ix1 b)).trans ?_
  rw [val_main_cst_11_apply, Ideal.ofBits_def, Ideal.ofBits_zero_f32, zero_add]
  unfold Cert.Spec.tri
  refine Finset.sum_congr rfl fun p _ => Finset.sum_congr rfl fun q _ => ?_
  exact masked_at a0 a1 a2 b p q

/-- One row's loss: its triangle sum over the number of pairs. -/
theorem rowLoss_at (a0 : (⟨S4x1x512x512, .f32⟩ : BufTy).Contents (Elt Ideal)) (a1 : (⟨S4x1x512x512, .i32⟩ : BufTy).Contents (Elt Ideal))
    (a2 : (⟨S4x4096, .i32⟩ : BufTy).Contents (Elt Ideal)) (b : Fin 4) :
    val_main_v52 (F := Ideal) a0 a1 a2 (ix1 b) = Ideal.div (Cert.Spec.tri (xR a0 a2 b) (lR a1 a2 b)) Cert.Spec.cN := by
  rw [val_main_v52_apply, val_main_v51_apply, val_main_cst_12_apply, Ideal.hostDivf_def, Ideal.ofBits_def, rowSum_at]

/-- The reference's result stage is the loss of the sampled rows. -/
theorem ref_value (a0 : (⟨S4x1x512x512, .f32⟩ : BufTy).Contents (Elt Ideal)) (a1 : (⟨S4x1x512x512, .i32⟩ : BufTy).Contents (Elt Ideal))
    (a2 : (⟨S4x4096, .i32⟩ : BufTy).Contents (Elt Ideal)) (i : S_.Idx) :
    val_main_v54 (F := Ideal) a0 a1 a2 i = Cert.Spec.final (xR a0 a2) (lR a1 a2) := by
  rw [val_main_v54_apply, val_main_v53_apply, val_main_cst_13_apply, val_main_cst_14_apply, Ideal.hostDivf_def,
    Ideal.ofBits_def, Ideal.ofBits_def, Ideal.ofBits_zero_f32, zero_add, sum_rows]
  unfold Cert.Spec.final
  refine congrArg (fun s => Ideal.div s Cert.Spec.c4) ?_
  exact Finset.sum_congr rfl fun b _ => rowLoss_at a0 a1 a2 b

end Cert.RefSide

end
-- ==== Proof.lean ====
/-
  The pairwise-loss kernel against its reference, over the extended reals.

  Both programs gather 4096 predictions and labels per batch row and average, over the four rows, the sum over all
  pairs `i < j` of a Huber-like loss of `max (x_i - max x_j 0) 0`, weighted 3 where the labels agree, divided by the
  number of pairs.  The kernel visits the ten 1024 × 1024 tiles on and above the diagonal of the pair table, masks
  each to the strict upper triangle, sums a tile's rows on the matrix unit and its lanes after, and accumulates the
  tile sums in a scratch cell over a grid of 4 rows × 10 tiles; the reference forms the whole masked table and sums
  it.  At the ideal instance a sum regroups freely and the reference's 0/1 blend is the kernel's selection on every
  extended real, so the two results are one function of the arguments (`Cert.Spec.final`).

  The frames: each kernel program runs by the launch of its one region between host lines (its row and column
  windows share the arrays of sampled values, held at half shares), the reference by its run read back.
-/
import proofs.«400616_j27212912788010_3_alg».proof.Defs
import proofs.«400616_j27212912788010_3_alg».proof.Proof.Gen.Kernel
import proofs.«400616_j27212912788010_3_alg».proof.Proof.Gen.KernelIdeal
import proofs.«400616_j27212912788010_3_alg».proof.Proof.Gen.ReferenceIdeal
import proofs.«400616_j27212912788010_3_alg».proof.Proof.Gen.Pre_finite_inputs
import proofs.«400616_j27212912788010_3_alg».proof.Proof.K.Body
import proofs.«400616_j27212912788010_3_alg».proof.Proof.K.Launch
import proofs.«400616_j27212912788010_3_alg».proof.Proof.KI.Body
import proofs.«400616_j27212912788010_3_alg».proof.Proof.KI.Launch
import proofs.«400616_j27212912788010_3_alg».proof.Proof.KI.Value
import proofs.«400616_j27212912788010_3_alg».proof.Proof.KI.Gather
import proofs.«400616_j27212912788010_3_alg».proof.Proof.RefSide
import Idealize.ShloMosaic.Adequacy
import Idealize.ShloMosaic.Init

noncomputable section

namespace Cert.Proof

open Idealize.ShloMosaic Idealize.SL.Sem Idealize.ShloMosaic.TcCoe

/-- The kernel program as printed runs, and its arguments end unchanged. -/
theorem frame_k [Cert.Kernel.Facts] [Cert.Pre_finite_inputs.Facts] : Cert.frame_Kernel := fun m ρ _ =>
  (θ_run Cert.Kernel.defs _ _).mono (fun _ h c => (h c).2)
    (Cert.Kernel.Hand.run_shared (F := Bits) m ρ (Cert.Kernel.Hand.dats m)
      (fun c => (Cert.Kernel.Hand.body_obligation m c).loose) (fun _ => rfl) (fun _ => rfl) (fun _ => rfl) (fun _ => rfl)
      (fun _ _ => rfl) (Cert.Kernel.Hand.A_eq m) (Cert.Kernel.Hand.hin m) (Cert.Kernel.Hand.hout m))

/-- The idealized kernel program runs, and its arguments end unchanged. -/
theorem frame_ki [Cert.KernelIdeal.Facts] [Cert.Pre_finite_inputs.Facts] : Cert.frame_KernelIdeal := fun m ρ _ =>
  (θ_run Cert.KernelIdeal.defs _ _).mono (fun _ h c => (h c).2)
    (Cert.KernelIdeal.Hand.run_shared (F := Ideal) m ρ (Cert.KernelIdeal.Hand.dats m)
      (fun c => (Cert.KernelIdeal.Hand.body_obligation m c).loose) (fun _ => rfl) (fun _ => rfl) (fun _ => rfl) (fun _ => rfl)
      (fun _ _ => rfl) (Cert.KernelIdeal.Hand.A_eq m) (Cert.KernelIdeal.Hand.hin m) (Cert.KernelIdeal.Hand.hout m))

/-- The reference runs, and its arguments end unchanged: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the loss of the sampled rows: the
    kernel by its accumulation over the tiles, the reference by its masked table, and the sampled rows are the same
    gathers of the same arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => Cert.Spec.final (Cert.KernelIdeal.Hand.xK m c) (Cert.KernelIdeal.Hand.lK m c), ?_, ?_⟩
  · exact (θ_run Cert.KernelIdeal.defs _ _).mono
      (fun _ h c => ⟨(h c).1.trans (funext fun j => Cert.KernelIdeal.Hand.kernel_value m c j), (h c).2⟩)
      (Cert.KernelIdeal.Hand.run_shared (F := Ideal) m ρ (Cert.KernelIdeal.Hand.dats m)
        (fun c => (Cert.KernelIdeal.Hand.body_obligation m c).loose) (fun _ => rfl) (fun _ => rfl) (fun _ => rfl) (fun _ => rfl)
        (fun _ _ => rfl) (Cert.KernelIdeal.Hand.A_eq m) (Cert.KernelIdeal.Hand.hin m) (Cert.KernelIdeal.Hand.hout m))
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v54_eq]
    funext j
    rw [Cert.RefSide.ref_value, (hagree c).1, (hagree c).2.1, (hagree c).2.2]
    have hx : Cert.RefSide.xR (m ((c.tc : Thread Cert.KernelIdeal.nD Cert.KernelIdeal.τ).loc Cert.KernelIdeal.main_arg0)) (m ((c.tc : Thread Cert.KernelIdeal.nD Cert.KernelIdeal.τ).loc Cert.KernelIdeal.main_arg2))
        = Cert.KernelIdeal.Hand.xK m c := by
      funext b i; unfold Cert.RefSide.xR Cert.KernelIdeal.Hand.xK; rw [Cert.KernelIdeal.Hand.pred_eq (F := Ideal) m c]
    have hl : Cert.RefSide.lR (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        = Cert.KernelIdeal.Hand.lK m c := by
      funext b i; unfold Cert.RefSide.lR Cert.KernelIdeal.Hand.lK; rw [Cert.KernelIdeal.Hand.lab_eq (F := Ideal) m c]
    rw [hx, hl]

theorem claim : Cert.Claim := ⟨Cert.Kernel.Gen.facts, Cert.KernelIdeal.Gen.facts, Cert.ReferenceIdeal.Gen.facts, Cert.Pre_finite_inputs.Gen.facts, by
  exact ⟨frame_k, frame_ki, frame_ri, trivial, algebraic⟩⟩

end Cert.Proof

end
